-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![16384, 4096]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 4096]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_finite_inputs_ReferenceIdeal.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S4096x4096 : Shape := ⟨2, ![4096, 4096]⟩
abbrev S16384x1024 : Shape := ⟨2, ![16384, 1024]⟩
abbrev S2x2048x1024 : Shape := ⟨3, ![2, 2048, 1024]⟩
abbrev S4096x1024 : Shape := ⟨2, ![4096, 1024]⟩
abbrev S3 : Shape := ⟨1, ![3]⟩
abbrev S2 : Shape := ⟨1, ![2]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S16384x1024, .bf16⟩
  | .local _ .vmem, ⟨0, _⟩ => ⟨S2x2048x1024, .f32⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) (c1_i32_37 : BitVec 32) : Fin 2 → Nat :=
  let c0_i32_62 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32 : BitVec 32 := 1024#32
  let v94 : BitVec 32 := Scalar.muli v71 c1024_i32
  ![0, v94.toNat]
def k0_off2 (d0 : Dev nD) (c1_i32_37 : BitVec 32) : Fin 2 → Nat :=
  let c2048_i32 : BitVec 32 := 2048#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1024_i32_63 : BitVec 32 := 1024#32
  let v100 : BitVec 32 := Scalar.muli v71 c1024_i32_63
  ![2048, v100.toNat]
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v142 : BitVec 32 := Scalar.muli v8 c4096_i32
  let c0_i32_112 : BitVec 32 := 0#32
  ![v142.toNat, 0]
def k0_dev4 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v154 : BitVec 32 := Scalar.muli v2 c16_i32_108
  let v155 : BitVec 32 := Scalar.addi c0_i32_109 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v156 : BitVec 32 := Scalar.muli v5 c4_i32_110
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v143 : BitVec 32 := Scalar.addi v8 c1_i32_99
  let c4_i32_100 : BitVec 32 := 4#32
  let c0_i32_101 : BitVec 32 := 0#32
  let v144 : BitVec 1 := Scalar.cmpi .eq c4_i32_100 c0_i32_101
  let c1_i32_102 : BitVec 32 := 1#32
  let v145 : BitVec 32 := Scalar.select v144 c1_i32_102 c4_i32_100
  let v146 : BitVec 32 := Scalar.remsi v143 v145
  let c0_i32_104 : BitVec 32 := 0#32
  let v148 : BitVec 1 := Scalar.cmpi .slt v146 c0_i32_104
  let c0_i32_105 : BitVec 32 := 0#32
  let v149 : BitVec 1 := Scalar.cmpi .slt v145 c0_i32_105
  let v150 : BitVec 1 := Scalar.xori v148 v149
  let c0_i32_103 : BitVec 32 := 0#32
  let v147 : BitVec 1 := Scalar.cmpi .ne v146 c0_i32_103
  let v151 : BitVec 1 := Scalar.andi v150 v147
  let v152 : BitVec 32 := Scalar.addi v146 v145
  let v153 : BitVec 32 := Scalar.select v151 v152 v146
  let c1_i32_111 : BitVec 32 := 1#32
  let v158 : BitVec 32 := Scalar.muli v153 c1_i32_111
  let v159 : BitVec 32 := Scalar.addi v157 v158
  v159.toNat
def k0_dev5 (d0 : Dev nD) : Nat :=
  let c0_i32_158 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_157 : BitVec 32 := 16#32
  let v213 : BitVec 32 := Scalar.muli v2 c16_i32_157
  let v214 : BitVec 32 := Scalar.addi c0_i32_158 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_159 : BitVec 32 := 4#32
  let v215 : BitVec 32 := Scalar.muli v5 c4_i32_159
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_148 : BitVec 32 := 2#32
  let v202 : BitVec 32 := Scalar.addi v8 c2_i32_148
  let c4_i32_149 : BitVec 32 := 4#32
  let c0_i32_150 : BitVec 32 := 0#32
  let v203 : BitVec 1 := Scalar.cmpi .eq c4_i32_149 c0_i32_150
  let c1_i32_151 : BitVec 32 := 1#32
  let v204 : BitVec 32 := Scalar.select v203 c1_i32_151 c4_i32_149
  let v205 : BitVec 32 := Scalar.remsi v202 v204
  let c0_i32_153 : BitVec 32 := 0#32
  let v207 : BitVec 1 := Scalar.cmpi .slt v205 c0_i32_153
  let c0_i32_154 : BitVec 32 := 0#32
  let v208 : BitVec 1 := Scalar.cmpi .slt v204 c0_i32_154
  let v209 : BitVec 1 := Scalar.xori v207 v208
  let c0_i32_152 : BitVec 32 := 0#32
  let v206 : BitVec 1 := Scalar.cmpi .ne v205 c0_i32_152
  let v210 : BitVec 1 := Scalar.andi v209 v206
  let v211 : BitVec 32 := Scalar.addi v205 v204
  let v212 : BitVec 32 := Scalar.select v210 v211 v205
  let c1_i32_160 : BitVec 32 := 1#32
  let v217 : BitVec 32 := Scalar.muli v212 c1_i32_160
  let v218 : BitVec 32 := Scalar.addi v216 v217
  v218.toNat
def k0_off4 (d0 : Dev nD) : Fin 2 → Nat :=
  let c0_i32_178 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_173 : BitVec 32 := 1024#32
  let v236 : BitVec 32 := Scalar.muli v8 c1024_i32_173
  ![0, v236.toNat]
def k0_off5 (d0 : Dev nD) : Fin 2 → Nat :=
  let c2048_i32_195 : BitVec 32 := 2048#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_190 : BitVec 32 := 1024#32
  let v254 : BitVec 32 := Scalar.muli v8 c1024_i32_190
  ![2048, v254.toNat]
def k0_dev6 (d0 : Dev nD) : Nat :=
  let c0_i32_207 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_206 : BitVec 32 := 16#32
  let v272 : BitVec 32 := Scalar.muli v2 c16_i32_206
  let v273 : BitVec 32 := Scalar.addi c0_i32_207 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_208 : BitVec 32 := 4#32
  let v274 : BitVec 32 := Scalar.muli v5 c4_i32_208
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_197 : BitVec 32 := 3#32
  let v261 : BitVec 32 := Scalar.addi v8 c3_i32_197
  let c4_i32_198 : BitVec 32 := 4#32
  let c0_i32_199 : BitVec 32 := 0#32
  let v262 : BitVec 1 := Scalar.cmpi .eq c4_i32_198 c0_i32_199
  let c1_i32_200 : BitVec 32 := 1#32
  let v263 : BitVec 32 := Scalar.select v262 c1_i32_200 c4_i32_198
  let v264 : BitVec 32 := Scalar.remsi v261 v263
  let c0_i32_202 : BitVec 32 := 0#32
  let v266 : BitVec 1 := Scalar.cmpi .slt v264 c0_i32_202
  let c0_i32_203 : BitVec 32 := 0#32
  let v267 : BitVec 1 := Scalar.cmpi .slt v263 c0_i32_203
  let v268 : BitVec 1 := Scalar.xori v266 v267
  let c0_i32_201 : BitVec 32 := 0#32
  let v265 : BitVec 1 := Scalar.cmpi .ne v264 c0_i32_201
  let v269 : BitVec 1 := Scalar.andi v268 v265
  let v270 : BitVec 32 := Scalar.addi v264 v263
  let v271 : BitVec 32 := Scalar.select v269 v270 v264
  let c1_i32_209 : BitVec 32 := 1#32
  let v276 : BitVec 32 := Scalar.muli v271 c1_i32_209
  let v277 : BitVec 32 := Scalar.addi v275 v276
  v277.toNat
def k0_off6 (d0 : Dev nD) (c1_i32_248 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v319 : BitVec 32 := Scalar.subi v8 c1_i32_248
  let c4_i32_249 : BitVec 32 := 4#32
  let c0_i32_250 : BitVec 32 := 0#32
  let v320 : BitVec 1 := Scalar.cmpi .eq c4_i32_249 c0_i32_250
  let c1_i32_251 : BitVec 32 := 1#32
  let v321 : BitVec 32 := Scalar.select v320 c1_i32_251 c4_i32_249
  let v322 : BitVec 32 := Scalar.remsi v319 v321
  let c0_i32_253 : BitVec 32 := 0#32
  let v324 : BitVec 1 := Scalar.cmpi .slt v322 c0_i32_253
  let c0_i32_254 : BitVec 32 := 0#32
  let v325 : BitVec 1 := Scalar.cmpi .slt v321 c0_i32_254
  let v326 : BitVec 1 := Scalar.xori v324 v325
  let c0_i32_252 : BitVec 32 := 0#32
  let v323 : BitVec 1 := Scalar.cmpi .ne v322 c0_i32_252
  let v327 : BitVec 1 := Scalar.andi v326 v323
  let v328 : BitVec 32 := Scalar.addi v322 v321
  let v329 : BitVec 32 := Scalar.select v327 v328 v322
  let c4096_i32_255 : BitVec 32 := 4096#32
  let v330 : BitVec 32 := Scalar.muli v329 c4096_i32_255
  let c0_i32_262 : BitVec 32 := 0#32
  ![v330.toNat, 0]

class Facts₀ : Prop where
  hamt_1 : (1#32 : BitVec 32).msb = false
  hamt_3 : (3#32 : BitVec 32).msb = false
  inb_S2_S1_0 : ∀ a, (![0] : Fin 1 → Nat) a + S1.size a ≤ S2.size a
  squeezes_S1_S_ : S1.Squeezes S_
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S4096x1024_S2048x1024_0_0 : ∀ a, (![0, 0] : Fin 2 → Nat) a + S2048x1024.size a ≤ S4096x1024.size a
  h_S2048x1024 : 0 < S2048x1024.numel
  shapeCasts_S2048x1024_S2048x1024 : S2048x1024.ShapeCasts S2048x1024
  packedbf16_S4096x1024_S2048x1024_0_0 : (Rect.unit (s := S4096x1024) ![0, 0] S2048x1024.size inb_S4096x1024_S2048x1024_0_0).PackedRows (EltTy.packing .bf16)
  inb_S4096x1024_S2048x1024_2048_0 : ∀ a, (![2048, 0] : Fin 2 → Nat) a + S2048x1024.size a ≤ S4096x1024.size a
  packedbf16_S4096x1024_S2048x1024_2048_0 : (Rect.unit (s := S4096x1024) ![2048, 0] S2048x1024.size inb_S4096x1024_S2048x1024_2048_0).PackedRows (EltTy.packing .bf16)
  inb_S3_S1_0 : ∀ a, (![0] : Fin 1 → Nat) a + S1.size a ≤ S3.size a
  inb_S3_S1_1 : ∀ a, (![1] : Fin 1 → Nat) a + S1.size a ≤ S3.size a
  inb_S3_S1_2 : ∀ a, (![2] : Fin 1 → Nat) a + S1.size a ≤ S3.size a
  hcc0_scratch5 : 0 + S3.numel ≤ 9
  hcc0_scratch6 : 3 + S3.numel ≤ 9
  hcc0_scratch7 : 6 + S2.numel ≤ 9
  hcc0_scratch8 : 8 + S_.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S2048x1024.size a ≤ S4096x4096.size a
  k0_off2_inb : ∀ d0 : Dev nD, ∀ (r : Fin 3), ∀ a, (k0_off2 d0 (BitVec.ofNat 32 (1 + r.val))) a + S2048x1024.size a ≤ S4096x4096.size a
  k0_off3_inb : ∀ d0 : Dev nD, ∀ a, (k0_off3 d0) a + S4096x1024.size a ≤ S16384x1024.size a
  k0_off3_wordsbf16 : ∀ d0 : Dev nD, (Rect.unit (s := S16384x1024) (k0_off3 d0) S4096x1024.size (k0_off3_inb d0)).WholeWords (EltTy.packing .bf16)
  k0_dev4_lt : ∀ d0 : Dev nD, (k0_dev4 d0) < nD
  k0_dev5_lt : ∀ d0 : Dev nD, (k0_dev5 d0) < nD
  k0_off4_inb : ∀ d0 : Dev nD, ∀ a, (k0_off4 d0) a + S2048x1024.size a ≤ S4096x4096.size a
  k0_off5_inb : ∀ d0 : Dev nD, ∀ a, (k0_off5 d0) a + S2048x1024.size a ≤ S4096x4096.size a
  k0_dev6_lt : ∀ d0 : Dev nD, (k0_dev6 d0) < nD
  k0_off6_inb : ∀ d0 : Dev nD, ∀ (r : Fin 3), ∀ a, (k0_off6 d0 (BitVec.ofNat 32 (1 + r.val))) a + S4096x1024.size a ≤ S16384x1024.size a
  k0_off6_wordsbf16 : ∀ d0 : Dev nD, ∀ (r : Fin 3), (Rect.unit (s := S16384x1024) (k0_off6 d0 (BitVec.ofNat 32 (1 + r.val))) S4096x1024.size (k0_off6_inb d0 r)).WholeWords (EltTy.packing .bf16)

variable [Facts₀]

abbrev cc0_scratch5 : DmaSems sig S3 := SemArray.consecutive 0 S3 hcc0_scratch5
abbrev cc0_scratch6 : DmaSems sig S3 := SemArray.consecutive 3 S3 hcc0_scratch6
abbrev cc0_scratch7 : DmaSems sig S2 := SemArray.consecutive 6 S2 hcc0_scratch7
abbrev cc0_scratch8 : DmaSems sig S_ := SemArray.consecutive 8 S_ hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x4096 : Shape := ⟨2, ![16384, 4096]⟩

abbrev nBuf : Space → Nat
  | .hbm => 2
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Mesh.lean ====
/- The mesh along its last axis: devices are numbered row-major over (x, y, z) = (2, 4, 4), so a device's
   z-coordinate is its number mod 4 and the devices sharing its (x, y) are its number with the last base-4 digit
   changed. `peer c d` is the device d steps further round that ring of four. Closed forms of the printed
   device chains and of the printed offset chains follow, each decided over the 32 devices. -/
import proofs.«900656_g7700000000000657_dist_a2a_v7x_xyz2x4x4_z_m4096_n1024_bf16_1_alg».proof.Proof.Gen.KernelIdeal

set_option Elab.async false

namespace Cert.KernelIdeal.A2A

open Idealize.ShloMosaic Idealize.SL.Sem Cert.KernelIdeal Cert.KernelIdeal.Gen

/-- A device's coordinate on the last mesh axis. -/
def zc (c : Dev nD) : Fin 4 := ⟨c.val % 4, Nat.mod_lt _ (by decide)⟩

/-- The device `d` steps further along the last axis, the other coordinates kept. -/
def peer (c : Dev nD) (d : ℕ) : Dev nD := ⟨c.val / 4 * 4 + (c.val % 4 + d) % 4, by
  have h1 : c.val / 4 < 8 := Nat.div_lt_of_lt_mul c.isLt
  have h2 : (c.val % 4 + d) % 4 < 4 := Nat.mod_lt _ (by decide)
  show c.val / 4 * 4 + (c.val % 4 + d) % 4 < 32
  omega⟩

theorem peer_val (c : Dev nD) (d : ℕ) : (peer c d).val = c.val / 4 * 4 + (c.val % 4 + d) % 4 := rfl

theorem peer_peer (c : Dev nD) (a b : ℕ) : peer (peer c a) b = peer c (a + b) := by
  apply Fin.ext
  simp only [peer_val]
  have h2 : (c.val % 4 + a) % 4 < 4 := Nat.mod_lt _ (by decide)
  omega

theorem peer_zero (c : Dev nD) : peer c 0 = c := by
  apply Fin.ext; simp only [peer_val]; omega
theorem peer_four (c : Dev nD) : peer c 4 = c := by
  apply Fin.ext; simp only [peer_val]; omega

theorem zc_peer (c : Dev nD) (d : ℕ) : (zc (peer c d)).val = (c.val % 4 + d) % 4 := by
  show (peer c d).val % 4 = _
  simp only [peer_val]; omega

theorem peer_ne_self (c : Dev nD) (d : ℕ) (h : d % 4 ≠ 0) : peer c d ≠ c := by
  intro e
  have := congrArg Fin.val e
  simp only [peer_val] at this
  omega

/-- Stepping by `d` is a bijection of the devices, with inverse stepping by `4 - d` (for d ≤ 4). -/
def shift (d : ℕ) (hd : d ≤ 4) : Dev nD ≃ Dev nD :=
  ⟨fun c => peer c d, fun c => peer c (4 - d),
   fun c => by show peer (peer c d) (4 - d) = c; rw [peer_peer, show d + (4 - d) = 4 by omega, peer_four],
   fun c => by show peer (peer c (4 - d)) d = c; rw [peer_peer, show 4 - d + d = 4 by omega, peer_four]⟩

/-! ## The printed device chains -/

theorem dev1_val : ∀ c : Dev nD, k0_dev1 c = (peer c 1).val := by decide +kernel
theorem dev2_val : ∀ c : Dev nD, k0_dev2 c = (peer c 2).val := by decide +kernel
theorem dev3_val : ∀ c : Dev nD, k0_dev3 c = (peer c 3).val := by decide +kernel
theorem dev4_val : ∀ c : Dev nD, k0_dev4 c = (peer c 1).val := by decide +kernel
theorem dev5_val : ∀ c : Dev nD, k0_dev5 c = (peer c 2).val := by decide +kernel
theorem dev6_val : ∀ c : Dev nD, k0_dev6 c = (peer c 3).val := by decide +kernel

theorem dev1_eq (c : Dev nD) : (⟨k0_dev1 c, k0_dev1_lt c⟩ : Dev nD) = peer c 1 := Fin.ext (dev1_val c)
theorem dev2_eq (c : Dev nD) : (⟨k0_dev2 c, k0_dev2_lt c⟩ : Dev nD) = peer c 2 := Fin.ext (dev2_val c)
theorem dev3_eq (c : Dev nD) : (⟨k0_dev3 c, k0_dev3_lt c⟩ : Dev nD) = peer c 3 := Fin.ext (dev3_val c)
theorem dev4_eq (c : Dev nD) : (⟨k0_dev4 c, k0_dev4_lt c⟩ : Dev nD) = peer c 1 := Fin.ext (dev4_val c)
theorem dev5_eq (c : Dev nD) : (⟨k0_dev5 c, k0_dev5_lt c⟩ : Dev nD) = peer c 2 := Fin.ext (dev5_val c)
theorem dev6_eq (c : Dev nD) : (⟨k0_dev6 c, k0_dev6_lt c⟩ : Dev nD) = peer c 3 := Fin.ext (dev6_val c)

/-! ## The printed offset chains -/

/-- Columns of the input read for the block sent `1 + r` steps on: the columns of that peer's z-coordinate. -/
theorem off1_eq : ∀ (c : Dev nD) (r : Fin 3), k0_off1 c (BitVec.ofNat 32 (1 + r.val)) = ![0, 1024 * ((c.val % 4 + 1 + r.val) % 4)] := by decide +kernel
theorem off2_eq : ∀ (c : Dev nD) (r : Fin 3), k0_off2 c (BitVec.ofNat 32 (1 + r.val)) = ![2048, 1024 * ((c.val % 4 + 1 + r.val) % 4)] := by decide +kernel
/-- Rows of the result where the block received from `1 + r` steps back lands. -/
theorem off6_eq : ∀ (c : Dev nD) (r : Fin 3), k0_off6 c (BitVec.ofNat 32 (1 + r.val)) = ![4096 * ((c.val % 4 + 3 - r.val) % 4), 0] := by decide +kernel

end Cert.KernelIdeal.A2A
-- ==== Proof.Sched.lean ====
/- The cross-device protocol of the all-to-all along the last mesh axis, as a rounds schedule.

   Each device owns seven cells: its barrier cell (three units, one from each of the three other devices of its
   ring of four), three send cells and three receive cells (one per outgoing slot), each of one duty.
   What a barrier unit carries: the signaller lends the rows of its own result buffer that the signalled device
   will fill, and records that its matching receive cell has been opened. What a receive unit carries: those rows
   back, holding the sender's block. What a send unit carries: the sender's block buffer back.
   The blocks' contents `B` are a parameter here; the value module supplies them. -/
import proofs.«900656_g7700000000000657_dist_a2a_v7x_xyz2x4x4_z_m4096_n1024_bf16_1_alg».proof.Proof.Mesh
import proofs.«900656_g7700000000000657_dist_a2a_v7x_xyz2x4x4_z_m4096_n1024_bf16_1_alg».proof.Proof.Gen.KernelIdeal.Skeleton
import proofs.«900656_g7700000000000657_dist_a2a_v7x_xyz2x4x4_z_m4096_n1024_bf16_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Fin 3`), and the counters the
     local copies' invariants draw on -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

/-! ## Memrefs, semaphores and cells -/

abbrev xM : Memref sig .tc .hbm S4096x4096 .f32 := Memref.whole main_arg0
abbrev oM : Memref sig .tc .hbm S16384x1024 .bf16 := Memref.whole main_v1
abbrev stgM : Memref sig .tc .vmem S2x2048x1024 .f32 := Memref.whole cc0_scratch0
abbrev blk0 : Memref sig .tc .vmem S4096x1024 .bf16 := Memref.whole cc0_scratch1
abbrev blk1 : Memref sig .tc .vmem S4096x1024 .bf16 := Memref.whole cc0_scratch2
abbrev blk2 : Memref sig .tc .vmem S4096x1024 .bf16 := Memref.whole cc0_scratch3
abbrev blk3 : Memref sig .tc .vmem S4096x1024 .bf16 := Memref.whole cc0_scratch4

abbrev barS : Sem sig := (SemArray.scalar (sig.barrier 0 rfl) : Sems sig S_).sem
abbrev send0 : DmaSem sig := ((cc0_scratch5.slice (Rect.unit (s := S3) ![0] S1.size inb_S3_S1_0)).squeeze S_ squeezes_S1_S_).sem
abbrev send1 : DmaSem sig := ((cc0_scratch5.slice (Rect.unit (s := S3) ![1] S1.size inb_S3_S1_1)).squeeze S_ squeezes_S1_S_).sem
abbrev send2 : DmaSem sig := ((cc0_scratch5.slice (Rect.unit (s := S3) ![2] S1.size inb_S3_S1_2)).squeeze S_ squeezes_S1_S_).sem
abbrev recv0 : DmaSem sig := ((cc0_scratch6.slice (Rect.unit (s := S3) ![0] S1.size inb_S3_S1_0)).squeeze S_ squeezes_S1_S_).sem
abbrev recv1 : DmaSem sig := ((cc0_scratch6.slice (Rect.unit (s := S3) ![1] S1.size inb_S3_S1_1)).squeeze S_ squeezes_S1_S_).sem
abbrev recv2 : DmaSem sig := ((cc0_scratch6.slice (Rect.unit (s := S3) ![2] S1.size inb_S3_S1_2)).squeeze S_ squeezes_S1_S_).sem
abbrev load0 : DmaSem sig := ((cc0_scratch7.slice (Rect.unit (s := S2) ![0] S1.size inb_S2_S1_0)).squeeze S_ squeezes_S1_S_).sem
abbrev load1 : DmaSem sig := ((cc0_scratch7.slice (Rect.unit (s := S2) ![1] S1.size inb_S2_S1_1)).squeeze S_ squeezes_S1_S_).sem
abbrev storeS : DmaSem sig := cc0_scratch8.sem

abbrev sendS : Fin 3 → DmaSem sig | 0 => send0 | 1 => send1 | 2 => send2
abbrev recvS : Fin 3 → DmaSem sig | 0 => recv0 | 1 => recv1 | 2 => recv2

abbrev barCell (c : Dev nD) : GSem nD τ sig := ((c : Thread nD τ), .reg barS)
abbrev sendCell (c : Dev nD) (s : Fin 3) : GSem nD τ sig := ((c : Thread nD τ), .dma (sendS s))
abbrev recvCell (c : Dev nD) (s : Fin 3) : GSem nD τ sig := ((c : Thread nD τ), .dma (recvS s))

/-- The rows of a result buffer that sender `c` fills: its own z-coordinate's block of 4096 rows. -/
abbrev rowsM (c : Dev nD) : Memref sig .tc .hbm S4096x1024 .bf16 :=
  oM.slice (Rect.unit (s := S16384x1024) (k0_off3 c) S4096x1024.size (k0_off3_inb c)) (fun _ => rfl)

abbrev N : ℕ := (blk0 : Memref sig .tc .vmem S4096x1024 .bf16).view.dmaCredit
theorem N_pos : 0 < N := View.dmaCredit_pos _ (by decide)

/-! ## Contents and points-to assertions -/

variable (m : (ℓ : Loc nD τ sig) → Buf (Elt F) ℓ) (ρ : Dev nD → PrngReg)
-- The blocks' contents, by device and slot (slot 3 is the block kept): a parameter of the protocol.
variable (B : Dev nD → Fin 4 → (cc0_scratch1 : Ref sig .tc).ty.Contents (Elt F))

/-- The rows sender `w` fills, in device `q`'s result buffer, at contents `f`. -/
def rowsPts (q w : Dev nD) (f : Buf (Elt F) ((rowsM w).view.loc (q : Thread nD τ))) : sProp 𝕄 :=
  (rowsM w).view.loc (q : Thread nD τ) ↦[(rowsM w).view.set]{fullShare} f

/-- A buffer `b` of device `c`, whole, at contents `f`. -/
def bufPts (c : Dev nD) (b : Ref sig .tc) (f : Buf (Elt F) ((c : Thread nD τ).loc b)) : sProp 𝕄 :=
  ((c : Thread nD τ).loc b) ↦{fullShare} f

/-- What `q`'s result buffer holds on the rows sender `w` fills once a block `v` has landed there. -/
def landed (q w : Dev nD) (v : (cc0_scratch1 : Ref sig .tc).ty.Contents (Elt F)) : Buf (Elt F) ((rowsM w).view.loc (q : Thread nD τ)) :=
  (rowsM w).view.write (Elt F) (m ((q : Thread nD τ).loc main_v1)) v Finset.univ

omit [FloatOps F] in
instance rowsPts_storable (q w : Dev nD) (f) : BI.Storable (upEmb : UEmb _ 𝕄) (rowsPts (F := F) q w f) := by unfold rowsPts; infer_instance
omit [FloatOps F] in
instance bufPts_storable (c : Dev nD) (b : Ref sig .tc) (f) : BI.Storable (upEmb : UEmb _ 𝕄) (bufPts (F := F) c b f) := by unfold bufPts; infer_instance

/-! ## The schedule -/

/-- Barrier unit `k` of device `c` comes from `q = peer c (3 - k)`, whose `(k+1)`-th signal it is: `q` lends the
    rows `c` fills in its result buffer and says its receive cell `2 - k` is open. -/
def barPay (c : Dev nD) (k : Fin 3) : sProp 𝕄 :=
  iprop(rowsPts (peer c (3 - k.val)) c (m (((peer c (3 - k.val) : Dev nD) : Thread nD τ).loc main_v1))
    ∗ reached ER (recvCell (peer c (3 - k.val)) ⟨2 - k.val, by omega⟩) 0)
/-- The receive unit of slot `s` on device `c` comes from `w = peer c (3 - s)`: the rows `w` fills, holding its block. -/
def recvPay (c : Dev nD) (s : Fin 3) : sProp 𝕄 :=
  rowsPts c (peer c (3 - s.val)) (landed m c (peer c (3 - s.val)) (B (peer c (3 - s.val)) s.castSucc))
/-- The send unit of slot `s`: the block buffer back. -/
def sendPay (c : Dev nD) (s : Fin 3) : sProp 𝕄 :=
  match s with
  | 0 => bufPts c cc0_scratch1 (B c 0)
  | 1 => bufPts c cc0_scratch2 (B c 1)
  | 2 => bufPts c cc0_scratch3 (B c 2)

abbrev IsBar (g : GSem nD τ sig) : Prop := g.1.2 = .tc ∧ g.2 = .reg barS
abbrev IsXfer (g : GSem nD τ sig) : Prop :=
  g.1.2 = .tc ∧ (g.2 = .dma send0 ∨ g.2 = .dma send1 ∨ g.2 = .dma send2 ∨ g.2 = .dma recv0 ∨ g.2 = .dma recv1 ∨ g.2 = .dma recv2)

/-- One round: a barrier cell has three duties of one unit; each send or receive cell the duty `0` of a block's credit. -/
def a2aRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay m g.1.1 d
    else if g.2 = .dma send0 then sendPay B g.1.1 0
    else if g.2 = .dma send1 then sendPay B g.1.1 1
    else if g.2 = .dma send2 then sendPay B g.1.1 2
    else if g.2 = .dma recv0 then recvPay m B g.1.1 0
    else if g.2 = .dma recv1 then recvPay m B g.1.1 1
    else if g.2 = .dma recv2 then recvPay m B g.1.1 2
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 3) :
    BI.Storable (upEmb : UEmb _ 𝕄) ((a2aRd (F := F) m B).payload g r d) := by
  show BI.Storable upEmb (if g.2 = .reg barS then barPay m g.1.1 d
    else if g.2 = .dma send0 then sendPay B g.1.1 0
    else if g.2 = .dma send1 then sendPay B g.1.1 1
    else if g.2 = .dma send2 then sendPay B g.1.1 2
    else if g.2 = .dma recv0 then recvPay m B g.1.1 0
    else if g.2 = .dma recv1 then recvPay m B g.1.1 1
    else if g.2 = .dma recv2 then recvPay m B g.1.1 2
    else iprop(emp))
  unfold barPay recvPay sendPay
  (repeat' split) <;> infer_instance

end Cert.KernelIdeal.A2A

end
-- ==== Proof.Data.lean ====
/- The schedule's tables read at each cell, what each device owes at launch, the levels, and the proof data of
   the one grid point: what a device's thread starts from and what it leaves. -/
import proofs.«900656_g7700000000000657_dist_a2a_v7x_xyz2x4x4_z_m4096_n1024_bf16_1_alg».proof.Proof.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (B : Dev nD → Fin 4 → (cc0_scratch1 : Ref sig .tc).ty.Contents (Elt F))

/-- The memory at launch: arbitrary contents, every semaphore counter zero, arbitrary generator registers. -/
def s₀ : MemSt nD τ sig (Elt F) := ⟨m, fun _ => 0, ρ⟩

/-! ## The tables -/

section Tables
variable (c : Dev nD)

theorem xfer_ne_bar (q : DmaSem sig) : (SemLoc.dma q : SemLoc sig) ≠ .reg barS := fun h => by cases h
theorem isXfer_send (s : Fin 3) : IsXfer (sendCell c s) := by
  refine ⟨rfl, ?_⟩; fin_cases s
  · exact .inl rfl
  · exact .inr (.inl rfl)
  · exact .inr (.inr (.inl rfl))
theorem isXfer_recv (s : Fin 3) : IsXfer (recvCell c s) := by
  refine ⟨rfl, ?_⟩; fin_cases s
  · exact .inr (.inr (.inr (.inl rfl)))
  · exact .inr (.inr (.inr (.inr (.inl rfl))))
  · exact .inr (.inr (.inr (.inr (.inr rfl))))

omit [FloatOps F] in
theorem duties_bar : (a2aRd (F := F) m B).duties (barCell c) 0 = Finset.univ := by dsimp only [a2aRd]; exact if_pos ⟨rfl, rfl, rfl⟩
omit [FloatOps F] in
theorem duties_send (s : Fin 3) : (a2aRd (F := F) m B).duties (sendCell c s) 0 = {0} := by
  dsimp only [a2aRd]; rw [if_neg (fun h => xfer_ne_bar _ h.2.2)]; exact if_pos ⟨rfl, isXfer_send c s⟩
omit [FloatOps F] in
theorem duties_recv (s : Fin 3) : (a2aRd (F := F) m B).duties (recvCell c s) 0 = {0} := by
  dsimp only [a2aRd]; rw [if_neg (fun h => xfer_ne_bar _ h.2.2)]; exact if_pos ⟨rfl, isXfer_recv c s⟩
omit [FloatOps F] in
theorem duties_later (g : GSem nD τ sig) : ∀ r, 1 ≤ r → (a2aRd (F := F) m B).duties g r = ∅ :=
  fun r hr => by dsimp only [a2aRd]; rw [if_neg fun h => by omega, if_neg fun h => by omega]

omit [FloatOps F] in
theorem amount_bar (d : Fin 3) : (a2aRd (F := F) m B).amount (barCell c) 0 d = 1 := by dsimp only [a2aRd]; exact if_pos rfl
omit [FloatOps F] in
theorem amount_send (s : Fin 3) (d : Fin 3) : (a2aRd (F := F) m B).amount (sendCell c s) 0 d = N := by dsimp only [a2aRd]; exact if_neg (xfer_ne_bar _)
omit [FloatOps F] in
theorem amount_recv (s : Fin 3) (d : Fin 3) : (a2aRd (F := F) m B).amount (recvCell c s) 0 d = N := by dsimp only [a2aRd]; exact if_neg (xfer_ne_bar _)

omit [FloatOps F] in
theorem expect_bar : (a2aRd (F := F) m B).expect (barCell c) 0 = 3 := by
  unfold Schedule.expect Schedule.amountOf
  rw [duties_bar, Finset.sum_congr rfl fun d _ => amount_bar m B c d, Finset.sum_const, Finset.card_univ, Fintype.card_fin, smul_eq_mul]
omit [FloatOps F] in
theorem expect_send (s : Fin 3) : (a2aRd (F := F) m B).expect (sendCell c s) 0 = N := by
  unfold Schedule.expect Schedule.amountOf; rw [duties_send, Finset.sum_singleton, amount_send]
omit [FloatOps F] in
theorem expect_recv (s : Fin 3) : (a2aRd (F := F) m B).expect (recvCell c s) 0 = N := by
  unfold Schedule.expect Schedule.amountOf; rw [duties_recv, Finset.sum_singleton, amount_recv]

omit [FloatOps F] in
theorem payload_bar (k : Fin 3) : (a2aRd (F := F) m B).payload (barCell c) 0 k = barPay m c k := by dsimp only [a2aRd]; rw [if_pos rfl]
omit [FloatOps F] in
theorem payload_send0 (d : Fin 3) : (a2aRd (F := F) m B).payload (sendCell c 0) 0 d = bufPts c cc0_scratch1 (B c 0) := by
  dsimp only [a2aRd]; rw [if_neg (xfer_ne_bar _), if_pos rfl]; rfl
omit [FloatOps F] in
theorem payload_send1 (d : Fin 3) : (a2aRd (F := F) m B).payload (sendCell c 1) 0 d = bufPts c cc0_scratch2 (B c 1) := by
  dsimp only [a2aRd]; rw [if_neg (xfer_ne_bar _), if_neg (by decide), if_pos rfl]; rfl
omit [FloatOps F] in
theorem payload_send2 (d : Fin 3) : (a2aRd (F := F) m B).payload (sendCell c 2) 0 d = bufPts c cc0_scratch3 (B c 2) := by
  dsimp only [a2aRd]; rw [if_neg (xfer_ne_bar _), if_neg (by decide), if_neg (by decide), if_pos rfl]; rfl
omit [FloatOps F] in
theorem payload_recv0 (d : Fin 3) : (a2aRd (F := F) m B).payload (recvCell c 0) 0 d = recvPay m B c 0 := by
  dsimp only [a2aRd]; rw [if_neg (xfer_ne_bar _), if_neg (by decide), if_neg (by decide), if_neg (by decide), if_pos rfl]
omit [FloatOps F] in
theorem payload_recv1 (d : Fin 3) : (a2aRd (F := F) m B).payload (recvCell c 1) 0 d = recvPay m B c 1 := by
  dsimp only [a2aRd]; rw [if_neg (xfer_ne_bar _), if_neg (by decide), if_neg (by decide), if_neg (by decide), if_neg (by decide), if_pos rfl]
omit [FloatOps F] in
theorem payload_recv2 (d : Fin 3) : (a2aRd (F := F) m B).payload (recvCell c 2) 0 d = recvPay m B c 2 := by
  dsimp only [a2aRd]; rw [if_neg (xfer_ne_bar _), if_neg (by decide), if_neg (by decide), if_neg (by decide), if_neg (by decide), if_neg (by decide), if_pos rfl]

omit [FloatOps F] in
/-- A barrier unit's payload seen from the device `q` that pays it. -/
theorem barPay_eq (q : Dev nD) (k : Fin 3) (h : peer c (3 - k.val) = q) :
    barPay m c k = (iprop(((rowsM c).view.loc (q : Thread nD τ) ↦[(rowsM c).view.set]{fullShare} m ((q : Thread nD τ).loc main_v1))
      ∗ reached ER (recvCell q ⟨2 - k.val, by omega⟩) 0) : sProp 𝕄) := by
  subst h; rfl

omit [FloatOps F] in
theorem payload_bar_to1 : (a2aRd (F := F) m B).payload (barCell (peer c 1)) 0 0
    = (iprop(((rowsM (peer c 1)).view.loc (c : Thread nD τ) ↦[(rowsM (peer c 1)).view.set]{fullShare} m ((c : Thread nD τ).loc main_v1))
      ∗ reached ER (recvCell c 2) 0) : sProp 𝕄) := by
  rw [payload_bar, barPay_eq m (peer c 1) c 0 (by rw [peer_peer]; exact peer_four c)]; rfl
omit [FloatOps F] in
theorem payload_bar_to2 : (a2aRd (F := F) m B).payload (barCell (peer c 2)) 0 1
    = (iprop(((rowsM (peer c 2)).view.loc (c : Thread nD τ) ↦[(rowsM (peer c 2)).view.set]{fullShare} m ((c : Thread nD τ).loc main_v1))
      ∗ reached ER (recvCell c 1) 0) : sProp 𝕄) := by
  rw [payload_bar, barPay_eq m (peer c 2) c 1 (by rw [peer_peer]; exact peer_four c)]; rfl
omit [FloatOps F] in
theorem payload_bar_to3 : (a2aRd (F := F) m B).payload (barCell (peer c 3)) 0 2
    = (iprop(((rowsM (peer c 3)).view.loc (c : Thread nD τ) ↦[(rowsM (peer c 3)).view.set]{fullShare} m ((c : Thread nD τ).loc main_v1))
      ∗ reached ER (recvCell c 0) 0) : sProp 𝕄) := by
  rw [payload_bar, barPay_eq m (peer c 3) c 2 (by rw [peer_peer]; exact peer_four c)]; rfl

end Tables

/-! ## What each device owes at launch; the levels -/

/-- Device `c` owes each of its three peers a barrier unit and a block's credit on the receive cell of the slot
    by which it sends to that peer: slot `s` goes `s + 1` steps on. -/
def Orecv (c : Dev nD) : CellTallies nD τ sig Unit :=
  tallyAt (recvCell (peer c 3) 2) () N + tallyAt (recvCell (peer c 2) 1) () N + tallyAt (recvCell (peer c 1) 0) () N
def O₀ (c : Dev nD) : CellTallies nD τ sig Unit :=
  Orecv c + tallyAt (barCell (peer c 3)) () 1 + tallyAt (barCell (peer c 2)) () 1 + tallyAt (barCell (peer c 1)) () 1

def L (g : GSem nD τ sig) : Finset Unit := if g.1.2 = .tc then {()} else ∅
/-- Barrier cells at 1, receive cells at 2, every other cell (the sends, the local copies) at 0. -/
def lv (g : GSem nD τ sig) (_ : Unit) : ℕ :=
  if g.2 = .reg barS then 1 else if g.2 = .dma recv0 ∨ g.2 = .dma recv1 ∨ g.2 = .dma recv2 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The names of the cells' invariants and the ghost state of one device -/

/-- A device's seven cells: barrier, send 0–2, receive 0–2. -/
abbrev csem : Fin 7 → SemLoc sig
  | 0 => .reg barS | 1 => .dma send0 | 2 => .dma send1 | 3 => .dma send2 | 4 => .dma recv0 | 5 => .dma recv1 | 6 => .dma recv2
abbrev kcell (ck : Dev nD × Fin 7) : GSem nD τ sig := ((ck.1 : Thread nD τ), csem ck.2)

/-- The invariants device `c`'s thread opens: its own seven cells', its three peers' barrier cells' (its signals)
    and the receive cell on each peer that its send to that peer credits. -/
def invs (K : Dev nD × Fin 7 → ℕ) (c : Dev nD) : sProp 𝕄 :=
  iprop(cellInv ER (a2aRd m B) (K (c, 0)) (barCell c)
    ∗ cellInv ER (a2aRd m B) (K (c, 1)) (sendCell c 0) ∗ cellInv ER (a2aRd m B) (K (c, 2)) (sendCell c 1) ∗ cellInv ER (a2aRd m B) (K (c, 3)) (sendCell c 2)
    ∗ cellInv ER (a2aRd m B) (K (c, 4)) (recvCell c 0) ∗ cellInv ER (a2aRd m B) (K (c, 5)) (recvCell c 1) ∗ cellInv ER (a2aRd m B) (K (c, 6)) (recvCell c 2)
    ∗ cellInv ER (a2aRd m B) (K (peer c 1, 0)) (barCell (peer c 1)) ∗ cellInv ER (a2aRd m B) (K (peer c 2, 0)) (barCell (peer c 2)) ∗ cellInv ER (a2aRd m B) (K (peer c 3, 0)) (barCell (peer c 3))
    ∗ cellInv ER (a2aRd m B) (K (peer c 1, 4)) (recvCell (peer c 1) 0) ∗ cellInv ER (a2aRd m B) (K (peer c 2, 5)) (recvCell (peer c 2) 1) ∗ cellInv ER (a2aRd m B) (K (peer c 3, 6)) (recvCell (peer c 3) 2))

instance invs_persistent (K : Dev nD × Fin 7 → ℕ) (c : Dev nD) : BI.Persistent (invs m B K c) := by unfold invs; infer_instance

/-- Device `c`'s positions at the start of its own seven cells. -/
def positions (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That round 0 is open at every cell device `c` pays into, and at its own send and receive cells. -/
def marks (c : Dev nD) : sProp 𝕄 :=
  iprop(reached ER (barCell (peer c 1)) 0 ∗ reached ER (barCell (peer c 2)) 0 ∗ reached ER (barCell (peer c 3)) 0
    ∗ reached ER (recvCell (peer c 1) 0) 0 ∗ reached ER (recvCell (peer c 2) 1) 0 ∗ reached ER (recvCell (peer c 3) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the nine duties device `c` pays: unit `k` of the barrier cell `k + 1` steps on, the receive unit
    on each peer, and its own three send units. -/
def payToks (c : Dev nD) : sProp 𝕄 :=
  iprop(dutyTok ER (barCell (peer c 1)) 0 0 ∗ dutyTok ER (barCell (peer c 2)) 0 1 ∗ dutyTok ER (barCell (peer c 3)) 0 2
    ∗ dutyTok ER (recvCell (peer c 1) 0) 0 0 ∗ dutyTok ER (recvCell (peer c 2) 1) 0 0 ∗ dutyTok ER (recvCell (peer c 3) 2) 0 0
    ∗ dutyTok ER (sendCell c 0) 0 0 ∗ dutyTok ER (sendCell c 1) 0 0 ∗ dutyTok ER (sendCell c 2) 0 0)

def ghost (K : Dev nD × Fin 7 → ℕ) (c : Dev nD) : sProp 𝕄 :=
  iprop(invs m B K c ∗ positions c ∗ marks c ∗ payToks c)

/-- The counters of the three semaphores only local copies use, at zero. -/
def localSems (c : Dev nD) : sProp 𝕄 :=
  iprop(semVal ((c : Thread nD τ), .dma load0) 0 ∗ semVal ((c : Thread nD τ), .dma load1) 0 ∗ semVal ((c : Thread nD τ), .dma storeS) 0)

/-- The credit device `c` is dealt at launch: its barrier's three units and a block's credit on each receive cell. -/
def launchCreds (c : Dev nD) : sProp 𝕄 :=
  iprop(cred (tallyAt (barCell c) () 3) ∗ cred (tallyAt (recvCell c 0) () N) ∗ cred (tallyAt (recvCell c 1) () N) ∗ cred (tallyAt (recvCell c 2) () N))

/-- What the global step hands device `c`. -/
def G' (c : Dev nD) : sProp 𝕄 := iprop((∃ K, ghost m B K c) ∗ localSems c)

/-- What device `c`'s thread holds when the region is entered, the scratch buffers apart. -/
def start (c : Dev nD) : sProp 𝕄 :=
  iprop(G' m B c ∗ launchCreds c ∗ levAts L lv
    ∗ bufPts c main_arg0 (m ((c : Thread nD τ).loc main_arg0)) ∗ bufPts c main_v1 (m ((c : Thread nD τ).loc main_v1)))

/-- The five scratch buffers at some contents. -/
def scratch (c : Dev nD) : sProp 𝕄 :=
  iprop((∃ f, bufPts c cc0_scratch0 f) ∗ (∃ f, bufPts c cc0_scratch1 f) ∗ (∃ f, bufPts c cc0_scratch2 f) ∗ (∃ f, bufPts c cc0_scratch3 f) ∗ (∃ f, bufPts c cc0_scratch4 f))

/-- The result buffer of device `c` after the run: its rows in four blocks, the block of each device of the ring
    written where that device's z-coordinate says — its own kept block, and slot `s` of the device `3 - s` steps on. -/
def outVal (c : Dev nD) : Buf (Elt F) ((c : Thread nD τ).loc main_v1) :=
  (rowsM (peer c 1)).view.write (Elt F)
    ((rowsM (peer c 2)).view.write (Elt F)
      ((rowsM (peer c 3)).view.write (Elt F)
        ((rowsM c).view.write (Elt F) (m ((c : Thread nD τ).loc main_v1)) (B c 3) Finset.univ)
        (B (peer c 3) 0) Finset.univ)
      (B (peer c 2) 1) Finset.univ)
    (B (peer c 1) 2) Finset.univ

/-- The nine own semaphores' counters at zero. -/
def ownZero (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0 ∗ localSems c)

def Φ₀ (c : Dev nD) : sProp 𝕄 := iprop(start m B c ∗ scratch c)
/-- After the point: the argument unchanged, the result at its contents, the scratch buffers, the own cells closed. -/
def Φ₁ (c : Dev nD) : sProp 𝕄 :=
  iprop(bufPts c main_arg0 (m ((c : Thread nD τ).loc main_arg0)) ∗ bufPts c main_v1 (outVal m B c) ∗ scratch c ∗ ownZero c)

def dats (_ : Fin 1) (c : Dev nD) : Dat τ (Elt F) Unit ℕ UU ℕ cfg0 c where
  A w := w.elim0
  after w _ := w.elim0
  Φ t := match t with
    | ⟨0, _⟩ => Φ₀ m B c
    | ⟨_ + 1, _⟩ => Φ₁ m B c
  q _ := fullShare
  owed t := match t with
    | ⟨0, _⟩ => O₀ c
    | ⟨_ + 1, _⟩ => 0

abbrev 𝒱₀ : Variants := Variants.none

end Cert.KernelIdeal.A2A

end
-- ==== Proof.Launch.lean ====
/- The launch of the all-to-all along the last mesh axis: from any memory with zero counters, the 32 devices'
   threads are given their cells' invariants, positions and duty tokens (each duty's token dealt round the ring
   of four to the device that pays it), the launch credit of their barrier and receive cells, and the level
   facts; the body obligation of each device then yields the run of the whole program, with each device's
   result buffer at its final contents and its argument unchanged. -/
import proofs.«900656_g7700000000000657_dist_a2a_v7x_xyz2x4x4_z_m4096_n1024_bf16_1_alg».proof.Proof.Data
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (B : Dev nD → Fin 4 → (cc0_scratch1 : Ref sig .tc).ty.Contents (Elt F))

/-! ## The kernel's own semaphores, the cells and the duty tokens as minted -/

/-- The nine scoped DMA semaphores of the kernel: three send, three receive, two load, one store. -/
abbrev osem : Fin 9 → SemLoc sig
  | 0 => .dma send0 | 1 => .dma send1 | 2 => .dma send2 | 3 => .dma recv0 | 4 => .dma recv1 | 5 => .dma recv2
  | 6 => .dma load0 | 7 => .dma load1 | 8 => .dma storeS

theorem ownSemFacts : Pipeline.OwnSemFacts cfg0.spec osem := by decide

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the protocol: seven a device. -/
def a2aCells : Finset (GSem nD τ sig) := Finset.univ.map ⟨kcell, kcell_injective⟩

/-- The nine duties of a device's own cells, by semaphore and duty name: the barrier's three, and duty 0 of each
    send and each receive cell. -/
abbrev tsem : Fin 9 → SemLoc sig × Fin 3
  | 0 => (.reg barS, 0) | 1 => (.reg barS, 1) | 2 => (.reg barS, 2)
  | 3 => (.dma send0, 0) | 4 => (.dma send1, 0) | 5 => (.dma send2, 0)
  | 6 => (.dma recv0, 0) | 7 => (.dma recv1, 0) | 8 => (.dma recv2, 0)

theorem tsem_injective : Function.Injective (tsem : Fin 9 → SemLoc sig × Fin 3) := by decide

abbrev tokOf (cj : Dev nD × Fin 9) : GSem nD τ sig × ℕ × Fin 3 := (((cj.1 : Thread nD τ), (tsem cj.2).1), 0, (tsem cj.2).2)

theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : (tsem j).1 = (tsem j').1 := congrArg (fun x : GSem nD τ sig × ℕ × Fin 3 => x.1.2) h
  have h3 : (tsem j).2 = (tsem j').2 := congrArg (fun x : GSem nD τ sig × ℕ × Fin 3 => x.2.2) h
  rw [tsem_injective (Prod.ext h2 h3)]

def a2aToks : Finset (GSem nD τ sig × ℕ × Fin 3) := Finset.univ.map ⟨tokOf, tokOf_injective⟩

/-- The launch element: the pipeline library's (no staging cell), the protocol's cells and tokens, no counter. -/
def u₀ : UU :=
  (initOf (Pipeline.cells cfgs cellOf_inj) (Pipeline.launchToks cfgs cellOf_inj), (initOf a2aCells a2aToks, 1))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`. -/
def G (c : Dev nD) : sProp 𝕄 :=
  iprop((bigSep Finset.univ fun k : Fin 7 => roundState ER (a2aRd m B) (kcell (c, k)) 0)
    ∗ (bigSep Finset.univ fun k : Fin 7 => iprop(atPos ER (kcell (c, k)) 0 ∅ 0 ∗ reached ER (kcell (c, k)) 0)) ∗ toks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- Funding: the protocol's launch element is every cell's round state, position and mark, and every duty's token. -/
theorem fund_a2a : BI.own (ER (initOf a2aCells a2aToks)) ⊢ (|==> bigSep Finset.univ (G m B) : sProp 𝕄) := by
  have hX (Φ : GSem nD τ sig → sProp 𝕄) : bigSep a2aCells Φ = bigSep Finset.univ fun c : Dev nD => bigSep Finset.univ fun k : Fin 7 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_fin9]; rfl
  iintro HX
  imod (Rounds.fund ER (a2aRd m B) a2aCells a2aToks) $$ HX with ⟨Hst, Hr, Hat, Htok⟩
  imodintro
  ihave Hst' := (Entails.of_eq (hX fun g => roundState ER (a2aRd m B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: counters into invariants, tokens round the ring -/

omit [FloatOps F] in
/-- The kernel's own nine semaphores at zero: the six send and receive cells' and the three local ones'. -/
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem [0, 1, 2, 3, 4, 5, 6, 7, 8] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ localSems c : sProp 𝕄) := by
  rw [ownSems0_eq, unscopedSems0_eq, bigSep_fin7]
  unfold ownZero
  iintro ⟨⟨HS0, HS1, HS2, HR0, HR1, HR2, HL⟩, HB⟩
  isplitr [HL]
  · isplitl [HB]; · iexact HB
    isplitl [HS0]; · iexact HS0
    isplitl [HS1]; · iexact HS1
    isplitl [HS2]; · iexact HS2
    isplitl [HR0]; · iexact HR0
    isplitl [HR1]; · iexact HR1
    iexact HR2
  · iexact HL

omit [FloatOps F] in
/-- One device's part of the global step: each of its seven cells' counter and round state go into an invariant. -/
theorem core_alloc (c : Dev nD) :
    iprop(Pipeline.ownSems0 (Ix := Unit) (Name := ℕ) (U := UU) (Lvl := ℕ) (Val := Elt F) (τ := τ) osem c ∗ unscopedSems0 c ∗ G m B c)
      ⊢ |={Set.univ}=> iprop((bigSep Finset.univ fun k => iprop(∃ κ : ℕ, cellInv ER (a2aRd m B) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 7 => semVal (kcell (c, k)) 0) ∗ bigSep Finset.univ fun k : Fin 7 => roundState ER (a2aRd m B) (kcell (c, k)) 0)
      ⊢ (|={Set.univ}=> bigSep Finset.univ fun k => iprop(∃ κ : ℕ, cellInv ER (a2aRd m B) κ (kcell (c, k))) : sProp 𝕄) from by
        rw [← bigSep_sep']
        exact (bigSep_mono fun k _ => (Rounds.body_intro ER (a2aRd m B) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- Every cell's invariant under a chosen name, and that round 0 is open at every cell. -/
def records (K : Dev nD × Fin 7 → ℕ) : sProp 𝕄 :=
  iprop((bigSep Finset.univ fun ck : Dev nD × Fin 7 => cellInv ER (a2aRd m B) (K ck) (kcell ck))
    ∗ bigSep Finset.univ fun ck : Dev nD × Fin 7 => reached ER (kcell ck) 0)

instance records_persistent (K : Dev nD × Fin 7 → ℕ) : BI.Persistent (records m B K) := by unfold records; infer_instance

omit [FloatOps F] in
theorem inv_at (K : Dev nD × Fin 7 → ℕ) (ck : Dev nD × Fin 7) :
    (bigSep Finset.univ fun ck : Dev nD × Fin 7 => (cellInv ER (a2aRd m B) (K ck) (kcell ck) : sProp 𝕄)) ⊢ cellInv ER (a2aRd m B) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c` alone: its positions, the tokens of the duties it pays, its local counters. -/
def linear (c : Dev nD) : sProp 𝕄 := iprop(positions c ∗ payToks c ∗ localSems c)

omit [FloatOps F] in
theorem ghost_intro (K : Dev nD × Fin 7 → ℕ) (c : Dev nD) : iprop(records m B K ∗ linear c) ⊢ G' m B c := by
  unfold records linear G' ghost invs marks
  iintro ⟨⟨#HI, #HR⟩, Hpos, Htok, HL⟩
  isplitr [HL]
  · iexists K
    isplitr
    · isplitr; · iapply (inv_at m B K (c, 0)); iexact HI
      isplitr; · iapply (inv_at m B K (c, 1)); iexact HI
      isplitr; · iapply (inv_at m B K (c, 2)); iexact HI
      isplitr; · iapply (inv_at m B K (c, 3)); iexact HI
      isplitr; · iapply (inv_at m B K (c, 4)); iexact HI
      isplitr; · iapply (inv_at m B K (c, 5)); iexact HI
      isplitr; · iapply (inv_at m B K (c, 6)); iexact HI
      isplitr; · iapply (inv_at m B K (peer c 1, 0)); iexact HI
      isplitr; · iapply (inv_at m B K (peer c 2, 0)); iexact HI
      isplitr; · iapply (inv_at m B K (peer c 3, 0)); iexact HI
      isplitr; · iapply (inv_at m B K (peer c 1, 4)); iexact HI
      isplitr; · iapply (inv_at m B K (peer c 2, 5)); iexact HI
      iapply (inv_at m B K (peer c 3, 6)); iexact HI
    isplitl [Hpos]; · iexact Hpos
    isplitr [Htok]
    · isplitr; · iapply (reached_at (F := F) (peer c 1, 0)); iexact HR
      isplitr; · iapply (reached_at (F := F) (peer c 2, 0)); iexact HR
      isplitr; · iapply (reached_at (F := F) (peer c 3, 0)); iexact HR
      isplitr; · iapply (reached_at (F := F) (peer c 1, 4)); iexact HR
      isplitr; · iapply (reached_at (F := F) (peer c 2, 5)); iexact HR
      isplitr; · iapply (reached_at (F := F) (peer c 3, 6)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      iapply (reached_at (F := F) (c, 6)); iexact HR
    · iexact Htok
  · iexact HL

omit [FloatOps F] in
/-- The tokens dealt round the ring: token `k` of a barrier cell goes `3 - k` steps on (to the device whose
    `(k+1)`-th signal pays it), the token of receive cell `s` likewise `3 - s` steps on; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (shift 1 (by omega)) (fun c : Dev nD => (dutyTok ER (barCell c) 0 0 : sProp 𝕄)),
    bigSep_univ_equiv (shift 2 (by omega)) (fun c : Dev nD => (dutyTok ER (barCell c) 0 1 : sProp 𝕄)),
    bigSep_univ_equiv (shift 3 (by omega)) (fun c : Dev nD => (dutyTok ER (barCell c) 0 2 : sProp 𝕄)),
    bigSep_univ_equiv (shift 1 (by omega)) (fun c : Dev nD => (dutyTok ER (recvCell c 0) 0 0 : sProp 𝕄)),
    bigSep_univ_equiv (shift 2 (by omega)) (fun c : Dev nD => (dutyTok ER (recvCell c 1) 0 0 : sProp 𝕄)),
    bigSep_univ_equiv (shift 3 (by omega)) (fun c : Dev nD => (dutyTok ER (recvCell c 2) 0 0 : sProp 𝕄))]
  iintro ⟨Hb0, Hb1, Hb2, Hs0, Hs1, Hs2, Hr0, Hr1, Hr2⟩
  isplitl [Hb0]; · iexact Hb0
  isplitl [Hb1]; · iexact Hb1
  isplitl [Hb2]; · iexact Hb2
  isplitl [Hr0]; · iexact Hr0
  isplitl [Hr1]; · iexact Hr1
  isplitl [Hr2]; · iexact Hr2
  isplitl [Hs0]; · iexact Hs0
  isplitl [Hs1]; · iexact Hs1
  iexact Hs2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (a2aRd m B) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m B) := by
  rw [bigSep_sep', bigSep_sep', bigSep_sep', ← bigSep_univ_prod (fun ck : Dev nD × Fin 7 => iprop(∃ κ : ℕ, cellInv ER (a2aRd m B) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, HL⟩
  ihave HK := (BI.bigSep_exists_pi Finset.univ (fun (ck : Dev nD × Fin 7) (κ : ℕ) => (cellInv ER (a2aRd m B) κ (kcell ck) : sProp 𝕄))) $$ HI
  icases HK with ⟨%K, #HI⟩
  ihave Htk := (toks_around (F := F)) $$ Htok
  iapply (bigSep_with_persistent (R := records m B K) fun c _ => ghost_intro m B K c)
  isplitr
  · unfold records; isplitl; · iexact HI
    iexact HR
  · iapply ((Entails.of_eq ((bigSep_sep' Finset.univ (fun c : Dev nD => bigSep Finset.univ fun k : Fin 7 => (atPos ER (kcell (c, k)) 0 ∅ 0 : sProp 𝕄))
        (fun c : Dev nD => iprop(payToks c ∗ localSems c))).symm)).trans
      (bigSep_mono fun c _ => show _ ⊢ linear c from Entails.of_eq (by unfold linear positions; rw [bigSep_fin7])))
    isplitl [Hat]; · iexact Hat
    rw [bigSep_sep']
    isplitl [Htk]; · iexact Htk
    iexact HL

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m B c) : sProp 𝕄)
    ⊢ |={Set.univ}=> bigSep Finset.univ (G' m B) :=
  ((bigSep_mono fun c _ => core_alloc m B c).trans (bigSep_fupd _ _)).trans (BI.fupd_mono (regroup m B))

/-! ## The launch credit -/

omit [FloatOps F] in
theorem peer_back (c : Dev nD) (a b : ℕ) (h : a + b = 4) : peer (peer c a) b = c := by rw [peer_peer, h, peer_four]

omit [FloatOps F] in
/-- Summed over the devices, what is owed to device `c`'s cells: a unit on its barrier cell from each of its three
    peers, and a block's credit on each receive cell from the peer that sends into it. -/
theorem creds (c : Dev nD) : (Pipeline.launchCred O₀ c : sProp 𝕄) ⊢ launchCreds c := by
  have e : (O₀ : Dev nD → CellTallies nD τ sig Unit) = fun d =>
      tallyAt (recvCell (peer d 3) 2) () N + tallyAt (recvCell (peer d 2) 1) () N + tallyAt (recvCell (peer d 1) 0) () N
        + tallyAt (barCell (peer d 3)) () 1 + tallyAt (barCell (peer d 2)) () 1 + tallyAt (barCell (peer d 1)) () 1 := rfl
  rw [e, Pipeline.launchCred_add, Pipeline.launchCred_add, Pipeline.launchCred_add, Pipeline.launchCred_add, Pipeline.launchCred_add]
  iintro ⟨⟨⟨⟨⟨H2, H1⟩, H0⟩, Hb3⟩, Hb2⟩, Hb1⟩
  ihave H2' := (Pipeline.launchCred_tallyAt (τ := τ) (.dma recv2) (fun d => peer d 3) (fun d => peer d 1) (fun d => peer_back d 1 3 rfl) (fun d => peer_back d 3 1 rfl) () N c) $$ H2
  ihave H1' := (Pipeline.launchCred_tallyAt (τ := τ) (.dma recv1) (fun d => peer d 2) (fun d => peer d 2) (fun d => peer_back d 2 2 rfl) (fun d => peer_back d 2 2 rfl) () N c) $$ H1
  ihave H0' := (Pipeline.launchCred_tallyAt (τ := τ) (.dma recv0) (fun d => peer d 1) (fun d => peer d 3) (fun d => peer_back d 3 1 rfl) (fun d => peer_back d 1 3 rfl) () N c) $$ H0
  ihave Hb3' := (Pipeline.launchCred_tallyAt (τ := τ) (.reg barS) (fun d => peer d 3) (fun d => peer d 1) (fun d => peer_back d 1 3 rfl) (fun d => peer_back d 3 1 rfl) () 1 c) $$ Hb3
  ihave Hb2' := (Pipeline.launchCred_tallyAt (τ := τ) (.reg barS) (fun d => peer d 2) (fun d => peer d 2) (fun d => peer_back d 2 2 rfl) (fun d => peer_back d 2 2 rfl) () 1 c) $$ Hb2
  ihave Hb1' := (Pipeline.launchCred_tallyAt (τ := τ) (.reg barS) (fun d => peer d 1) (fun d => peer d 3) (fun d => peer_back d 3 1 rfl) (fun d => peer_back d 1 3 rfl) () 1 c) $$ Hb1
  unfold launchCreds
  isplitl [Hb3' Hb2' Hb1']
  · have h3 : (tallyAt (barCell c) () 3 : CellTallies nD τ sig Unit)
        = tallyAt (barCell c) () 1 + tallyAt (barCell c) () 1 + tallyAt (barCell c) () 1 := by rw [tallyAt_add, tallyAt_add]
    rw [h3]
    iapply (cred_add _ _).2
    isplitl [Hb3' Hb2']
    · iapply (cred_add _ _).2
      isplitl [Hb3'] <;> iassumption
    · iexact Hb1'
  isplitl [H0']; · iexact H0'
  isplitl [H1']; · iexact H1'
  iexact H2'

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m B c)
      ⊢ |={Set.univ}=> iprop(start m B c ∗ emp) := by
  rw [Pipeline.unscopedRestP_none, unscopedRest0_eq]
  iintro ⟨⟨Hx, Ho⟩, Hlev, Hcr, -, HG⟩
  ihave Hc := (creds (F := F) c) $$ Hcr
  imodintro
  unfold start bufPts
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m B c ∗ Pipeline.prefHeld Pipeline.Prefetch.none c (fun _ => fullShare.right) (fun k => k.elim0) ∗ Pipeline.scopedRest cfg0.spec c)
      ⊢ (dats m B 0 c).Φ 0 := by
  rw [show (dats m B 0 c).Φ 0 = Φ₀ m B c from rfl, scopedRest0_eq]
  unfold Φ₀ scratch bufPts
  iintro ⟨Hs, -, Hr⟩
  isplitl [Hs]; · iexact Hs
  iexact Hr

theorem phi1_exit (c : Dev nD) :
    (dats m B 0 c).Φ (Fin.last cfg0.N) ⊢ iprop((bufPts c main_arg0 (m ((c : Thread nD τ).loc main_arg0)) ∗ bufPts c main_v1 (outVal m B c))
      ∗ Pipeline.ownSems0 osem c ∗ Pipeline.scopedRest cfg0.spec c) := by
  rw [show (dats m B 0 c).Φ (Fin.last cfg0.N) = Φ₁ m B c from rfl, scopedRest0_eq, ownSems0_eq]
  unfold Φ₁ scratch
  iintro ⟨Hx, Ho, Hr, Hz⟩
  isplitl [Hx Ho]
  · isplitl [Hx] <;> iassumption
  isplitl [Hz]; · iexact Hz
  unfold bufPts; iexact Hr

theorem waits (c : Dev nD) : (levAts L lv : sProp 𝕄) ⊢ Pipeline.cellsWaits cfgs (dats m B) () 0 c :=
  Pipeline.cellsWaits_intro cfgs (dats m B) () 0 c fun w s t => w.elim0

/-! ## The run -/

set_option maxRecDepth 8000 in
/-- At the compiled mesh of 32 devices, for any float values, from any memory with zero counters: given each
    device's body obligation, every weakly fair execution of the program terminates, and every final state has each
    device's result buffer at the blocks of its ring and its argument buffer as it was. -/
theorem run_main_of (m : (ℓ : Loc nD τ sig) → Buf (Elt F) ℓ) (ρ : Dev nD → PrngReg)
    (B : Dev nD → Fin 4 → (cc0_scratch1 : Ref sig .tc).ty.Contents (Elt F))
    (hbody : ∀ c : Dev nD, BodyObligation (dats (F := F) m B 0 c) (defs₀ (F := F)) 𝒱₀ () Set.univ) :
    θ_run defs (onTc (τ := τ) (main (F := F))) (s₀ m ρ) (fun r => ∀ c : Dev nD,
      r.2.mem ((c : Thread nD τ).loc main_v1) = outVal m B c
      ∧ r.2.mem ((c : Thread nD τ).loc main_arg0) = m ((c : Thread nD τ).loc main_arg0)) :=
  Pipeline.θ_run_region_owing_glob_pf (fun p => (cfgs p).toPCfg) (fun p => (cfgs p).toPCfg_adm) (dats m B) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m B)
    (G := G m B) (G' := G' m B) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund_a2a m B) $$ HX with HG
      imodintro
      isplitl [HP] <;> iassumption)
    (hglob := glob m B)
    (hA := fun _ w => w.elim0) (hpf := fun _ k => k.elim0)
    (X := start m B) (Y := fun c => iprop(bufPts c main_arg0 (m ((c : Thread nD τ).loc main_arg0)) ∗ bufPts c main_v1 (outVal m B c))) (Z := fun _ => iprop(emp))
    (hX := start_intro m ρ B) (hin := phi0_intro m B) (hout := phi1_exit m B)
    (QY := fun c s => s.mem ((c : Thread nD τ).loc main_v1) = outVal m B c ∧ s.mem ((c : Thread nD τ).loc main_arg0) = m ((c : Thread nD τ).loc main_arg0))
    (hY := fun c s' => by
      unfold bufPts
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.A2A.run_main_of' depends on axioms: [propext, Classical.choice, Quot.sound] -/
#guard_msgs in #print axioms run_main_of

end Cert.KernelIdeal.A2A

end
-- ==== Proof.Stage.lean ====
/- The staging buffer as its two slots.

   The buffer has shape [2, 2048, 1024]; slot k is the slice at first coordinate k with that axis dropped, so an
   index of the buffer lies under slot k exactly when its first coordinate is k. The two slots' element sets are
   disjoint and cover the buffer: the whole buffer is the two slots, and two slots held at any contents are the
   whole buffer at the contents that agree with each on its slot. -/
import proofs.«900656_g7700000000000657_dist_a2a_v7x_xyz2x4x4_z_m4096_n1024_bf16_1_alg».proof.Proof.Data
import Idealize.ShloMosaic.Rules.PointsTo

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two slots -/

abbrev slot0 : Memref sig .tc .vmem S2048x1024 .f32 := ((Memref.whole cc0_scratch0 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024
abbrev slot1 : Memref sig .tc .vmem S2048x1024 .f32 := ((Memref.whole cc0_scratch0 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024

/-- An index of the staging buffer lies under slot 0 exactly when its first coordinate is 0. -/
theorem mem_slot0 (i : slot0.view.ty.Idx) : i ∈ slot0.view.set ↔ (i 0).val = 0 := by
  rw [show slot0.view.set = (Rect.unit (s := S2x2048x1024) ![0, 0, 0] S1x2048x1024.size inb_S2x2048x1024_S1x2048x1024_0_0_0).set from
    (View.set_reshape _ _).trans (View.set_slice_whole _ _)]
  rw [Rect.mem_set_unit]
  have h1 : (i 1).val < 2048 := (i 1).isLt
  have h2 : (i 2).val < 1024 := (i 2).isLt
  constructor
  · intro h
    have := h 0
    have e : (![0, 0, 0] : Fin 3 → ℕ) 0 + S1x2048x1024.size 0 = 1 := rfl
    omega
  · intro h a
    match a with
    | 0 => exact ⟨Nat.zero_le _, by show (i 0).val < 0 + 1; omega⟩
    | 1 => exact ⟨Nat.zero_le _, by show (i 1).val < 0 + 2048; omega⟩
    | 2 => exact ⟨Nat.zero_le _, by show (i 2).val < 0 + 1024; omega⟩

/-- And under slot 1 exactly when it is 1. -/
theorem mem_slot1 (i : slot1.view.ty.Idx) : i ∈ slot1.view.set ↔ (i 0).val = 1 := by
  rw [show slot1.view.set = (Rect.unit (s := S2x2048x1024) ![1, 0, 0] S1x2048x1024.size inb_S2x2048x1024_S1x2048x1024_1_0_0).set from
    (View.set_reshape _ _).trans (View.set_slice_whole _ _)]
  rw [Rect.mem_set_unit]
  have h1 : (i 1).val < 2048 := (i 1).isLt
  have h2 : (i 2).val < 1024 := (i 2).isLt
  constructor
  · intro h
    have := h 0
    have e : (![1, 0, 0] : Fin 3 → ℕ) 0 + S1x2048x1024.size 0 = 2 := rfl
    have e' : (![1, 0, 0] : Fin 3 → ℕ) 0 = 1 := rfl
    omega
  · intro h a
    match a with
    | 0 => exact ⟨by show 1 ≤ (i 0).val; omega, by show (i 0).val < 1 + 1; omega⟩
    | 1 => exact ⟨Nat.zero_le _, by show (i 1).val < 0 + 2048; omega⟩
    | 2 => exact ⟨Nat.zero_le _, by show (i 2).val < 0 + 1024; omega⟩

theorem slots_disjoint : Disjoint slot0.view.set slot1.view.set :=
  Finset.disjoint_left.mpr fun i h0 h1 => by
    have := (mem_slot0 i).mp h0
    have := (mem_slot1 i).mp h1
    omega

theorem slots_cover (c : Dev nD) :
    (Finset.univ : Finset (Idx ((c : Thread nD τ).loc cc0_scratch0))) = slot0.view.set ∪ slot1.view.set := by
  ext i
  simp only [Finset.mem_univ, Finset.mem_union, true_iff]
  rw [mem_slot0, mem_slot1]
  have h0 : (i 0).val < 2 := (i 0).isLt
  omega

/-! ## The buffer as its two slots -/

theorem stage_split (c : Dev nD) (f : Buf (Elt F) ((c : Thread nD τ).loc cc0_scratch0)) :
    bufPts c cc0_scratch0 f ⊢ (iprop((slot0.view.loc (c : Thread nD τ) ↦[slot0.view.set]{fullShare} f) ∗ (slot1.view.loc (c : Thread nD τ) ↦[slot1.view.set]{fullShare} f)) : sProp 𝕄) := by
  unfold bufPts
  rw [slots_cover c]
  exact (pointsTo_union slots_disjoint).1

theorem stage_join (c : Dev nD) (g0 : Buf (Elt F) (slot0.view.loc (c : Thread nD τ))) (g1 : Buf (Elt F) (slot1.view.loc (c : Thread nD τ))) :
    (iprop((slot0.view.loc (c : Thread nD τ) ↦[slot0.view.set]{fullShare} g0) ∗ (slot1.view.loc (c : Thread nD τ) ↦[slot1.view.set]{fullShare} g1)) : sProp 𝕄) ⊢ iprop(∃ f, bufPts c cc0_scratch0 f) := by
  iintro H
  iexists (slot1.view.set.piecewise g1 g0 : Buf (Elt F) ((c : Thread nD τ).loc cc0_scratch0))
  unfold bufPts
  rw [slots_cover c]
  iapply (pointsTo_join slots_disjoint)
  iexact H

/-- info: 'Cert.KernelIdeal.A2A.stage_join' depends on axioms: [propext, Classical.choice, Quot.sound] -/
#guard_msgs in #print axioms stage_join

end Cert.KernelIdeal.A2A

end
-- ==== Proof.Blocks.lean ====
/- The contents of the four block buffers of a device, as the body builds them.

   The input is brought in eight pieces of 2048 rows by 1024 columns — for each outgoing slot the two row halves of
   one column block — through the two slots of the staging buffer in turn; a piece read back from its slot is
   narrowed to bf16 and stored as the upper or lower half of the slot's block buffer. A block's contents are those
   two stores over a buffer nothing else of which is read. -/
import proofs.«900656_g7700000000000657_dist_a2a_v7x_xyz2x4x4_z_m4096_n1024_bf16_1_alg».proof.Proof.Stage
import Idealize.ShloMosaic.Lib.Exec

noncomputable section

namespace Cert.KernelIdeal.A2A

open Cert.KernelIdeal Cert.KernelIdeal.Gen
open Idealize.ShloMosaic
open Idealize.ShloMosaic.TcCoe
open Idealize.SL.Sem

variable {F : FTy → Type} [FloatOps F] [∀ e, Nonempty (Elt F e)]

variable (m : (ℓ : Loc nD τ sig) → Buf (Elt F) ℓ)

/-- The piece of device `c`'s input a transfer from offsets `off` carries. -/
def xPiece (c : Dev nD) (off : Fin 2 → ℕ) (inb : ∀ a, off a + S2048x1024.size a ≤ S4096x4096.size a) : S2048x1024.Idx → Elt F .f32 :=
  ReadAs.same.apply (View.read (Elt F) ((Memref.whole main_arg0 : Memref sig .tc .hbm S4096x4096 .f32).slice (Rect.unit (s := S4096x4096) off S2048x1024.size inb) (fun _ => rfl)).view
    (m ((c : Thread nD τ).loc main_arg0)))

/-- The upper-half pieces (rows 0–2047) and lower-half pieces (rows 2048–4095) for slots 0, 1, 2 and the kept block. -/
def xU (c : Dev nD) : Fin 4 → (S2048x1024.Idx → Elt F .f32)
  | 0 => xPiece m c (k0_off1 c 1#32) (k0_off1_inb c 0)
  | 1 => xPiece m c (k0_off1 c 2#32) (k0_off1_inb c 1)
  | 2 => xPiece m c (k0_off1 c 3#32) (k0_off1_inb c 2)
  | 3 => xPiece m c (k0_off4 c) (k0_off4_inb c)
def xL (c : Dev nD) : Fin 4 → (S2048x1024.Idx → Elt F .f32)
  | 0 => xPiece m c (k0_off2 c 1#32) (k0_off2_inb c 0)
  | 1 => xPiece m c (k0_off2 c 2#32) (k0_off2_inb c 1)
  | 2 => xPiece m c (k0_off2 c 3#32) (k0_off2_inb c 2)
  | 3 => xPiece m c (k0_off5 c) (k0_off5_inb c)

/-- A slot after the pieces `vs` have landed in it, latest first, read back as the body's vector load reads it. -/
def rd0 (vs : List (S2048x1024.Idx → Elt F .f32)) : Vec F S1x2048x1024 .f32 :=
  View.readAt (Elt F) (Memref.whole cc0_scratch0 : Memref sig .tc .vmem S2x2048x1024 .f32).view
    (Rect.unit (s := S2x2048x1024) ![0, 0, 0] S1x2048x1024.size inb_S2x2048x1024_S1x2048x1024_0_0_0).toLoadRect
    (slot0.view.writes (Elt F) slot0.view.junk (vs.map fun v => ⟨Rect.whole S2048x1024, v⟩))
def rd1 (vs : List (S2048x1024.Idx → Elt F .f32)) : Vec F S1x2048x1024 .f32 :=
  View.readAt (Elt F) (Memref.whole cc0_scratch0 : Memref sig .tc .vmem S2x2048x1024 .f32).view
    (Rect.unit (s := S2x2048x1024) ![1, 0, 0] S1x2048x1024.size inb_S2x2048x1024_S1x2048x1024_1_0_0).toLoadRect
    (slot1.view.writes (Elt F) slot1.view.junk (vs.map fun v => ⟨Rect.whole S2048x1024, v⟩))

/-- A block buffer's contents from its two stored halves. -/
def blkOf (up lo : FVec F S2048x1024 .bf16) : (cc0_scratch1 : Ref sig .tc).ty.Contents (Elt F) :=
  (Memref.whole cc0_scratch1 : Memref sig .tc .vmem S4096x1024 .bf16).view.writes (Elt F)
    (Memref.whole cc0_scratch1 : Memref sig .tc .vmem S4096x1024 .bf16).view.junk
    [⟨Rect.unit (s := S4096x1024) ![2048, 0] S2048x1024.size inb_S4096x1024_S2048x1024_2048_0, lo⟩,
     ⟨Rect.unit (s := S4096x1024) ![0, 0] S2048x1024.size inb_S4096x1024_S2048x1024_0_0, up⟩]

/-- The four blocks of device `c`. -/
def Bdef (c : Dev nD) : Fin 4 → (cc0_scratch1 : Ref sig .tc).ty.Contents (Elt F)
  | 0 => blkOf (k0_pay1 (rd0 [xU m c 0])) (k0_pay2 (rd1 [xL m c 0]))
  | 1 => blkOf (k0_pay3 (rd0 [xU m c 1, xU m c 0])) (k0_pay4 (rd1 [xL m c 1, xL m c 0]))
  | 2 => blkOf (k0_pay5 (rd0 [xU m c 2, xU m c 1, xU m c 0])) (k0_pay7 (k0_pay6 (rd1 [xL m c 2, xL m c 1, xL m c 0])))
  | 3 => blkOf (k0_pay8 (rd0 [xU m c 3, xU m c 2, xU m c 1, xU m c 0])) (k0_pay9 (rd1 [xL m c 3, xL m c 2, xL m c 1, xL m c 0]))

end Cert.KernelIdeal.A2A

end
-- ==== Proof.Rows.lean ====
/- A device's result buffer, cut into its four blocks of 4096 rows and put back together.

   The rows sender w fills are those of w's z-coordinate: an index of the buffer lies under them exactly when its
   row number is in [4096 z, 4096 z + 4096). The four devices of a ring have the four z-coordinates, so the four
   row sets are pairwise disjoint and cover the buffer. A write through one of these row views changes exactly
   the elements of its set, and there it does not depend on what was written over; so the buffer written block
   after block agrees, on each block, with that block written alone. -/
import proofs.«900656_g7700000000000657_dist_a2a_v7x_xyz2x4x4_z_m4096_n1024_bf16_1_alg».proof.Proof.Data
import Idealize.ShloMosaic.Lib.Pipeline.Value
import Idealize.ShloMosaic.Rules.PointsTo

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (B : Dev nD → Fin 4 → (cc0_scratch1 : Ref sig .tc).ty.Contents (Elt F))

/-! ## The row sets -/

/-- An index of the result buffer lies under the rows sender `w` fills exactly when its row is in `w`'s block. -/
theorem mem_rows (w : Dev nD) (i : (rowsM w).view.ty.Idx) :
    i ∈ (rowsM w).view.set ↔ 4096 * (w.val % 4) ≤ (i 0).val ∧ (i 0).val < 4096 * (w.val % 4) + 4096 := by
  rw [show (rowsM w).view.set = (Rect.unit (s := S16384x1024) (k0_off3 w) S4096x1024.size (k0_off3_inb w)).set from
    View.set_slice_whole _ _]
  rw [Rect.mem_set_unit, k0_off3_eq w]
  constructor
  · intro h; exact h 0
  · intro h a
    have h1 : (i 1).val < 1024 := (i 1).isLt
    match a with
    | 0 => exact h
    | 1 => exact ⟨Nat.zero_le _, by show (i 1).val < 0 + 1024; omega⟩

theorem peer_mod (c : Dev nD) (d : ℕ) : (peer c d).val % 4 = (c.val % 4 + d) % 4 := zc_peer c d

/-- Rows of devices with different z-coordinates do not meet. -/
theorem not_mem_rows (w w' : Dev nD) (h : w.val % 4 ≠ w'.val % 4) {i : (rowsM w).view.ty.Idx}
    (hi : i ∈ (rowsM w).view.set) : i ∉ (rowsM w').view.set := by
  intro hi'
  have h1 := (mem_rows w i).mp hi
  have h2 := (mem_rows w' i).mp hi'
  have := Nat.mod_lt w.val (show 0 < 4 by decide)
  have := Nat.mod_lt w'.val (show 0 < 4 by decide)
  omega

theorem rows_disjoint (w w' : Dev nD) (h : w.val % 4 ≠ w'.val % 4) :
    Disjoint (rowsM w).view.set (rowsM w').view.set :=
  Finset.disjoint_left.mpr fun i hi => not_mem_rows w w' h hi

/-- Every index lies under the rows of one of the four devices of a ring. -/
theorem rows_cover (c : Dev nD) (i : (rowsM c).view.ty.Idx) :
    i ∈ (rowsM c).view.set ∨ i ∈ (rowsM (peer c 1)).view.set ∨ i ∈ (rowsM (peer c 2)).view.set ∨ i ∈ (rowsM (peer c 3)).view.set := by
  rw [mem_rows, mem_rows, mem_rows, mem_rows, peer_mod, peer_mod, peer_mod]
  have h0 : (i 0).val < 16384 := (i 0).isLt
  have := Nat.mod_lt c.val (show 0 < 4 by decide)
  omega

/-- The z-coordinates of a ring's devices differ. -/
theorem peer_mod_ne (c : Dev nD) (a b : ℕ) (h : a % 4 ≠ b % 4) : (peer c a).val % 4 ≠ (peer c b).val % 4 := by
  rw [peer_mod, peer_mod]; omega
theorem self_mod_ne (c : Dev nD) (b : ℕ) (h : b % 4 ≠ 0) : c.val % 4 ≠ (peer c b).val % 4 := by
  rw [peer_mod]; omega

/-! ## A write through a view, on and off its elements -/

section Writes
variable {Val : EltTy → Type} {S : Shape} {e : EltTy} {κ : Kind} {sp : Space} (v : View sig κ sp S e)

/-- Off the view's elements a whole write leaves the contents. -/
theorem write_univ_off (f : v.ty.Contents Val) (w : S.Idx → Val e) {i : v.ty.Idx} (h : i ∉ v.set) :
    v.write Val f w Finset.univ i = f i :=
  View.write_of_not_mem f w Finset.univ h

/-- On the view's elements a whole write does not depend on what it was written over. -/
theorem write_univ_on (f f' : v.ty.Contents Val) (w : S.Idx → Val e) {i : v.ty.Idx} (h : i ∈ v.set) :
    v.write Val f w Finset.univ i = v.write Val f' w Finset.univ i := by
  obtain ⟨y, rfl⟩ := View.exists_emb_of_mem_set v h
  rw [View.write_emb_of_mem _ _ (Finset.mem_univ y), View.write_emb_of_mem _ _ (Finset.mem_univ y)]

end Writes

/-! ## The result buffer by rows -/

/-- A points-to over four pairwise disjoint element sets is the four points-tos. -/
theorem pointsTo_union4 {ℓ : Loc nD τ sig} (I₀ I₁ I₂ I₃ : Finset (Idx ℓ)) (q : PosShare TreeShare) (f : Buf (Elt F) ℓ)
    (d1 : Disjoint I₀ (I₁ ∪ (I₂ ∪ I₃))) (d2 : Disjoint I₁ (I₂ ∪ I₃)) (d3 : Disjoint I₂ I₃) :
    (ℓ ↦[I₀ ∪ (I₁ ∪ (I₂ ∪ I₃))]{q} f : sProp 𝕄)
      = iprop((ℓ ↦[I₀]{q} f) ∗ (ℓ ↦[I₁]{q} f) ∗ (ℓ ↦[I₂]{q} f) ∗ ℓ ↦[I₃]{q} f) := by
  have e1 : (ℓ ↦[I₀ ∪ (I₁ ∪ (I₂ ∪ I₃))]{q} f : sProp 𝕄) ⊣⊢ _ := pointsTo_union d1
  have e2 : (ℓ ↦[I₁ ∪ (I₂ ∪ I₃)]{q} f : sProp 𝕄) ⊣⊢ _ := pointsTo_union d2
  have e3 : (ℓ ↦[I₂ ∪ I₃]{q} f : sProp 𝕄) ⊣⊢ _ := pointsTo_union d3
  rw [BI.equiv_iff.mp ⟨e1.1, e1.2⟩, BI.equiv_iff.mp ⟨e2.1, e2.2⟩, BI.equiv_iff.mp ⟨e3.1, e3.2⟩]

/-- The whole buffer is its four row blocks. -/
theorem rows_eq (c : Dev nD) (f : Buf (Elt F) ((c : Thread nD τ).loc main_v1)) :
    bufPts c main_v1 f = (iprop(rowsPts c c f ∗ rowsPts c (peer c 1) f ∗ rowsPts c (peer c 2) f ∗ rowsPts c (peer c 3) f) : sProp 𝕄) := by
  have hU : (Finset.univ : Finset (Idx ((c : Thread nD τ).loc main_v1))) = (rowsM c).view.set ∪ ((rowsM (peer c 1)).view.set ∪ ((rowsM (peer c 2)).view.set ∪ (rowsM (peer c 3)).view.set)) := by
    ext i
    simp only [Finset.mem_univ, Finset.mem_union, true_iff]
    exact rows_cover c i
  have d3 : Disjoint (rowsM (peer c 2)).view.set (rowsM (peer c 3)).view.set := rows_disjoint _ _ (peer_mod_ne c 2 3 (by decide))
  have d2 : Disjoint (rowsM (peer c 1)).view.set ((rowsM (peer c 2)).view.set ∪ (rowsM (peer c 3)).view.set) :=
    Finset.disjoint_union_right.mpr ⟨rows_disjoint _ _ (peer_mod_ne c 1 2 (by decide)), rows_disjoint _ _ (peer_mod_ne c 1 3 (by decide))⟩
  have d1 : Disjoint (rowsM c).view.set ((rowsM (peer c 1)).view.set ∪ ((rowsM (peer c 2)).view.set ∪ (rowsM (peer c 3)).view.set)) :=
    Finset.disjoint_union_right.mpr ⟨rows_disjoint _ _ (self_mod_ne c 1 (by decide)),
      Finset.disjoint_union_right.mpr ⟨rows_disjoint _ _ (self_mod_ne c 2 (by decide)), rows_disjoint _ _ (self_mod_ne c 3 (by decide))⟩⟩
  unfold bufPts rowsPts
  rw [hU]
  exact pointsTo_union4 _ _ _ _ fullShare f d1 d2 d3

theorem rows_split (c : Dev nD) (f : Buf (Elt F) ((c : Thread nD τ).loc main_v1)) :
    bufPts c main_v1 f ⊢ (iprop(rowsPts c c f ∗ rowsPts c (peer c 1) f ∗ rowsPts c (peer c 2) f ∗ rowsPts c (peer c 3) f) : sProp 𝕄) :=
  Entails.of_eq (rows_eq c f)

/-! ## The blocks landed one by one against the buffer written block after block -/

/-- On the device's own rows the final contents are the kept block's. -/
theorem landed_self (c : Dev nD) (i : (rowsM c).view.ty.Idx) (hi : i ∈ (rowsM c).view.set) :
    landed m c c (B c 3) i = outVal m B c i := by
  have h1 : i ∉ (rowsM (peer c 1)).view.set := not_mem_rows c (peer c 1) (self_mod_ne c 1 (by decide)) hi
  have h2 : i ∉ (rowsM (peer c 2)).view.set := not_mem_rows c (peer c 2) (self_mod_ne c 2 (by decide)) hi
  have h3 : i ∉ (rowsM (peer c 3)).view.set := not_mem_rows c (peer c 3) (self_mod_ne c 3 (by decide)) hi
  unfold outVal landed
  rw [write_univ_off (rowsM (peer c 1)).view _ _ h1, write_univ_off (rowsM (peer c 2)).view _ _ h2,
    write_univ_off (rowsM (peer c 3)).view _ _ h3]

/-- On the rows of the device three steps on, that device's block. -/
theorem landed_three (c : Dev nD) (i : (rowsM (peer c 3)).view.ty.Idx) (hi : i ∈ (rowsM (peer c 3)).view.set) :
    landed m c (peer c 3) (B (peer c 3) 0) i = outVal m B c i := by
  have h1 : i ∉ (rowsM (peer c 1)).view.set := not_mem_rows (peer c 3) (peer c 1) (peer_mod_ne c 3 1 (by decide)) hi
  have h2 : i ∉ (rowsM (peer c 2)).view.set := not_mem_rows (peer c 3) (peer c 2) (peer_mod_ne c 3 2 (by decide)) hi
  unfold outVal landed
  rw [write_univ_off (rowsM (peer c 1)).view _ _ h1, write_univ_off (rowsM (peer c 2)).view _ _ h2]
  exact write_univ_on (rowsM (peer c 3)).view _ _ _ hi

/-- On the rows of the device two steps on, that device's block. -/
theorem landed_two (c : Dev nD) (i : (rowsM (peer c 2)).view.ty.Idx) (hi : i ∈ (rowsM (peer c 2)).view.set) :
    landed m c (peer c 2) (B (peer c 2) 1) i = outVal m B c i := by
  have h1 : i ∉ (rowsM (peer c 1)).view.set := not_mem_rows (peer c 2) (peer c 1) (peer_mod_ne c 2 1 (by decide)) hi
  unfold outVal landed
  rw [write_univ_off (rowsM (peer c 1)).view _ _ h1]
  exact write_univ_on (rowsM (peer c 2)).view _ _ _ hi

/-- On the rows of the device one step on, that device's block. -/
theorem landed_one (c : Dev nD) (i : (rowsM (peer c 1)).view.ty.Idx) (hi : i ∈ (rowsM (peer c 1)).view.set) :
    landed m c (peer c 1) (B (peer c 1) 2) i = outVal m B c i := by
  unfold outVal landed
  exact write_univ_on (rowsM (peer c 1)).view _ _ _ hi

theorem rows_join (c : Dev nD) :
    (iprop(rowsPts c c (landed m c c (B c 3)) ∗ rowsPts c (peer c 3) (landed m c (peer c 3) (B (peer c 3) 0))
        ∗ rowsPts c (peer c 2) (landed m c (peer c 2) (B (peer c 2) 1)) ∗ rowsPts c (peer c 1) (landed m c (peer c 1) (B (peer c 1) 2))) : sProp 𝕄)
      ⊢ bufPts c main_v1 (outVal m B c) := by
  have e0 : rowsPts (F := F) c c (landed m c c (B c 3)) = rowsPts c c (outVal m B c) := by
    unfold rowsPts; exact pointsTo_congr (landed_self m B c)
  have e3 : rowsPts (F := F) c (peer c 3) (landed m c (peer c 3) (B (peer c 3) 0)) = rowsPts c (peer c 3) (outVal m B c) := by
    unfold rowsPts; exact pointsTo_congr (landed_three m B c)
  have e2 : rowsPts (F := F) c (peer c 2) (landed m c (peer c 2) (B (peer c 2) 1)) = rowsPts c (peer c 2) (outVal m B c) := by
    unfold rowsPts; exact pointsTo_congr (landed_two m B c)
  have e1 : rowsPts (F := F) c (peer c 1) (landed m c (peer c 1) (B (peer c 1) 2)) = rowsPts c (peer c 1) (outVal m B c) := by
    unfold rowsPts; exact pointsTo_congr (landed_one m B c)
  rw [e0, e3, e2, e1, rows_eq c (outVal m B c)]
  iintro ⟨H0, H3, H2, H1⟩
  isplitl [H0]; · iexact H0
  isplitl [H1]; · iexact H1
  isplitl [H2]; · iexact H2
  iexact H3

/-- info: 'Cert.KernelIdeal.A2A.rows_join' depends on axioms: [propext, Classical.choice, Quot.sound] -/
#guard_msgs in #print axioms rows_join

end Cert.KernelIdeal.A2A

end
-- ==== Proof.OutValue.lean ====
/- The result buffer against the reference.

   Device c's result buffer is four blocks of 4096 rows; block q comes from the device w of c's ring whose
   z-coordinate is q, and is the slot of w that travels to c: its kept block when w = c, slot 0, 1, 2 when w is
   3, 2, 1 steps on. In each case that slot's column block of w's input is the one at c's z-coordinate. Since
   w's input is rows 4096 q … of the reference's whole input, element (r, j) of c's result is the narrowing of
   the whole input at row r, column 1024 (c mod 4) + j: c's block of the narrowed whole input, cut by columns. -/
import proofs.«900656_g7700000000000657_dist_a2a_v7x_xyz2x4x4_z_m4096_n1024_bf16_1_alg».proof.Proof.Rows
import Idealize.ShloMosaic.Lib.Layout
import Idealize.ShloMosaic.Lib.Pipeline.Value

noncomputable section

namespace Cert.KernelIdeal.A2A

open Cert.KernelIdeal Cert.KernelIdeal.Gen

open Idealize.ShloMosaic
open Idealize.ShloMosaic.TcCoe
open Idealize.SL.Sem

variable {F : FTy → Type} [FloatOps F]

/-! ## Where the mesh puts a device's blocks -/

/-- The input is cut by rows along the last mesh axis: device `w` holds row block `w mod 4`, all columns. -/
theorem meshIn_val0 : ∀ w : Dev nD, ((Layout.meshBlock [2, 4, 4] ![[2], []] w) 0).val = w.val % 4 := by decide
theorem meshIn_val1 : ∀ w : Dev nD, ((Layout.meshBlock [2, 4, 4] ![[2], []] w) 1).val = 0 := by decide
/-- The result is cut by columns along the last mesh axis: device `c` holds column block `c mod 4`, all rows. -/
theorem meshOut_val0 : ∀ c : Dev nD, ((Layout.meshBlock [2, 4, 4] ![[], [2]] c) 0).val = 0 := by decide
theorem meshOut_val1 : ∀ c : Dev nD, ((Layout.meshBlock [2, 4, 4] ![[], [2]] c) 1).val = c.val % 4 := by decide

/-! ## Where an element of a row block sits in the result buffer -/

theorem rows_emb_val0 (w : Dev nD) (y : S4096x1024.Idx) :
    (((rowsM w).view.emb y) 0 : ℕ) = 4096 * (w.val % 4) + (y 0).val := by
  show (((View.whole main_v1).slice (Rect.unit (s := S16384x1024) (k0_off3 w) S4096x1024.size (k0_off3_inb w))).emb y 0 : ℕ) = _
  rw [View.emb_slice, Function.Embedding.trans_apply, View.emb_whole, Function.Embedding.refl_apply, Rect.emb_apply]
  show k0_off3 w 0 + 1 * (y 0).val = _
  rw [k0_off3_eq w]
  show 4096 * (w.val % 4) + 1 * (y 0).val = _
  omega

theorem rows_emb_val1 (w : Dev nD) (y : S4096x1024.Idx) :
    (((rowsM w).view.emb y) 1 : ℕ) = (y 1).val := by
  show (((View.whole main_v1).slice (Rect.unit (s := S16384x1024) (k0_off3 w) S4096x1024.size (k0_off3_inb w))).emb y 1 : ℕ) = _
  rw [View.emb_slice, Function.Embedding.trans_apply, View.emb_whole, Function.Embedding.refl_apply, Rect.emb_apply]
  show k0_off3 w 1 + 1 * (y 1).val = _
  rw [k0_off3_eq w]
  show 0 + 1 * (y 1).val = _
  omega

/-- A block landed on sender `w`'s rows reads back, at the place of its element `y`, that element. -/
theorem landed_emb (m : (ℓ : Loc nD τ sig) → Buf (Elt F) ℓ) (q w : Dev nD)
    (v : (cc0_scratch1 : Ref sig .tc).ty.Contents (Elt F)) (y : S4096x1024.Idx) :
    landed m q w v ((rowsM w).view.emb y) = v y := by
  unfold landed
  rw [View.write_emb_of_mem _ _ (Finset.mem_univ y)]
  rfl

/-! ## One element of one block, against the reference -/

/-- Element `y` of slot `s` of device `w`, when that slot carries the column block of `c`'s z-coordinate, is the
    narrowed whole input where `w`'s row block puts `y` in `c`'s result. -/
theorem block_elem (m : (ℓ : Loc nD τ sig) → Buf (Elt F) ℓ)
    (B : Dev nD → Fin 4 → (cc0_scratch1 : Ref sig .tc).ty.Contents (Elt F))
    (X : (⟨2, ![16384, 4096]⟩ : Shape).Idx → Elt F .f32) (h : FTy.bits .bf16 < FTy.bits .f32)
    (ci : Dev nD → Fin 4 → S4096x1024.Idx → S4096x4096.Idx)
    (hci0 : ∀ (c : Dev nD) (s : Fin 4) (i : S4096x1024.Idx), ((ci c s i) 0).val = (i 0).val)
    (hci1 : ∀ (c : Dev nD) (s : Fin 4) (i : S4096x1024.Idx), ((ci c s i) 1).val = 1024 * ((c.val % 4 + s.val + 1) % 4) + (i 1).val)
    (hB : ∀ (c : Dev nD) (s : Fin 4) (i : S4096x1024.Idx), B c s i = FloatOps.truncf .bf16 h (m ((c : Thread nD τ).loc main_arg0) (ci c s i)))
    (hx : ∀ c : Dev nD, m ((c : Thread nD τ).loc main_arg0)
      = Layout.blockN ⟨2, ![4096, 4096]⟩ ⟨2, ![16384, 4096]⟩ (Layout.meshBlock [2, 4, 4] ![[2], []] c) X)
    (c w : Dev nD) (s : Fin 4) (hs : (w.val % 4 + s.val + 1) % 4 = c.val % 4) (y : S4096x1024.Idx) :
    B w s y = (Layout.blockN ⟨2, ![16384, 1024]⟩ ⟨2, ![16384, 4096]⟩ (Layout.meshBlock [2, 4, 4] ![[], [2]] c) (truncf .bf16 X h))
      ((rowsM w).view.emb y) := by
  rw [hB w s y, hx w]
  show FloatOps.truncf .bf16 h (X _) = FloatOps.truncf .bf16 h (X _)
  refine congrArg (fun a => FloatOps.truncf .bf16 h (X a)) (Shape.idx_ext₂ ?_ ?_)
  · rw [Layout.TilesN.idx_val, Layout.TilesN.idx_val]
    show ((Layout.meshBlock [2, 4, 4] ![[2], []] w) 0).val * 4096 + ((ci w s y) 0).val
      = ((Layout.meshBlock [2, 4, 4] ![[], [2]] c) 0).val * 16384 + (((rowsM w).view.emb y) 0 : ℕ)
    rw [meshIn_val0, meshOut_val0, hci0, rows_emb_val0]
    omega
  · rw [Layout.TilesN.idx_val, Layout.TilesN.idx_val]
    show ((Layout.meshBlock [2, 4, 4] ![[2], []] w) 1).val * 4096 + ((ci w s y) 1).val
      = ((Layout.meshBlock [2, 4, 4] ![[], [2]] c) 1).val * 1024 + (((rowsM w).view.emb y) 1 : ℕ)
    rw [meshIn_val1, meshOut_val1, hci1, rows_emb_val1, hs]
    omega

/-! ## The result buffer -/

/-- Device `c`'s result buffer after the run is its column block of the narrowed whole input. -/
theorem outVal_eq (m : (ℓ : Loc nD τ sig) → Buf (Elt F) ℓ)
    (B : Dev nD → Fin 4 → (cc0_scratch1 : Ref sig .tc).ty.Contents (Elt F))
    (X : (⟨2, ![16384, 4096]⟩ : Shape).Idx → Elt F .f32) (h : FTy.bits .bf16 < FTy.bits .f32)
    (ci : Dev nD → Fin 4 → S4096x1024.Idx → S4096x4096.Idx)
    (hci0 : ∀ (c : Dev nD) (s : Fin 4) (i : S4096x1024.Idx), ((ci c s i) 0).val = (i 0).val)
    (hci1 : ∀ (c : Dev nD) (s : Fin 4) (i : S4096x1024.Idx), ((ci c s i) 1).val = 1024 * ((c.val % 4 + s.val + 1) % 4) + (i 1).val)
    (hB : ∀ (c : Dev nD) (s : Fin 4) (i : S4096x1024.Idx), B c s i = FloatOps.truncf .bf16 h (m ((c : Thread nD τ).loc main_arg0) (ci c s i)))
    (hx : ∀ c : Dev nD, m ((c : Thread nD τ).loc main_arg0)
      = Layout.blockN ⟨2, ![4096, 4096]⟩ ⟨2, ![16384, 4096]⟩ (Layout.meshBlock [2, 4, 4] ![[2], []] c) X)
    (c : Dev nD) :
    outVal m B c = Layout.blockN ⟨2, ![16384, 1024]⟩ ⟨2, ![16384, 4096]⟩ (Layout.meshBlock [2, 4, 4] ![[], [2]] c) (truncf .bf16 X h) := by
  funext i
  rcases rows_cover c i with hi | hi | hi | hi
  · obtain ⟨y, rfl⟩ := View.exists_emb_of_mem_set (rowsM c).view hi
    rw [← landed_self m B c _ hi, landed_emb]
    exact block_elem m B X h ci hci0 hci1 hB hx c c 3 (by show (c.val % 4 + 3 + 1) % 4 = c.val % 4; omega) y
  · obtain ⟨y, rfl⟩ := View.exists_emb_of_mem_set (rowsM (peer c 1)).view hi
    rw [← landed_one m B c _ hi, landed_emb]
    exact block_elem m B X h ci hci0 hci1 hB hx c (peer c 1) 2
      (by rw [peer_mod]; show ((c.val % 4 + 1) % 4 + 2 + 1) % 4 = c.val % 4; omega) y
  · obtain ⟨y, rfl⟩ := View.exists_emb_of_mem_set (rowsM (peer c 2)).view hi
    rw [← landed_two m B c _ hi, landed_emb]
    exact block_elem m B X h ci hci0 hci1 hB hx c (peer c 2) 1
      (by rw [peer_mod]; show ((c.val % 4 + 2) % 4 + 1 + 1) % 4 = c.val % 4; omega) y
  · obtain ⟨y, rfl⟩ := View.exists_emb_of_mem_set (rowsM (peer c 3)).view hi
    rw [← landed_three m B c _ hi, landed_emb]
    exact block_elem m B X h ci hci0 hci1 hB hx c (peer c 3) 0
      (by rw [peer_mod]; show ((c.val % 4 + 3) % 4 + 0 + 1) % 4 = c.val % 4; omega) y

/-- info: 'Cert.KernelIdeal.A2A.outVal_eq' depends on axioms: [propext, Classical.choice, Quot.sound] -/
#guard_msgs in #print axioms outVal_eq

end Cert.KernelIdeal.A2A

end
-- ==== Proof.Bits.Mesh.lean ====
/- The mesh along its last axis: devices are numbered row-major over (x, y, z) = (2, 4, 4), so a device's
   z-coordinate is its number mod 4 and the devices sharing its (x, y) are its number with the last base-4 digit
   changed. `peer c d` is the device d steps further round that ring of four. Closed forms of the printed
   device chains and of the printed offset chains follow, each decided over the 32 devices. -/
import proofs.«900656_g7700000000000657_dist_a2a_v7x_xyz2x4x4_z_m4096_n1024_bf16_1_alg».proof.Proof.Gen.Kernel

set_option Elab.async false

namespace Cert.Kernel.A2A

open Idealize.ShloMosaic Idealize.SL.Sem Cert.Kernel Cert.Kernel.Gen

/-- A device's coordinate on the last mesh axis. -/
def zc (c : Dev nD) : Fin 4 := ⟨c.val % 4, Nat.mod_lt _ (by decide)⟩

/-- The device `d` steps further along the last axis, the other coordinates kept. -/
def peer (c : Dev nD) (d : ℕ) : Dev nD := ⟨c.val / 4 * 4 + (c.val % 4 + d) % 4, by
  have h1 : c.val / 4 < 8 := Nat.div_lt_of_lt_mul c.isLt
  have h2 : (c.val % 4 + d) % 4 < 4 := Nat.mod_lt _ (by decide)
  show c.val / 4 * 4 + (c.val % 4 + d) % 4 < 32
  omega⟩

theorem peer_val (c : Dev nD) (d : ℕ) : (peer c d).val = c.val / 4 * 4 + (c.val % 4 + d) % 4 := rfl

theorem peer_peer (c : Dev nD) (a b : ℕ) : peer (peer c a) b = peer c (a + b) := by
  apply Fin.ext
  simp only [peer_val]
  have h2 : (c.val % 4 + a) % 4 < 4 := Nat.mod_lt _ (by decide)
  omega

theorem peer_zero (c : Dev nD) : peer c 0 = c := by
  apply Fin.ext; simp only [peer_val]; omega
theorem peer_four (c : Dev nD) : peer c 4 = c := by
  apply Fin.ext; simp only [peer_val]; omega

theorem zc_peer (c : Dev nD) (d : ℕ) : (zc (peer c d)).val = (c.val % 4 + d) % 4 := by
  show (peer c d).val % 4 = _
  simp only [peer_val]; omega

theorem peer_ne_self (c : Dev nD) (d : ℕ) (h : d % 4 ≠ 0) : peer c d ≠ c := by
  intro e
  have := congrArg Fin.val e
  simp only [peer_val] at this
  omega

/-- Stepping by `d` is a bijection of the devices, with inverse stepping by `4 - d` (for d ≤ 4). -/
def shift (d : ℕ) (hd : d ≤ 4) : Dev nD ≃ Dev nD :=
  ⟨fun c => peer c d, fun c => peer c (4 - d),
   fun c => by show peer (peer c d) (4 - d) = c; rw [peer_peer, show d + (4 - d) = 4 by omega, peer_four],
   fun c => by show peer (peer c (4 - d)) d = c; rw [peer_peer, show 4 - d + d = 4 by omega, peer_four]⟩

/-! ## The printed device chains -/

theorem dev1_val : ∀ c : Dev nD, k0_dev1 c = (peer c 1).val := by decide +kernel
theorem dev2_val : ∀ c : Dev nD, k0_dev2 c = (peer c 2).val := by decide +kernel
theorem dev3_val : ∀ c : Dev nD, k0_dev3 c = (peer c 3).val := by decide +kernel
theorem dev4_val : ∀ c : Dev nD, k0_dev4 c = (peer c 1).val := by decide +kernel
theorem dev5_val : ∀ c : Dev nD, k0_dev5 c = (peer c 2).val := by decide +kernel
theorem dev6_val : ∀ c : Dev nD, k0_dev6 c = (peer c 3).val := by decide +kernel

theorem dev1_eq (c : Dev nD) : (⟨k0_dev1 c, k0_dev1_lt c⟩ : Dev nD) = peer c 1 := Fin.ext (dev1_val c)
theorem dev2_eq (c : Dev nD) : (⟨k0_dev2 c, k0_dev2_lt c⟩ : Dev nD) = peer c 2 := Fin.ext (dev2_val c)
theorem dev3_eq (c : Dev nD) : (⟨k0_dev3 c, k0_dev3_lt c⟩ : Dev nD) = peer c 3 := Fin.ext (dev3_val c)
theorem dev4_eq (c : Dev nD) : (⟨k0_dev4 c, k0_dev4_lt c⟩ : Dev nD) = peer c 1 := Fin.ext (dev4_val c)
theorem dev5_eq (c : Dev nD) : (⟨k0_dev5 c, k0_dev5_lt c⟩ : Dev nD) = peer c 2 := Fin.ext (dev5_val c)
theorem dev6_eq (c : Dev nD) : (⟨k0_dev6 c, k0_dev6_lt c⟩ : Dev nD) = peer c 3 := Fin.ext (dev6_val c)

/-! ## The printed offset chains -/

/-- Columns of the input read for the block sent `1 + r` steps on: the columns of that peer's z-coordinate. -/
theorem off1_eq : ∀ (c : Dev nD) (r : Fin 3), k0_off1 c (BitVec.ofNat 32 (1 + r.val)) = ![0, 1024 * ((c.val % 4 + 1 + r.val) % 4)] := by decide +kernel
theorem off2_eq : ∀ (c : Dev nD) (r : Fin 3), k0_off2 c (BitVec.ofNat 32 (1 + r.val)) = ![2048, 1024 * ((c.val % 4 + 1 + r.val) % 4)] := by decide +kernel
/-- Rows of the result where the block received from `1 + r` steps back lands. -/
theorem off6_eq : ∀ (c : Dev nD) (r : Fin 3), k0_off6 c (BitVec.ofNat 32 (1 + r.val)) = ![4096 * ((c.val % 4 + 3 - r.val) % 4), 0] := by decide +kernel

end Cert.Kernel.A2A
-- ==== Proof.Bits.Sched.lean ====
/- The cross-device protocol of the all-to-all along the last mesh axis, as a rounds schedule.

   Each device owns seven cells: its barrier cell (three units, one from each of the three other devices of its
   ring of four), three send cells and three receive cells (one per outgoing slot), each of one duty.
   What a barrier unit carries: the signaller lends the rows of its own result buffer that the signalled device
   will fill, and records that its matching receive cell has been opened. What a receive unit carries: those rows
   back, holding the sender's block. What a send unit carries: the sender's block buffer back.
   The blocks' contents `B` are a parameter here; the value module supplies them. -/
import proofs.«900656_g7700000000000657_dist_a2a_v7x_xyz2x4x4_z_m4096_n1024_bf16_1_alg».proof.Proof.Bits.Mesh
import proofs.«900656_g7700000000000657_dist_a2a_v7x_xyz2x4x4_z_m4096_n1024_bf16_1_alg».proof.Proof.Gen.Kernel.Skeleton
import proofs.«900656_g7700000000000657_dist_a2a_v7x_xyz2x4x4_z_m4096_n1024_bf16_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Fin 3`), and the counters the
     local copies' invariants draw on -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

/-! ## Memrefs, semaphores and cells -/

abbrev xM : Memref sig .tc .hbm S4096x4096 .f32 := Memref.whole main_arg0
abbrev oM : Memref sig .tc .hbm S16384x1024 .bf16 := Memref.whole main_v1
abbrev stgM : Memref sig .tc .vmem S2x2048x1024 .f32 := Memref.whole cc0_scratch0
abbrev blk0 : Memref sig .tc .vmem S4096x1024 .bf16 := Memref.whole cc0_scratch1
abbrev blk1 : Memref sig .tc .vmem S4096x1024 .bf16 := Memref.whole cc0_scratch2
abbrev blk2 : Memref sig .tc .vmem S4096x1024 .bf16 := Memref.whole cc0_scratch3
abbrev blk3 : Memref sig .tc .vmem S4096x1024 .bf16 := Memref.whole cc0_scratch4

abbrev barS : Sem sig := (SemArray.scalar (sig.barrier 0 rfl) : Sems sig S_).sem
abbrev send0 : DmaSem sig := ((cc0_scratch5.slice (Rect.unit (s := S3) ![0] S1.size inb_S3_S1_0)).squeeze S_ squeezes_S1_S_).sem
abbrev send1 : DmaSem sig := ((cc0_scratch5.slice (Rect.unit (s := S3) ![1] S1.size inb_S3_S1_1)).squeeze S_ squeezes_S1_S_).sem
abbrev send2 : DmaSem sig := ((cc0_scratch5.slice (Rect.unit (s := S3) ![2] S1.size inb_S3_S1_2)).squeeze S_ squeezes_S1_S_).sem
abbrev recv0 : DmaSem sig := ((cc0_scratch6.slice (Rect.unit (s := S3) ![0] S1.size inb_S3_S1_0)).squeeze S_ squeezes_S1_S_).sem
abbrev recv1 : DmaSem sig := ((cc0_scratch6.slice (Rect.unit (s := S3) ![1] S1.size inb_S3_S1_1)).squeeze S_ squeezes_S1_S_).sem
abbrev recv2 : DmaSem sig := ((cc0_scratch6.slice (Rect.unit (s := S3) ![2] S1.size inb_S3_S1_2)).squeeze S_ squeezes_S1_S_).sem
abbrev load0 : DmaSem sig := ((cc0_scratch7.slice (Rect.unit (s := S2) ![0] S1.size inb_S2_S1_0)).squeeze S_ squeezes_S1_S_).sem
abbrev load1 : DmaSem sig := ((cc0_scratch7.slice (Rect.unit (s := S2) ![1] S1.size inb_S2_S1_1)).squeeze S_ squeezes_S1_S_).sem
abbrev storeS : DmaSem sig := cc0_scratch8.sem

abbrev sendS : Fin 3 → DmaSem sig | 0 => send0 | 1 => send1 | 2 => send2
abbrev recvS : Fin 3 → DmaSem sig | 0 => recv0 | 1 => recv1 | 2 => recv2

abbrev barCell (c : Dev nD) : GSem nD τ sig := ((c : Thread nD τ), .reg barS)
abbrev sendCell (c : Dev nD) (s : Fin 3) : GSem nD τ sig := ((c : Thread nD τ), .dma (sendS s))
abbrev recvCell (c : Dev nD) (s : Fin 3) : GSem nD τ sig := ((c : Thread nD τ), .dma (recvS s))

/-- The rows of a result buffer that sender `c` fills: its own z-coordinate's block of 4096 rows. -/
abbrev rowsM (c : Dev nD) : Memref sig .tc .hbm S4096x1024 .bf16 :=
  oM.slice (Rect.unit (s := S16384x1024) (k0_off3 c) S4096x1024.size (k0_off3_inb c)) (fun _ => rfl)

abbrev N : ℕ := (blk0 : Memref sig .tc .vmem S4096x1024 .bf16).view.dmaCredit
theorem N_pos : 0 < N := View.dmaCredit_pos _ (by decide)

/-! ## Contents and points-to assertions -/

variable (m : (ℓ : Loc nD τ sig) → Buf (Elt F) ℓ) (ρ : Dev nD → PrngReg)
-- The blocks' contents, by device and slot (slot 3 is the block kept): a parameter of the protocol.
variable (B : Dev nD → Fin 4 → (cc0_scratch1 : Ref sig .tc).ty.Contents (Elt F))

/-- The rows sender `w` fills, in device `q`'s result buffer, at contents `f`. -/
def rowsPts (q w : Dev nD) (f : Buf (Elt F) ((rowsM w).view.loc (q : Thread nD τ))) : sProp 𝕄 :=
  (rowsM w).view.loc (q : Thread nD τ) ↦[(rowsM w).view.set]{fullShare} f

/-- A buffer `b` of device `c`, whole, at contents `f`. -/
def bufPts (c : Dev nD) (b : Ref sig .tc) (f : Buf (Elt F) ((c : Thread nD τ).loc b)) : sProp 𝕄 :=
  ((c : Thread nD τ).loc b) ↦{fullShare} f

/-- What `q`'s result buffer holds on the rows sender `w` fills once a block `v` has landed there. -/
def landed (q w : Dev nD) (v : (cc0_scratch1 : Ref sig .tc).ty.Contents (Elt F)) : Buf (Elt F) ((rowsM w).view.loc (q : Thread nD τ)) :=
  (rowsM w).view.write (Elt F) (m ((q : Thread nD τ).loc main_v1)) v Finset.univ

omit [FloatOps F] in
instance rowsPts_storable (q w : Dev nD) (f) : BI.Storable (upEmb : UEmb _ 𝕄) (rowsPts (F := F) q w f) := by unfold rowsPts; infer_instance
omit [FloatOps F] in
instance bufPts_storable (c : Dev nD) (b : Ref sig .tc) (f) : BI.Storable (upEmb : UEmb _ 𝕄) (bufPts (F := F) c b f) := by unfold bufPts; infer_instance

/-! ## The schedule -/

/-- Barrier unit `k` of device `c` comes from `q = peer c (3 - k)`, whose `(k+1)`-th signal it is: `q` lends the
    rows `c` fills in its result buffer and says its receive cell `2 - k` is open. -/
def barPay (c : Dev nD) (k : Fin 3) : sProp 𝕄 :=
  iprop(rowsPts (peer c (3 - k.val)) c (m (((peer c (3 - k.val) : Dev nD) : Thread nD τ).loc main_v1))
    ∗ reached ER (recvCell (peer c (3 - k.val)) ⟨2 - k.val, by omega⟩) 0)
/-- The receive unit of slot `s` on device `c` comes from `w = peer c (3 - s)`: the rows `w` fills, holding its block. -/
def recvPay (c : Dev nD) (s : Fin 3) : sProp 𝕄 :=
  rowsPts c (peer c (3 - s.val)) (landed m c (peer c (3 - s.val)) (B (peer c (3 - s.val)) s.castSucc))
/-- The send unit of slot `s`: the block buffer back. -/
def sendPay (c : Dev nD) (s : Fin 3) : sProp 𝕄 :=
  match s with
  | 0 => bufPts c cc0_scratch1 (B c 0)
  | 1 => bufPts c cc0_scratch2 (B c 1)
  | 2 => bufPts c cc0_scratch3 (B c 2)

abbrev IsBar (g : GSem nD τ sig) : Prop := g.1.2 = .tc ∧ g.2 = .reg barS
abbrev IsXfer (g : GSem nD τ sig) : Prop :=
  g.1.2 = .tc ∧ (g.2 = .dma send0 ∨ g.2 = .dma send1 ∨ g.2 = .dma send2 ∨ g.2 = .dma recv0 ∨ g.2 = .dma recv1 ∨ g.2 = .dma recv2)

/-- One round: a barrier cell has three duties of one unit; each send or receive cell the duty `0` of a block's credit. -/
def a2aRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay m g.1.1 d
    else if g.2 = .dma send0 then sendPay B g.1.1 0
    else if g.2 = .dma send1 then sendPay B g.1.1 1
    else if g.2 = .dma send2 then sendPay B g.1.1 2
    else if g.2 = .dma recv0 then recvPay m B g.1.1 0
    else if g.2 = .dma recv1 then recvPay m B g.1.1 1
    else if g.2 = .dma recv2 then recvPay m B g.1.1 2
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 3) :
    BI.Storable (upEmb : UEmb _ 𝕄) ((a2aRd (F := F) m B).payload g r d) := by
  show BI.Storable upEmb (if g.2 = .reg barS then barPay m g.1.1 d
    else if g.2 = .dma send0 then sendPay B g.1.1 0
    else if g.2 = .dma send1 then sendPay B g.1.1 1
    else if g.2 = .dma send2 then sendPay B g.1.1 2
    else if g.2 = .dma recv0 then recvPay m B g.1.1 0
    else if g.2 = .dma recv1 then recvPay m B g.1.1 1
    else if g.2 = .dma recv2 then recvPay m B g.1.1 2
    else iprop(emp))
  unfold barPay recvPay sendPay
  (repeat' split) <;> infer_instance

end Cert.Kernel.A2A

end
-- ==== Proof.Bits.Data.lean ====
/- The schedule's tables read at each cell, what each device owes at launch, the levels, and the proof data of
   the one grid point: what a device's thread starts from and what it leaves. -/
import proofs.«900656_g7700000000000657_dist_a2a_v7x_xyz2x4x4_z_m4096_n1024_bf16_1_alg».proof.Proof.Bits.Sched

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (B : Dev nD → Fin 4 → (cc0_scratch1 : Ref sig .tc).ty.Contents (Elt F))

/-- The memory at launch: arbitrary contents, every semaphore counter zero, arbitrary generator registers. -/
def s₀ : MemSt nD τ sig (Elt F) := ⟨m, fun _ => 0, ρ⟩

/-! ## The tables -/

section Tables
variable (c : Dev nD)

theorem xfer_ne_bar (q : DmaSem sig) : (SemLoc.dma q : SemLoc sig) ≠ .reg barS := fun h => by cases h
theorem isXfer_send (s : Fin 3) : IsXfer (sendCell c s) := by
  refine ⟨rfl, ?_⟩; fin_cases s
  · exact .inl rfl
  · exact .inr (.inl rfl)
  · exact .inr (.inr (.inl rfl))
theorem isXfer_recv (s : Fin 3) : IsXfer (recvCell c s) := by
  refine ⟨rfl, ?_⟩; fin_cases s
  · exact .inr (.inr (.inr (.inl rfl)))
  · exact .inr (.inr (.inr (.inr (.inl rfl))))
  · exact .inr (.inr (.inr (.inr (.inr rfl))))

omit [FloatOps F] in
theorem duties_bar : (a2aRd (F := F) m B).duties (barCell c) 0 = Finset.univ := by dsimp only [a2aRd]; exact if_pos ⟨rfl, rfl, rfl⟩
omit [FloatOps F] in
theorem duties_send (s : Fin 3) : (a2aRd (F := F) m B).duties (sendCell c s) 0 = {0} := by
  dsimp only [a2aRd]; rw [if_neg (fun h => xfer_ne_bar _ h.2.2)]; exact if_pos ⟨rfl, isXfer_send c s⟩
omit [FloatOps F] in
theorem duties_recv (s : Fin 3) : (a2aRd (F := F) m B).duties (recvCell c s) 0 = {0} := by
  dsimp only [a2aRd]; rw [if_neg (fun h => xfer_ne_bar _ h.2.2)]; exact if_pos ⟨rfl, isXfer_recv c s⟩
omit [FloatOps F] in
theorem duties_later (g : GSem nD τ sig) : ∀ r, 1 ≤ r → (a2aRd (F := F) m B).duties g r = ∅ :=
  fun r hr => by dsimp only [a2aRd]; rw [if_neg fun h => by omega, if_neg fun h => by omega]

omit [FloatOps F] in
theorem amount_bar (d : Fin 3) : (a2aRd (F := F) m B).amount (barCell c) 0 d = 1 := by dsimp only [a2aRd]; exact if_pos rfl
omit [FloatOps F] in
theorem amount_send (s : Fin 3) (d : Fin 3) : (a2aRd (F := F) m B).amount (sendCell c s) 0 d = N := by dsimp only [a2aRd]; exact if_neg (xfer_ne_bar _)
omit [FloatOps F] in
theorem amount_recv (s : Fin 3) (d : Fin 3) : (a2aRd (F := F) m B).amount (recvCell c s) 0 d = N := by dsimp only [a2aRd]; exact if_neg (xfer_ne_bar _)

omit [FloatOps F] in
theorem expect_bar : (a2aRd (F := F) m B).expect (barCell c) 0 = 3 := by
  unfold Schedule.expect Schedule.amountOf
  rw [duties_bar, Finset.sum_congr rfl fun d _ => amount_bar m B c d, Finset.sum_const, Finset.card_univ, Fintype.card_fin, smul_eq_mul]
omit [FloatOps F] in
theorem expect_send (s : Fin 3) : (a2aRd (F := F) m B).expect (sendCell c s) 0 = N := by
  unfold Schedule.expect Schedule.amountOf; rw [duties_send, Finset.sum_singleton, amount_send]
omit [FloatOps F] in
theorem expect_recv (s : Fin 3) : (a2aRd (F := F) m B).expect (recvCell c s) 0 = N := by
  unfold Schedule.expect Schedule.amountOf; rw [duties_recv, Finset.sum_singleton, amount_recv]

omit [FloatOps F] in
theorem payload_bar (k : Fin 3) : (a2aRd (F := F) m B).payload (barCell c) 0 k = barPay m c k := by dsimp only [a2aRd]; rw [if_pos rfl]
omit [FloatOps F] in
theorem payload_send0 (d : Fin 3) : (a2aRd (F := F) m B).payload (sendCell c 0) 0 d = bufPts c cc0_scratch1 (B c 0) := by
  dsimp only [a2aRd]; rw [if_neg (xfer_ne_bar _), if_pos rfl]; rfl
omit [FloatOps F] in
theorem payload_send1 (d : Fin 3) : (a2aRd (F := F) m B).payload (sendCell c 1) 0 d = bufPts c cc0_scratch2 (B c 1) := by
  dsimp only [a2aRd]; rw [if_neg (xfer_ne_bar _), if_neg (by decide), if_pos rfl]; rfl
omit [FloatOps F] in
theorem payload_send2 (d : Fin 3) : (a2aRd (F := F) m B).payload (sendCell c 2) 0 d = bufPts c cc0_scratch3 (B c 2) := by
  dsimp only [a2aRd]; rw [if_neg (xfer_ne_bar _), if_neg (by decide), if_neg (by decide), if_pos rfl]; rfl
omit [FloatOps F] in
theorem payload_recv0 (d : Fin 3) : (a2aRd (F := F) m B).payload (recvCell c 0) 0 d = recvPay m B c 0 := by
  dsimp only [a2aRd]; rw [if_neg (xfer_ne_bar _), if_neg (by decide), if_neg (by decide), if_neg (by decide), if_pos rfl]
omit [FloatOps F] in
theorem payload_recv1 (d : Fin 3) : (a2aRd (F := F) m B).payload (recvCell c 1) 0 d = recvPay m B c 1 := by
  dsimp only [a2aRd]; rw [if_neg (xfer_ne_bar _), if_neg (by decide), if_neg (by decide), if_neg (by decide), if_neg (by decide), if_pos rfl]
omit [FloatOps F] in
theorem payload_recv2 (d : Fin 3) : (a2aRd (F := F) m B).payload (recvCell c 2) 0 d = recvPay m B c 2 := by
  dsimp only [a2aRd]; rw [if_neg (xfer_ne_bar _), if_neg (by decide), if_neg (by decide), if_neg (by decide), if_neg (by decide), if_neg (by decide), if_pos rfl]

omit [FloatOps F] in
/-- A barrier unit's payload seen from the device `q` that pays it. -/
theorem barPay_eq (q : Dev nD) (k : Fin 3) (h : peer c (3 - k.val) = q) :
    barPay m c k = (iprop(((rowsM c).view.loc (q : Thread nD τ) ↦[(rowsM c).view.set]{fullShare} m ((q : Thread nD τ).loc main_v1))
      ∗ reached ER (recvCell q ⟨2 - k.val, by omega⟩) 0) : sProp 𝕄) := by
  subst h; rfl

omit [FloatOps F] in
theorem payload_bar_to1 : (a2aRd (F := F) m B).payload (barCell (peer c 1)) 0 0
    = (iprop(((rowsM (peer c 1)).view.loc (c : Thread nD τ) ↦[(rowsM (peer c 1)).view.set]{fullShare} m ((c : Thread nD τ).loc main_v1))
      ∗ reached ER (recvCell c 2) 0) : sProp 𝕄) := by
  rw [payload_bar, barPay_eq m (peer c 1) c 0 (by rw [peer_peer]; exact peer_four c)]; rfl
omit [FloatOps F] in
theorem payload_bar_to2 : (a2aRd (F := F) m B).payload (barCell (peer c 2)) 0 1
    = (iprop(((rowsM (peer c 2)).view.loc (c : Thread nD τ) ↦[(rowsM (peer c 2)).view.set]{fullShare} m ((c : Thread nD τ).loc main_v1))
      ∗ reached ER (recvCell c 1) 0) : sProp 𝕄) := by
  rw [payload_bar, barPay_eq m (peer c 2) c 1 (by rw [peer_peer]; exact peer_four c)]; rfl
omit [FloatOps F] in
theorem payload_bar_to3 : (a2aRd (F := F) m B).payload (barCell (peer c 3)) 0 2
    = (iprop(((rowsM (peer c 3)).view.loc (c : Thread nD τ) ↦[(rowsM (peer c 3)).view.set]{fullShare} m ((c : Thread nD τ).loc main_v1))
      ∗ reached ER (recvCell c 0) 0) : sProp 𝕄) := by
  rw [payload_bar, barPay_eq m (peer c 3) c 2 (by rw [peer_peer]; exact peer_four c)]; rfl

end Tables

/-! ## What each device owes at launch; the levels -/

/-- Device `c` owes each of its three peers a barrier unit and a block's credit on the receive cell of the slot
    by which it sends to that peer: slot `s` goes `s + 1` steps on. -/
def Orecv (c : Dev nD) : CellTallies nD τ sig Unit :=
  tallyAt (recvCell (peer c 3) 2) () N + tallyAt (recvCell (peer c 2) 1) () N + tallyAt (recvCell (peer c 1) 0) () N
def O₀ (c : Dev nD) : CellTallies nD τ sig Unit :=
  Orecv c + tallyAt (barCell (peer c 3)) () 1 + tallyAt (barCell (peer c 2)) () 1 + tallyAt (barCell (peer c 1)) () 1

def L (g : GSem nD τ sig) : Finset Unit := if g.1.2 = .tc then {()} else ∅
/-- Barrier cells at 1, receive cells at 2, every other cell (the sends, the local copies) at 0. -/
def lv (g : GSem nD τ sig) (_ : Unit) : ℕ :=
  if g.2 = .reg barS then 1 else if g.2 = .dma recv0 ∨ g.2 = .dma recv1 ∨ g.2 = .dma recv2 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The names of the cells' invariants and the ghost state of one device -/

/-- A device's seven cells: barrier, send 0–2, receive 0–2. -/
abbrev csem : Fin 7 → SemLoc sig
  | 0 => .reg barS | 1 => .dma send0 | 2 => .dma send1 | 3 => .dma send2 | 4 => .dma recv0 | 5 => .dma recv1 | 6 => .dma recv2
abbrev kcell (ck : Dev nD × Fin 7) : GSem nD τ sig := ((ck.1 : Thread nD τ), csem ck.2)

/-- The invariants device `c`'s thread opens: its own seven cells', its three peers' barrier cells' (its signals)
    and the receive cell on each peer that its send to that peer credits. -/
def invs (K : Dev nD × Fin 7 → ℕ) (c : Dev nD) : sProp 𝕄 :=
  iprop(cellInv ER (a2aRd m B) (K (c, 0)) (barCell c)
    ∗ cellInv ER (a2aRd m B) (K (c, 1)) (sendCell c 0) ∗ cellInv ER (a2aRd m B) (K (c, 2)) (sendCell c 1) ∗ cellInv ER (a2aRd m B) (K (c, 3)) (sendCell c 2)
    ∗ cellInv ER (a2aRd m B) (K (c, 4)) (recvCell c 0) ∗ cellInv ER (a2aRd m B) (K (c, 5)) (recvCell c 1) ∗ cellInv ER (a2aRd m B) (K (c, 6)) (recvCell c 2)
    ∗ cellInv ER (a2aRd m B) (K (peer c 1, 0)) (barCell (peer c 1)) ∗ cellInv ER (a2aRd m B) (K (peer c 2, 0)) (barCell (peer c 2)) ∗ cellInv ER (a2aRd m B) (K (peer c 3, 0)) (barCell (peer c 3))
    ∗ cellInv ER (a2aRd m B) (K (peer c 1, 4)) (recvCell (peer c 1) 0) ∗ cellInv ER (a2aRd m B) (K (peer c 2, 5)) (recvCell (peer c 2) 1) ∗ cellInv ER (a2aRd m B) (K (peer c 3, 6)) (recvCell (peer c 3) 2))

instance invs_persistent (K : Dev nD × Fin 7 → ℕ) (c : Dev nD) : BI.Persistent (invs m B K c) := by unfold invs; infer_instance

/-- Device `c`'s positions at the start of its own seven cells. -/
def positions (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That round 0 is open at every cell device `c` pays into, and at its own send and receive cells. -/
def marks (c : Dev nD) : sProp 𝕄 :=
  iprop(reached ER (barCell (peer c 1)) 0 ∗ reached ER (barCell (peer c 2)) 0 ∗ reached ER (barCell (peer c 3)) 0
    ∗ reached ER (recvCell (peer c 1) 0) 0 ∗ reached ER (recvCell (peer c 2) 1) 0 ∗ reached ER (recvCell (peer c 3) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the nine duties device `c` pays: unit `k` of the barrier cell `k + 1` steps on, the receive unit
    on each peer, and its own three send units. -/
def payToks (c : Dev nD) : sProp 𝕄 :=
  iprop(dutyTok ER (barCell (peer c 1)) 0 0 ∗ dutyTok ER (barCell (peer c 2)) 0 1 ∗ dutyTok ER (barCell (peer c 3)) 0 2
    ∗ dutyTok ER (recvCell (peer c 1) 0) 0 0 ∗ dutyTok ER (recvCell (peer c 2) 1) 0 0 ∗ dutyTok ER (recvCell (peer c 3) 2) 0 0
    ∗ dutyTok ER (sendCell c 0) 0 0 ∗ dutyTok ER (sendCell c 1) 0 0 ∗ dutyTok ER (sendCell c 2) 0 0)

def ghost (K : Dev nD × Fin 7 → ℕ) (c : Dev nD) : sProp 𝕄 :=
  iprop(invs m B K c ∗ positions c ∗ marks c ∗ payToks c)

/-- The counters of the three semaphores only local copies use, at zero. -/
def localSems (c : Dev nD) : sProp 𝕄 :=
  iprop(semVal ((c : Thread nD τ), .dma load0) 0 ∗ semVal ((c : Thread nD τ), .dma load1) 0 ∗ semVal ((c : Thread nD τ), .dma storeS) 0)

/-- The credit device `c` is dealt at launch: its barrier's three units and a block's credit on each receive cell. -/
def launchCreds (c : Dev nD) : sProp 𝕄 :=
  iprop(cred (tallyAt (barCell c) () 3) ∗ cred (tallyAt (recvCell c 0) () N) ∗ cred (tallyAt (recvCell c 1) () N) ∗ cred (tallyAt (recvCell c 2) () N))

/-- What the global step hands device `c`. -/
def G' (c : Dev nD) : sProp 𝕄 := iprop((∃ K, ghost m B K c) ∗ localSems c)

/-- What device `c`'s thread holds when the region is entered, the scratch buffers apart. -/
def start (c : Dev nD) : sProp 𝕄 :=
  iprop(G' m B c ∗ launchCreds c ∗ levAts L lv
    ∗ bufPts c main_arg0 (m ((c : Thread nD τ).loc main_arg0)) ∗ bufPts c main_v1 (m ((c : Thread nD τ).loc main_v1)))

/-- The five scratch buffers at some contents. -/
def scratch (c : Dev nD) : sProp 𝕄 :=
  iprop((∃ f, bufPts c cc0_scratch0 f) ∗ (∃ f, bufPts c cc0_scratch1 f) ∗ (∃ f, bufPts c cc0_scratch2 f) ∗ (∃ f, bufPts c cc0_scratch3 f) ∗ (∃ f, bufPts c cc0_scratch4 f))

/-- The result buffer of device `c` after the run: its rows in four blocks, the block of each device of the ring
    written where that device's z-coordinate says — its own kept block, and slot `s` of the device `3 - s` steps on. -/
def outVal (c : Dev nD) : Buf (Elt F) ((c : Thread nD τ).loc main_v1) :=
  (rowsM (peer c 1)).view.write (Elt F)
    ((rowsM (peer c 2)).view.write (Elt F)
      ((rowsM (peer c 3)).view.write (Elt F)
        ((rowsM c).view.write (Elt F) (m ((c : Thread nD τ).loc main_v1)) (B c 3) Finset.univ)
        (B (peer c 3) 0) Finset.univ)
      (B (peer c 2) 1) Finset.univ)
    (B (peer c 1) 2) Finset.univ

/-- The nine own semaphores' counters at zero. -/
def ownZero (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0 ∗ localSems c)

def Φ₀ (c : Dev nD) : sProp 𝕄 := iprop(start m B c ∗ scratch c)
/-- After the point: the argument unchanged, the result at its contents, the scratch buffers, the own cells closed. -/
def Φ₁ (c : Dev nD) : sProp 𝕄 :=
  iprop(bufPts c main_arg0 (m ((c : Thread nD τ).loc main_arg0)) ∗ bufPts c main_v1 (outVal m B c) ∗ scratch c ∗ ownZero c)

def dats (_ : Fin 1) (c : Dev nD) : Dat τ (Elt F) Unit ℕ UU ℕ cfg0 c where
  A w := w.elim0
  after w _ := w.elim0
  Φ t := match t with
    | ⟨0, _⟩ => Φ₀ m B c
    | ⟨_ + 1, _⟩ => Φ₁ m B c
  q _ := fullShare
  owed t := match t with
    | ⟨0, _⟩ => O₀ c
    | ⟨_ + 1, _⟩ => 0

abbrev 𝒱₀ : Variants := Variants.none

end Cert.Kernel.A2A

end
-- ==== Proof.Bits.Launch.lean ====
/- The launch of the all-to-all along the last mesh axis: from any memory with zero counters, the 32 devices'
   threads are given their cells' invariants, positions and duty tokens (each duty's token dealt round the ring
   of four to the device that pays it), the launch credit of their barrier and receive cells, and the level
   facts; the body obligation of each device then yields the run of the whole program, with each device's
   result buffer at its final contents and its argument unchanged. -/
import proofs.«900656_g7700000000000657_dist_a2a_v7x_xyz2x4x4_z_m4096_n1024_bf16_1_alg».proof.Proof.Bits.Data
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (B : Dev nD → Fin 4 → (cc0_scratch1 : Ref sig .tc).ty.Contents (Elt F))

/-! ## The kernel's own semaphores, the cells and the duty tokens as minted -/

/-- The nine scoped DMA semaphores of the kernel: three send, three receive, two load, one store. -/
abbrev osem : Fin 9 → SemLoc sig
  | 0 => .dma send0 | 1 => .dma send1 | 2 => .dma send2 | 3 => .dma recv0 | 4 => .dma recv1 | 5 => .dma recv2
  | 6 => .dma load0 | 7 => .dma load1 | 8 => .dma storeS

theorem ownSemFacts : Pipeline.OwnSemFacts cfg0.spec osem := by decide

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the protocol: seven a device. -/
def a2aCells : Finset (GSem nD τ sig) := Finset.univ.map ⟨kcell, kcell_injective⟩

/-- The nine duties of a device's own cells, by semaphore and duty name: the barrier's three, and duty 0 of each
    send and each receive cell. -/
abbrev tsem : Fin 9 → SemLoc sig × Fin 3
  | 0 => (.reg barS, 0) | 1 => (.reg barS, 1) | 2 => (.reg barS, 2)
  | 3 => (.dma send0, 0) | 4 => (.dma send1, 0) | 5 => (.dma send2, 0)
  | 6 => (.dma recv0, 0) | 7 => (.dma recv1, 0) | 8 => (.dma recv2, 0)

theorem tsem_injective : Function.Injective (tsem : Fin 9 → SemLoc sig × Fin 3) := by decide

abbrev tokOf (cj : Dev nD × Fin 9) : GSem nD τ sig × ℕ × Fin 3 := (((cj.1 : Thread nD τ), (tsem cj.2).1), 0, (tsem cj.2).2)

theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : (tsem j).1 = (tsem j').1 := congrArg (fun x : GSem nD τ sig × ℕ × Fin 3 => x.1.2) h
  have h3 : (tsem j).2 = (tsem j').2 := congrArg (fun x : GSem nD τ sig × ℕ × Fin 3 => x.2.2) h
  rw [tsem_injective (Prod.ext h2 h3)]

def a2aToks : Finset (GSem nD τ sig × ℕ × Fin 3) := Finset.univ.map ⟨tokOf, tokOf_injective⟩

/-- The launch element: the pipeline library's (no staging cell), the protocol's cells and tokens, no counter. -/
def u₀ : UU :=
  (initOf (Pipeline.cells cfgs cellOf_inj) (Pipeline.launchToks cfgs cellOf_inj), (initOf a2aCells a2aToks, 1))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`. -/
def G (c : Dev nD) : sProp 𝕄 :=
  iprop((bigSep Finset.univ fun k : Fin 7 => roundState ER (a2aRd m B) (kcell (c, k)) 0)
    ∗ (bigSep Finset.univ fun k : Fin 7 => iprop(atPos ER (kcell (c, k)) 0 ∅ 0 ∗ reached ER (kcell (c, k)) 0)) ∗ toks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- Funding: the protocol's launch element is every cell's round state, position and mark, and every duty's token. -/
theorem fund_a2a : BI.own (ER (initOf a2aCells a2aToks)) ⊢ (|==> bigSep Finset.univ (G m B) : sProp 𝕄) := by
  have hX (Φ : GSem nD τ sig → sProp 𝕄) : bigSep a2aCells Φ = bigSep Finset.univ fun c : Dev nD => bigSep Finset.univ fun k : Fin 7 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_fin9]; rfl
  iintro HX
  imod (Rounds.fund ER (a2aRd m B) a2aCells a2aToks) $$ HX with ⟨Hst, Hr, Hat, Htok⟩
  imodintro
  ihave Hst' := (Entails.of_eq (hX fun g => roundState ER (a2aRd m B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: counters into invariants, tokens round the ring -/

omit [FloatOps F] in
/-- The kernel's own nine semaphores at zero: the six send and receive cells' and the three local ones'. -/
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem [0, 1, 2, 3, 4, 5, 6, 7, 8] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ localSems c : sProp 𝕄) := by
  rw [ownSems0_eq, unscopedSems0_eq, bigSep_fin7]
  unfold ownZero
  iintro ⟨⟨HS0, HS1, HS2, HR0, HR1, HR2, HL⟩, HB⟩
  isplitr [HL]
  · isplitl [HB]; · iexact HB
    isplitl [HS0]; · iexact HS0
    isplitl [HS1]; · iexact HS1
    isplitl [HS2]; · iexact HS2
    isplitl [HR0]; · iexact HR0
    isplitl [HR1]; · iexact HR1
    iexact HR2
  · iexact HL

omit [FloatOps F] in
/-- One device's part of the global step: each of its seven cells' counter and round state go into an invariant. -/
theorem core_alloc (c : Dev nD) :
    iprop(Pipeline.ownSems0 (Ix := Unit) (Name := ℕ) (U := UU) (Lvl := ℕ) (Val := Elt F) (τ := τ) osem c ∗ unscopedSems0 c ∗ G m B c)
      ⊢ |={Set.univ}=> iprop((bigSep Finset.univ fun k => iprop(∃ κ : ℕ, cellInv ER (a2aRd m B) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 7 => semVal (kcell (c, k)) 0) ∗ bigSep Finset.univ fun k : Fin 7 => roundState ER (a2aRd m B) (kcell (c, k)) 0)
      ⊢ (|={Set.univ}=> bigSep Finset.univ fun k => iprop(∃ κ : ℕ, cellInv ER (a2aRd m B) κ (kcell (c, k))) : sProp 𝕄) from by
        rw [← bigSep_sep']
        exact (bigSep_mono fun k _ => (Rounds.body_intro ER (a2aRd m B) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- Every cell's invariant under a chosen name, and that round 0 is open at every cell. -/
def records (K : Dev nD × Fin 7 → ℕ) : sProp 𝕄 :=
  iprop((bigSep Finset.univ fun ck : Dev nD × Fin 7 => cellInv ER (a2aRd m B) (K ck) (kcell ck))
    ∗ bigSep Finset.univ fun ck : Dev nD × Fin 7 => reached ER (kcell ck) 0)

instance records_persistent (K : Dev nD × Fin 7 → ℕ) : BI.Persistent (records m B K) := by unfold records; infer_instance

omit [FloatOps F] in
theorem inv_at (K : Dev nD × Fin 7 → ℕ) (ck : Dev nD × Fin 7) :
    (bigSep Finset.univ fun ck : Dev nD × Fin 7 => (cellInv ER (a2aRd m B) (K ck) (kcell ck) : sProp 𝕄)) ⊢ cellInv ER (a2aRd m B) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c` alone: its positions, the tokens of the duties it pays, its local counters. -/
def linear (c : Dev nD) : sProp 𝕄 := iprop(positions c ∗ payToks c ∗ localSems c)

omit [FloatOps F] in
theorem ghost_intro (K : Dev nD × Fin 7 → ℕ) (c : Dev nD) : iprop(records m B K ∗ linear c) ⊢ G' m B c := by
  unfold records linear G' ghost invs marks
  iintro ⟨⟨#HI, #HR⟩, Hpos, Htok, HL⟩
  isplitr [HL]
  · iexists K
    isplitr
    · isplitr; · iapply (inv_at m B K (c, 0)); iexact HI
      isplitr; · iapply (inv_at m B K (c, 1)); iexact HI
      isplitr; · iapply (inv_at m B K (c, 2)); iexact HI
      isplitr; · iapply (inv_at m B K (c, 3)); iexact HI
      isplitr; · iapply (inv_at m B K (c, 4)); iexact HI
      isplitr; · iapply (inv_at m B K (c, 5)); iexact HI
      isplitr; · iapply (inv_at m B K (c, 6)); iexact HI
      isplitr; · iapply (inv_at m B K (peer c 1, 0)); iexact HI
      isplitr; · iapply (inv_at m B K (peer c 2, 0)); iexact HI
      isplitr; · iapply (inv_at m B K (peer c 3, 0)); iexact HI
      isplitr; · iapply (inv_at m B K (peer c 1, 4)); iexact HI
      isplitr; · iapply (inv_at m B K (peer c 2, 5)); iexact HI
      iapply (inv_at m B K (peer c 3, 6)); iexact HI
    isplitl [Hpos]; · iexact Hpos
    isplitr [Htok]
    · isplitr; · iapply (reached_at (F := F) (peer c 1, 0)); iexact HR
      isplitr; · iapply (reached_at (F := F) (peer c 2, 0)); iexact HR
      isplitr; · iapply (reached_at (F := F) (peer c 3, 0)); iexact HR
      isplitr; · iapply (reached_at (F := F) (peer c 1, 4)); iexact HR
      isplitr; · iapply (reached_at (F := F) (peer c 2, 5)); iexact HR
      isplitr; · iapply (reached_at (F := F) (peer c 3, 6)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      iapply (reached_at (F := F) (c, 6)); iexact HR
    · iexact Htok
  · iexact HL

omit [FloatOps F] in
/-- The tokens dealt round the ring: token `k` of a barrier cell goes `3 - k` steps on (to the device whose
    `(k+1)`-th signal pays it), the token of receive cell `s` likewise `3 - s` steps on; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (shift 1 (by omega)) (fun c : Dev nD => (dutyTok ER (barCell c) 0 0 : sProp 𝕄)),
    bigSep_univ_equiv (shift 2 (by omega)) (fun c : Dev nD => (dutyTok ER (barCell c) 0 1 : sProp 𝕄)),
    bigSep_univ_equiv (shift 3 (by omega)) (fun c : Dev nD => (dutyTok ER (barCell c) 0 2 : sProp 𝕄)),
    bigSep_univ_equiv (shift 1 (by omega)) (fun c : Dev nD => (dutyTok ER (recvCell c 0) 0 0 : sProp 𝕄)),
    bigSep_univ_equiv (shift 2 (by omega)) (fun c : Dev nD => (dutyTok ER (recvCell c 1) 0 0 : sProp 𝕄)),
    bigSep_univ_equiv (shift 3 (by omega)) (fun c : Dev nD => (dutyTok ER (recvCell c 2) 0 0 : sProp 𝕄))]
  iintro ⟨Hb0, Hb1, Hb2, Hs0, Hs1, Hs2, Hr0, Hr1, Hr2⟩
  isplitl [Hb0]; · iexact Hb0
  isplitl [Hb1]; · iexact Hb1
  isplitl [Hb2]; · iexact Hb2
  isplitl [Hr0]; · iexact Hr0
  isplitl [Hr1]; · iexact Hr1
  isplitl [Hr2]; · iexact Hr2
  isplitl [Hs0]; · iexact Hs0
  isplitl [Hs1]; · iexact Hs1
  iexact Hs2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (a2aRd m B) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m B) := by
  rw [bigSep_sep', bigSep_sep', bigSep_sep', ← bigSep_univ_prod (fun ck : Dev nD × Fin 7 => iprop(∃ κ : ℕ, cellInv ER (a2aRd m B) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, HL⟩
  ihave HK := (BI.bigSep_exists_pi Finset.univ (fun (ck : Dev nD × Fin 7) (κ : ℕ) => (cellInv ER (a2aRd m B) κ (kcell ck) : sProp 𝕄))) $$ HI
  icases HK with ⟨%K, #HI⟩
  ihave Htk := (toks_around (F := F)) $$ Htok
  iapply (bigSep_with_persistent (R := records m B K) fun c _ => ghost_intro m B K c)
  isplitr
  · unfold records; isplitl; · iexact HI
    iexact HR
  · iapply ((Entails.of_eq ((bigSep_sep' Finset.univ (fun c : Dev nD => bigSep Finset.univ fun k : Fin 7 => (atPos ER (kcell (c, k)) 0 ∅ 0 : sProp 𝕄))
        (fun c : Dev nD => iprop(payToks c ∗ localSems c))).symm)).trans
      (bigSep_mono fun c _ => show _ ⊢ linear c from Entails.of_eq (by unfold linear positions; rw [bigSep_fin7])))
    isplitl [Hat]; · iexact Hat
    rw [bigSep_sep']
    isplitl [Htk]; · iexact Htk
    iexact HL

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m B c) : sProp 𝕄)
    ⊢ |={Set.univ}=> bigSep Finset.univ (G' m B) :=
  ((bigSep_mono fun c _ => core_alloc m B c).trans (bigSep_fupd _ _)).trans (BI.fupd_mono (regroup m B))

/-! ## The launch credit -/

omit [FloatOps F] in
theorem peer_back (c : Dev nD) (a b : ℕ) (h : a + b = 4) : peer (peer c a) b = c := by rw [peer_peer, h, peer_four]

omit [FloatOps F] in
/-- Summed over the devices, what is owed to device `c`'s cells: a unit on its barrier cell from each of its three
    peers, and a block's credit on each receive cell from the peer that sends into it. -/
theorem creds (c : Dev nD) : (Pipeline.launchCred O₀ c : sProp 𝕄) ⊢ launchCreds c := by
  have e : (O₀ : Dev nD → CellTallies nD τ sig Unit) = fun d =>
      tallyAt (recvCell (peer d 3) 2) () N + tallyAt (recvCell (peer d 2) 1) () N + tallyAt (recvCell (peer d 1) 0) () N
        + tallyAt (barCell (peer d 3)) () 1 + tallyAt (barCell (peer d 2)) () 1 + tallyAt (barCell (peer d 1)) () 1 := rfl
  rw [e, Pipeline.launchCred_add, Pipeline.launchCred_add, Pipeline.launchCred_add, Pipeline.launchCred_add, Pipeline.launchCred_add]
  iintro ⟨⟨⟨⟨⟨H2, H1⟩, H0⟩, Hb3⟩, Hb2⟩, Hb1⟩
  ihave H2' := (Pipeline.launchCred_tallyAt (τ := τ) (.dma recv2) (fun d => peer d 3) (fun d => peer d 1) (fun d => peer_back d 1 3 rfl) (fun d => peer_back d 3 1 rfl) () N c) $$ H2
  ihave H1' := (Pipeline.launchCred_tallyAt (τ := τ) (.dma recv1) (fun d => peer d 2) (fun d => peer d 2) (fun d => peer_back d 2 2 rfl) (fun d => peer_back d 2 2 rfl) () N c) $$ H1
  ihave H0' := (Pipeline.launchCred_tallyAt (τ := τ) (.dma recv0) (fun d => peer d 1) (fun d => peer d 3) (fun d => peer_back d 3 1 rfl) (fun d => peer_back d 1 3 rfl) () N c) $$ H0
  ihave Hb3' := (Pipeline.launchCred_tallyAt (τ := τ) (.reg barS) (fun d => peer d 3) (fun d => peer d 1) (fun d => peer_back d 1 3 rfl) (fun d => peer_back d 3 1 rfl) () 1 c) $$ Hb3
  ihave Hb2' := (Pipeline.launchCred_tallyAt (τ := τ) (.reg barS) (fun d => peer d 2) (fun d => peer d 2) (fun d => peer_back d 2 2 rfl) (fun d => peer_back d 2 2 rfl) () 1 c) $$ Hb2
  ihave Hb1' := (Pipeline.launchCred_tallyAt (τ := τ) (.reg barS) (fun d => peer d 1) (fun d => peer d 3) (fun d => peer_back d 3 1 rfl) (fun d => peer_back d 1 3 rfl) () 1 c) $$ Hb1
  unfold launchCreds
  isplitl [Hb3' Hb2' Hb1']
  · have h3 : (tallyAt (barCell c) () 3 : CellTallies nD τ sig Unit)
        = tallyAt (barCell c) () 1 + tallyAt (barCell c) () 1 + tallyAt (barCell c) () 1 := by rw [tallyAt_add, tallyAt_add]
    rw [h3]
    iapply (cred_add _ _).2
    isplitl [Hb3' Hb2']
    · iapply (cred_add _ _).2
      isplitl [Hb3'] <;> iassumption
    · iexact Hb1'
  isplitl [H0']; · iexact H0'
  isplitl [H1']; · iexact H1'
  iexact H2'

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m B c)
      ⊢ |={Set.univ}=> iprop(start m B c ∗ emp) := by
  rw [Pipeline.unscopedRestP_none, unscopedRest0_eq]
  iintro ⟨⟨Hx, Ho⟩, Hlev, Hcr, -, HG⟩
  ihave Hc := (creds (F := F) c) $$ Hcr
  imodintro
  unfold start bufPts
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m B c ∗ Pipeline.prefHeld Pipeline.Prefetch.none c (fun _ => fullShare.right) (fun k => k.elim0) ∗ Pipeline.scopedRest cfg0.spec c)
      ⊢ (dats m B 0 c).Φ 0 := by
  rw [show (dats m B 0 c).Φ 0 = Φ₀ m B c from rfl, scopedRest0_eq]
  unfold Φ₀ scratch bufPts
  iintro ⟨Hs, -, Hr⟩
  isplitl [Hs]; · iexact Hs
  iexact Hr

theorem phi1_exit (c : Dev nD) :
    (dats m B 0 c).Φ (Fin.last cfg0.N) ⊢ iprop((bufPts c main_arg0 (m ((c : Thread nD τ).loc main_arg0)) ∗ bufPts c main_v1 (outVal m B c))
      ∗ Pipeline.ownSems0 osem c ∗ Pipeline.scopedRest cfg0.spec c) := by
  rw [show (dats m B 0 c).Φ (Fin.last cfg0.N) = Φ₁ m B c from rfl, scopedRest0_eq, ownSems0_eq]
  unfold Φ₁ scratch
  iintro ⟨Hx, Ho, Hr, Hz⟩
  isplitl [Hx Ho]
  · isplitl [Hx] <;> iassumption
  isplitl [Hz]; · iexact Hz
  unfold bufPts; iexact Hr

theorem waits (c : Dev nD) : (levAts L lv : sProp 𝕄) ⊢ Pipeline.cellsWaits cfgs (dats m B) () 0 c :=
  Pipeline.cellsWaits_intro cfgs (dats m B) () 0 c fun w s t => w.elim0

/-! ## The run -/

set_option maxRecDepth 8000 in
/-- At the compiled mesh of 32 devices, for any float values, from any memory with zero counters: given each
    device's body obligation, every weakly fair execution of the program terminates, and every final state has each
    device's result buffer at the blocks of its ring and its argument buffer as it was. -/
theorem run_main_of (m : (ℓ : Loc nD τ sig) → Buf (Elt F) ℓ) (ρ : Dev nD → PrngReg)
    (B : Dev nD → Fin 4 → (cc0_scratch1 : Ref sig .tc).ty.Contents (Elt F))
    (hbody : ∀ c : Dev nD, BodyObligation (dats (F := F) m B 0 c) (defs₀ (F := F)) 𝒱₀ () Set.univ) :
    θ_run defs (onTc (τ := τ) (main (F := F))) (s₀ m ρ) (fun r => ∀ c : Dev nD,
      r.2.mem ((c : Thread nD τ).loc main_v1) = outVal m B c
      ∧ r.2.mem ((c : Thread nD τ).loc main_arg0) = m ((c : Thread nD τ).loc main_arg0)) :=
  Pipeline.θ_run_region_owing_glob_pf (fun p => (cfgs p).toPCfg) (fun p => (cfgs p).toPCfg_adm) (dats m B) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m B)
    (G := G m B) (G' := G' m B) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund_a2a m B) $$ HX with HG
      imodintro
      isplitl [HP] <;> iassumption)
    (hglob := glob m B)
    (hA := fun _ w => w.elim0) (hpf := fun _ k => k.elim0)
    (X := start m B) (Y := fun c => iprop(bufPts c main_arg0 (m ((c : Thread nD τ).loc main_arg0)) ∗ bufPts c main_v1 (outVal m B c))) (Z := fun _ => iprop(emp))
    (hX := start_intro m ρ B) (hin := phi0_intro m B) (hout := phi1_exit m B)
    (QY := fun c s => s.mem ((c : Thread nD τ).loc main_v1) = outVal m B c ∧ s.mem ((c : Thread nD τ).loc main_arg0) = m ((c : Thread nD τ).loc main_arg0))
    (hY := fun c s' => by
      unfold bufPts
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.A2A.run_main_of' depends on axioms: [propext, Classical.choice, Quot.sound] -/
#guard_msgs in #print axioms run_main_of

end Cert.Kernel.A2A

end
-- ==== Proof.Bits.Stage.lean ====
/- The staging buffer as its two slots.

   The buffer has shape [2, 2048, 1024]; slot k is the slice at first coordinate k with that axis dropped, so an
   index of the buffer lies under slot k exactly when its first coordinate is k. The two slots' element sets are
   disjoint and cover the buffer: the whole buffer is the two slots, and two slots held at any contents are the
   whole buffer at the contents that agree with each on its slot. -/
import proofs.«900656_g7700000000000657_dist_a2a_v7x_xyz2x4x4_z_m4096_n1024_bf16_1_alg».proof.Proof.Bits.Data
import Idealize.ShloMosaic.Rules.PointsTo

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two slots -/

abbrev slot0 : Memref sig .tc .vmem S2048x1024 .f32 := ((Memref.whole cc0_scratch0 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024
abbrev slot1 : Memref sig .tc .vmem S2048x1024 .f32 := ((Memref.whole cc0_scratch0 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024

/-- An index of the staging buffer lies under slot 0 exactly when its first coordinate is 0. -/
theorem mem_slot0 (i : slot0.view.ty.Idx) : i ∈ slot0.view.set ↔ (i 0).val = 0 := by
  rw [show slot0.view.set = (Rect.unit (s := S2x2048x1024) ![0, 0, 0] S1x2048x1024.size inb_S2x2048x1024_S1x2048x1024_0_0_0).set from
    (View.set_reshape _ _).trans (View.set_slice_whole _ _)]
  rw [Rect.mem_set_unit]
  have h1 : (i 1).val < 2048 := (i 1).isLt
  have h2 : (i 2).val < 1024 := (i 2).isLt
  constructor
  · intro h
    have := h 0
    have e : (![0, 0, 0] : Fin 3 → ℕ) 0 + S1x2048x1024.size 0 = 1 := rfl
    omega
  · intro h a
    match a with
    | 0 => exact ⟨Nat.zero_le _, by show (i 0).val < 0 + 1; omega⟩
    | 1 => exact ⟨Nat.zero_le _, by show (i 1).val < 0 + 2048; omega⟩
    | 2 => exact ⟨Nat.zero_le _, by show (i 2).val < 0 + 1024; omega⟩

/-- And under slot 1 exactly when it is 1. -/
theorem mem_slot1 (i : slot1.view.ty.Idx) : i ∈ slot1.view.set ↔ (i 0).val = 1 := by
  rw [show slot1.view.set = (Rect.unit (s := S2x2048x1024) ![1, 0, 0] S1x2048x1024.size inb_S2x2048x1024_S1x2048x1024_1_0_0).set from
    (View.set_reshape _ _).trans (View.set_slice_whole _ _)]
  rw [Rect.mem_set_unit]
  have h1 : (i 1).val < 2048 := (i 1).isLt
  have h2 : (i 2).val < 1024 := (i 2).isLt
  constructor
  · intro h
    have := h 0
    have e : (![1, 0, 0] : Fin 3 → ℕ) 0 + S1x2048x1024.size 0 = 2 := rfl
    have e' : (![1, 0, 0] : Fin 3 → ℕ) 0 = 1 := rfl
    omega
  · intro h a
    match a with
    | 0 => exact ⟨by show 1 ≤ (i 0).val; omega, by show (i 0).val < 1 + 1; omega⟩
    | 1 => exact ⟨Nat.zero_le _, by show (i 1).val < 0 + 2048; omega⟩
    | 2 => exact ⟨Nat.zero_le _, by show (i 2).val < 0 + 1024; omega⟩

theorem slots_disjoint : Disjoint slot0.view.set slot1.view.set :=
  Finset.disjoint_left.mpr fun i h0 h1 => by
    have := (mem_slot0 i).mp h0
    have := (mem_slot1 i).mp h1
    omega

theorem slots_cover (c : Dev nD) :
    (Finset.univ : Finset (Idx ((c : Thread nD τ).loc cc0_scratch0))) = slot0.view.set ∪ slot1.view.set := by
  ext i
  simp only [Finset.mem_univ, Finset.mem_union, true_iff]
  rw [mem_slot0, mem_slot1]
  have h0 : (i 0).val < 2 := (i 0).isLt
  omega

/-! ## The buffer as its two slots -/

theorem stage_split (c : Dev nD) (f : Buf (Elt F) ((c : Thread nD τ).loc cc0_scratch0)) :
    bufPts c cc0_scratch0 f ⊢ (iprop((slot0.view.loc (c : Thread nD τ) ↦[slot0.view.set]{fullShare} f) ∗ (slot1.view.loc (c : Thread nD τ) ↦[slot1.view.set]{fullShare} f)) : sProp 𝕄) := by
  unfold bufPts
  rw [slots_cover c]
  exact (pointsTo_union slots_disjoint).1

theorem stage_join (c : Dev nD) (g0 : Buf (Elt F) (slot0.view.loc (c : Thread nD τ))) (g1 : Buf (Elt F) (slot1.view.loc (c : Thread nD τ))) :
    (iprop((slot0.view.loc (c : Thread nD τ) ↦[slot0.view.set]{fullShare} g0) ∗ (slot1.view.loc (c : Thread nD τ) ↦[slot1.view.set]{fullShare} g1)) : sProp 𝕄) ⊢ iprop(∃ f, bufPts c cc0_scratch0 f) := by
  iintro H
  iexists (slot1.view.set.piecewise g1 g0 : Buf (Elt F) ((c : Thread nD τ).loc cc0_scratch0))
  unfold bufPts
  rw [slots_cover c]
  iapply (pointsTo_join slots_disjoint)
  iexact H

/-- info: 'Cert.Kernel.A2A.stage_join' depends on axioms: [propext, Classical.choice, Quot.sound] -/
#guard_msgs in #print axioms stage_join

end Cert.Kernel.A2A

end
-- ==== Proof.Bits.Blocks.lean ====
/- The contents of the four block buffers of a device, as the body builds them.

   The input is brought in eight pieces of 2048 rows by 1024 columns — for each outgoing slot the two row halves of
   one column block — through the two slots of the staging buffer in turn; a piece read back from its slot is
   narrowed to bf16 and stored as the upper or lower half of the slot's block buffer. A block's contents are those
   two stores over a buffer nothing else of which is read. -/
import proofs.«900656_g7700000000000657_dist_a2a_v7x_xyz2x4x4_z_m4096_n1024_bf16_1_alg».proof.Proof.Bits.Stage
import Idealize.ShloMosaic.Lib.Exec

noncomputable section

namespace Cert.Kernel.A2A

open Cert.Kernel Cert.Kernel.Gen
open Idealize.ShloMosaic
open Idealize.ShloMosaic.TcCoe
open Idealize.SL.Sem

variable {F : FTy → Type} [FloatOps F] [∀ e, Nonempty (Elt F e)]

variable (m : (ℓ : Loc nD τ sig) → Buf (Elt F) ℓ)

/-- The piece of device `c`'s input a transfer from offsets `off` carries. -/
def xPiece (c : Dev nD) (off : Fin 2 → ℕ) (inb : ∀ a, off a + S2048x1024.size a ≤ S4096x4096.size a) : S2048x1024.Idx → Elt F .f32 :=
  ReadAs.same.apply (View.read (Elt F) ((Memref.whole main_arg0 : Memref sig .tc .hbm S4096x4096 .f32).slice (Rect.unit (s := S4096x4096) off S2048x1024.size inb) (fun _ => rfl)).view
    (m ((c : Thread nD τ).loc main_arg0)))

/-- The upper-half pieces (rows 0–2047) and lower-half pieces (rows 2048–4095) for slots 0, 1, 2 and the kept block. -/
def xU (c : Dev nD) : Fin 4 → (S2048x1024.Idx → Elt F .f32)
  | 0 => xPiece m c (k0_off1 c 1#32) (k0_off1_inb c 0)
  | 1 => xPiece m c (k0_off1 c 2#32) (k0_off1_inb c 1)
  | 2 => xPiece m c (k0_off1 c 3#32) (k0_off1_inb c 2)
  | 3 => xPiece m c (k0_off4 c) (k0_off4_inb c)
def xL (c : Dev nD) : Fin 4 → (S2048x1024.Idx → Elt F .f32)
  | 0 => xPiece m c (k0_off2 c 1#32) (k0_off2_inb c 0)
  | 1 => xPiece m c (k0_off2 c 2#32) (k0_off2_inb c 1)
  | 2 => xPiece m c (k0_off2 c 3#32) (k0_off2_inb c 2)
  | 3 => xPiece m c (k0_off5 c) (k0_off5_inb c)

/-- A slot after the pieces `vs` have landed in it, latest first, read back as the body's vector load reads it. -/
def rd0 (vs : List (S2048x1024.Idx → Elt F .f32)) : Vec F S1x2048x1024 .f32 :=
  View.readAt (Elt F) (Memref.whole cc0_scratch0 : Memref sig .tc .vmem S2x2048x1024 .f32).view
    (Rect.unit (s := S2x2048x1024) ![0, 0, 0] S1x2048x1024.size inb_S2x2048x1024_S1x2048x1024_0_0_0).toLoadRect
    (slot0.view.writes (Elt F) slot0.view.junk (vs.map fun v => ⟨Rect.whole S2048x1024, v⟩))
def rd1 (vs : List (S2048x1024.Idx → Elt F .f32)) : Vec F S1x2048x1024 .f32 :=
  View.readAt (Elt F) (Memref.whole cc0_scratch0 : Memref sig .tc .vmem S2x2048x1024 .f32).view
    (Rect.unit (s := S2x2048x1024) ![1, 0, 0] S1x2048x1024.size inb_S2x2048x1024_S1x2048x1024_1_0_0).toLoadRect
    (slot1.view.writes (Elt F) slot1.view.junk (vs.map fun v => ⟨Rect.whole S2048x1024, v⟩))

/-- A block buffer's contents from its two stored halves. -/
def blkOf (up lo : FVec F S2048x1024 .bf16) : (cc0_scratch1 : Ref sig .tc).ty.Contents (Elt F) :=
  (Memref.whole cc0_scratch1 : Memref sig .tc .vmem S4096x1024 .bf16).view.writes (Elt F)
    (Memref.whole cc0_scratch1 : Memref sig .tc .vmem S4096x1024 .bf16).view.junk
    [⟨Rect.unit (s := S4096x1024) ![2048, 0] S2048x1024.size inb_S4096x1024_S2048x1024_2048_0, lo⟩,
     ⟨Rect.unit (s := S4096x1024) ![0, 0] S2048x1024.size inb_S4096x1024_S2048x1024_0_0, up⟩]

/-- The four blocks of device `c`. -/
def Bdef (c : Dev nD) : Fin 4 → (cc0_scratch1 : Ref sig .tc).ty.Contents (Elt F)
  | 0 => blkOf (k0_pay1 (rd0 [xU m c 0])) (k0_pay2 (rd1 [xL m c 0]))
  | 1 => blkOf (k0_pay3 (rd0 [xU m c 1, xU m c 0])) (k0_pay4 (rd1 [xL m c 1, xL m c 0]))
  | 2 => blkOf (k0_pay5 (rd0 [xU m c 2, xU m c 1, xU m c 0])) (k0_pay7 (k0_pay6 (rd1 [xL m c 2, xL m c 1, xL m c 0])))
  | 3 => blkOf (k0_pay8 (rd0 [xU m c 3, xU m c 2, xU m c 1, xU m c 0])) (k0_pay9 (rd1 [xL m c 3, xL m c 2, xL m c 1, xL m c 0]))

end Cert.Kernel.A2A

end
-- ==== Proof.Tables.lean ====
/- The schedule's tables at each cell spelt with its semaphore, as a run through the body reads them: the payload
   of each send and receive unit from the side of the device that pays it and from the side of the device that
   waits for it, and the three payloads of a barrier round taken apart. -/
import proofs.«900656_g7700000000000657_dist_a2a_v7x_xyz2x4x4_z_m4096_n1024_bf16_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

-- A receive unit's payload on device `q`, seen from the device `w` that pays it.
omit [FloatOps F] in
theorem recvPay_eq (q w : Dev nD) (s : Fin 3) (h : peer q (3 - s.val) = w) :
    recvPay m B q s = ((rowsM w).view.loc (q : Thread nD τ) ↦[(rowsM w).view.set]{fullShare}
      (rowsM w).view.write (Elt F) (m ((q : Thread nD τ).loc main_v1)) (B w s.castSucc) Finset.univ : sProp 𝕄) := by
  subst h; rfl

section Lit
variable (c : Dev nD) (d : Fin 3)
omit [FloatOps F] in
theorem pl_send0 : (a2aRd (F := F) m B).payload ((c : Thread nD τ), SemLoc.dma send0) 0 d = ((Memref.whole cc0_scratch1).view.loc (c : Thread nD τ) ↦{fullShare} B c 0 : sProp 𝕄) := payload_send0 m B c d
omit [FloatOps F] in
theorem pl_send1 : (a2aRd (F := F) m B).payload ((c : Thread nD τ), SemLoc.dma send1) 0 d = ((Memref.whole cc0_scratch2).view.loc (c : Thread nD τ) ↦{fullShare} B c 1 : sProp 𝕄) := payload_send1 m B c d
omit [FloatOps F] in
theorem pl_send2 : (a2aRd (F := F) m B).payload ((c : Thread nD τ), SemLoc.dma send2) 0 d = ((Memref.whole cc0_scratch3).view.loc (c : Thread nD τ) ↦{fullShare} B c 2 : sProp 𝕄) := payload_send2 m B c d
omit [FloatOps F] in
theorem pl_recv_to1 : (a2aRd (F := F) m B).payload (((peer c 1 : Dev nD) : Thread nD τ), SemLoc.dma recv0) 0 d
    = ((rowsM c).view.loc ((peer c 1 : Dev nD) : Thread nD τ) ↦[(rowsM c).view.set]{fullShare}
      (rowsM c).view.write (Elt F) (m (((peer c 1 : Dev nD) : Thread nD τ).loc main_v1)) (B c 0) Finset.univ : sProp 𝕄) := by
  rw [show ((((peer c 1 : Dev nD) : Thread nD τ), SemLoc.dma recv0) : GSem nD τ sig) = recvCell (peer c 1) 0 from rfl, payload_recv0, recvPay_eq m B (peer c 1) c 0 (by rw [peer_peer]; exact peer_four c)]; rfl
omit [FloatOps F] in
theorem pl_recv_to2 : (a2aRd (F := F) m B).payload (((peer c 2 : Dev nD) : Thread nD τ), SemLoc.dma recv1) 0 d
    = ((rowsM c).view.loc ((peer c 2 : Dev nD) : Thread nD τ) ↦[(rowsM c).view.set]{fullShare}
      (rowsM c).view.write (Elt F) (m (((peer c 2 : Dev nD) : Thread nD τ).loc main_v1)) (B c 1) Finset.univ : sProp 𝕄) := by
  rw [show ((((peer c 2 : Dev nD) : Thread nD τ), SemLoc.dma recv1) : GSem nD τ sig) = recvCell (peer c 2) 1 from rfl, payload_recv1, recvPay_eq m B (peer c 2) c 1 (by rw [peer_peer]; exact peer_four c)]; rfl
omit [FloatOps F] in
theorem pl_recv_to3 : (a2aRd (F := F) m B).payload (((peer c 3 : Dev nD) : Thread nD τ), SemLoc.dma recv2) 0 d
    = ((rowsM c).view.loc ((peer c 3 : Dev nD) : Thread nD τ) ↦[(rowsM c).view.set]{fullShare}
      (rowsM c).view.write (Elt F) (m (((peer c 3 : Dev nD) : Thread nD τ).loc main_v1)) (B c 2) Finset.univ : sProp 𝕄) := by
  rw [show ((((peer c 3 : Dev nD) : Thread nD τ), SemLoc.dma recv2) : GSem nD τ sig) = recvCell (peer c 3) 2 from rfl, payload_recv2, recvPay_eq m B (peer c 3) c 2 (by rw [peer_peer]; exact peer_four c)]; rfl
-- own receive cells, as the owner waits on them
omit [FloatOps F] in
theorem pl_recv0 : (a2aRd (F := F) m B).payload ((c : Thread nD τ), SemLoc.dma recv0) 0 d
    = ((rowsM (peer c 3)).view.loc (c : Thread nD τ) ↦[(rowsM (peer c 3)).view.set]{fullShare}
      (rowsM (peer c 3)).view.write (Elt F) (m ((c : Thread nD τ).loc main_v1)) (B (peer c 3) 0) Finset.univ : sProp 𝕄) := payload_recv0 m B c d
omit [FloatOps F] in
theorem pl_recv1 : (a2aRd (F := F) m B).payload ((c : Thread nD τ), SemLoc.dma recv1) 0 d
    = ((rowsM (peer c 2)).view.loc (c : Thread nD τ) ↦[(rowsM (peer c 2)).view.set]{fullShare}
      (rowsM (peer c 2)).view.write (Elt F) (m ((c : Thread nD τ).loc main_v1)) (B (peer c 2) 1) Finset.univ : sProp 𝕄) := payload_recv1 m B c d
omit [FloatOps F] in
theorem pl_recv2 : (a2aRd (F := F) m B).payload ((c : Thread nD τ), SemLoc.dma recv2) 0 d
    = ((rowsM (peer c 1)).view.loc (c : Thread nD τ) ↦[(rowsM (peer c 1)).view.set]{fullShare}
      (rowsM (peer c 1)).view.write (Elt F) (m ((c : Thread nD τ).loc main_v1)) (B (peer c 1) 2) Finset.univ : sProp 𝕄) := payload_recv2 m B c d
omit [FloatOps F] in
theorem du_send0 : (a2aRd (F := F) m B).duties ((c : Thread nD τ), SemLoc.dma send0) 0 = {0} := duties_send m B c 0
omit [FloatOps F] in
theorem du_send1 : (a2aRd (F := F) m B).duties ((c : Thread nD τ), SemLoc.dma send1) 0 = {0} := duties_send m B c 1
omit [FloatOps F] in
theorem du_send2 : (a2aRd (F := F) m B).duties ((c : Thread nD τ), SemLoc.dma send2) 0 = {0} := duties_send m B c 2
omit [FloatOps F] in
theorem du_recv0 : (a2aRd (F := F) m B).duties ((c : Thread nD τ), SemLoc.dma recv0) 0 = {0} := duties_recv m B c 0
omit [FloatOps F] in
theorem du_recv1 : (a2aRd (F := F) m B).duties ((c : Thread nD τ), SemLoc.dma recv1) 0 = {0} := duties_recv m B c 1
omit [FloatOps F] in
theorem du_recv2 : (a2aRd (F := F) m B).duties ((c : Thread nD τ), SemLoc.dma recv2) 0 = {0} := duties_recv m B c 2
omit [FloatOps F] in
theorem am_send0 : (a2aRd (F := F) m B).amount ((c : Thread nD τ), SemLoc.dma send0) 0 d = N := amount_send m B c 0 d
omit [FloatOps F] in
theorem am_send1 : (a2aRd (F := F) m B).amount ((c : Thread nD τ), SemLoc.dma send1) 0 d = N := amount_send m B c 1 d
omit [FloatOps F] in
theorem am_send2 : (a2aRd (F := F) m B).amount ((c : Thread nD τ), SemLoc.dma send2) 0 d = N := amount_send m B c 2 d
omit [FloatOps F] in
theorem am_recv0 : (a2aRd (F := F) m B).amount ((c : Thread nD τ), SemLoc.dma recv0) 0 d = N := amount_recv m B c 0 d
omit [FloatOps F] in
theorem am_recv1 : (a2aRd (F := F) m B).amount ((c : Thread nD τ), SemLoc.dma recv1) 0 d = N := amount_recv m B c 1 d
omit [FloatOps F] in
theorem am_recv2 : (a2aRd (F := F) m B).amount ((c : Thread nD τ), SemLoc.dma recv2) 0 d = N := amount_recv m B c 2 d
omit [FloatOps F] in
theorem ex_send0 : (a2aRd (F := F) m B).expect ((c : Thread nD τ), SemLoc.dma send0) 0 = N := expect_send m B c 0
omit [FloatOps F] in
theorem ex_send1 : (a2aRd (F := F) m B).expect ((c : Thread nD τ), SemLoc.dma send1) 0 = N := expect_send m B c 1
omit [FloatOps F] in
theorem ex_send2 : (a2aRd (F := F) m B).expect ((c : Thread nD τ), SemLoc.dma send2) 0 = N := expect_send m B c 2
omit [FloatOps F] in
theorem ex_recv0 : (a2aRd (F := F) m B).expect ((c : Thread nD τ), SemLoc.dma recv0) 0 = N := expect_recv m B c 0
omit [FloatOps F] in
theorem ex_recv1 : (a2aRd (F := F) m B).expect ((c : Thread nD τ), SemLoc.dma recv1) 0 = N := expect_recv m B c 1
omit [FloatOps F] in
theorem ex_recv2 : (a2aRd (F := F) m B).expect ((c : Thread nD τ), SemLoc.dma recv2) 0 = N := expect_recv m B c 2
end Lit

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

-- The three payloads of a device's barrier round: from the devices 3, 2 and 1 steps on, each the rows this device
-- fills in that device's result buffer and that device's matching receive cell opened.
omit [FloatOps F] in
theorem bar_rest (c : Dev nD) :
    (bigSep Finset.univ (fun d : Fin 3 => (a2aRd (F := F) m B).payload (barCell c) 0 d) : sProp 𝕄)
      = iprop((((rowsM c).view.loc ((peer c 3 : Dev nD) : Thread nD τ) ↦[(rowsM c).view.set]{fullShare} m (((peer c 3 : Dev nD) : Thread nD τ).loc main_v1))
            ∗ reached ER (recvCell (peer c 3) 2) 0)
          ∗ (((rowsM c).view.loc ((peer c 2 : Dev nD) : Thread nD τ) ↦[(rowsM c).view.set]{fullShare} m (((peer c 2 : Dev nD) : Thread nD τ).loc main_v1))
            ∗ reached ER (recvCell (peer c 2) 1) 0)
          ∗ (((rowsM c).view.loc ((peer c 1 : Dev nD) : Thread nD τ) ↦[(rowsM c).view.set]{fullShare} m (((peer c 1 : Dev nD) : Thread nD τ).loc main_v1))
            ∗ reached ER (recvCell (peer c 1) 0) 0)) := by
  rw [bigSep_fin3, payload_bar, payload_bar, payload_bar]; rfl

end Cert.KernelIdeal.A2A

end
-- ==== Proof.Levels.lean ====
/- The levels argument of the all-to-all protocol: barrier cells sit at level 1, receive cells at level 2 and
   every other cell at level 0. A device waits on its barrier cell while it owes only receive credit, and on its
   send cells and local-copy semaphores whatever barrier or receive credit it still owes. -/
import proofs.«900656_g7700000000000657_dist_a2a_v7x_xyz2x4x4_z_m4096_n1024_bf16_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The receive credit a device owes sits on three receive cells only. -/
theorem Orecv_pos {c : Dev nD} {g : GSem nD τ sig} {u : Unit} (h : 0 < Orecv c g u) :
    g = recvCell (peer c 3) 2 ∨ g = recvCell (peer c 2) 1 ∨ g = recvCell (peer c 1) 0 := by
  unfold Orecv at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_bar (t : Thread nD τ) : lv (t, .reg barS) () = 1 := by dsimp only [lv]; rw [if_pos rfl]
theorem lv_recv (t : Thread nD τ) (s : Fin 3) : lv (t, .dma (recvS s)) () = 2 := by
  dsimp only [lv]; rw [if_neg (xfer_ne_bar _)]
  fin_cases s
  · exact if_pos (.inl rfl)
  · exact if_pos (.inr (.inl rfl))
  · exact if_pos (.inr (.inr rfl))

omit [FloatOps F] in
/-- At its barrier wait a device owes receive credit only: receive cells lie above its barrier cell. -/
theorem mayWait_bar (c : Dev nD) : (levAts L lv : sProp 𝕄) ⊢ MayWait (c : Thread nD τ) (.reg barS) () (Orecv c) :=
  MayOwe.of_cut (L := L) (lev := lv) 1
    (fun p hp => by rw [Finset.mem_singleton.mp hp, L_tc]; exact Finset.mem_singleton_self _)
    (fun g u hg => by rcases Orecv_pos hg with rfl | rfl | rfl <;> (rw [L_tc]; exact Finset.mem_singleton_self _))
    (fun p hp => by rw [Finset.mem_singleton.mp hp]; exact le_of_eq (lv_bar _))
    (fun g u hg => by
      rcases Orecv_pos hg with rfl | rfl | rfl
      · exact lt_of_lt_of_eq (by decide) (lv_recv _ 2).symm
      · exact lt_of_lt_of_eq (by decide) (lv_recv _ 1).symm
      · exact lt_of_lt_of_eq (by decide) (lv_recv _ 0).symm)

omit [FloatOps F] in
/-- A wait on a semaphore that is no receive cell sits at level 0, below any barrier or receive credit owed. -/
theorem mayWait_low (c : Dev nD) (q : DmaSem sig) (hq : q ≠ recv0 ∧ q ≠ recv1 ∧ q ≠ recv2) (O : CellTallies nD τ sig Unit)
    (hO : ∀ g u, 0 < O g u → g.1.2 = .tc ∧ (g.2 = .reg barS ∨ g.2 = .dma recv0 ∨ g.2 = .dma recv1 ∨ g.2 = .dma recv2)) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by unfold L; rw [if_pos (hO g u hg).1]; exact Finset.mem_singleton_self _)
    (fun p hp => by
      rw [Finset.mem_singleton.mp hp]; dsimp only [lv]
      rw [if_neg (xfer_ne_bar _), if_neg (by
        rintro (h | h | h)
        · exact hq.1 (SemLoc.dma.inj h)
        · exact hq.2.1 (SemLoc.dma.inj h)
        · exact hq.2.2 (SemLoc.dma.inj h))])
    (fun g u hg => by
      obtain ⟨_, h | h⟩ := hO g u hg
      · dsimp only [lv]; rw [if_pos h]; decide
      · dsimp only [lv]
        rw [if_neg (fun hb => by rcases h with h | h | h <;> rw [h] at hb <;> cases hb), if_pos h]; decide)

/-- info: 'Cert.KernelIdeal.A2A.mayWait_bar' depends on axioms: [propext, Classical.choice, Quot.sound] -/
#guard_msgs in #print axioms mayWait_bar

/-- info: 'Cert.KernelIdeal.A2A.mayWait_low' depends on axioms: [propext, Classical.choice, Quot.sound] -/
#guard_msgs in #print axioms mayWait_low

end Cert.KernelIdeal.A2A

end
-- ==== Proof.Restate.lean ====
/- A block buffer after its two half stores holds `blkOf` of the two halves, whatever it held before: the two
   rectangles cover the buffer. The same for each of the four block buffers, read through its own whole view. -/
import proofs.«900656_g7700000000000657_dist_a2a_v7x_xyz2x4x4_z_m4096_n1024_bf16_1_alg».proof.Proof.Blocks

noncomputable section

namespace Cert.KernelIdeal.A2A

open Cert.KernelIdeal Cert.KernelIdeal.Gen
open Idealize.ShloMosaic
open Idealize.ShloMosaic.TcCoe
open Idealize.SL.Sem

variable {F : FTy → Type} [FloatOps F] [∀ e, Nonempty (Elt F e)]

/-- The two halves as a piece list, later store first. -/
abbrev halves (up lo : FVec F S2048x1024 .bf16) : List (View.Piece (Elt F) S4096x1024 .bf16) :=
  [⟨Rect.unit (s := S4096x1024) ![2048, 0] S2048x1024.size inb_S4096x1024_S2048x1024_2048_0, lo⟩,
   ⟨Rect.unit (s := S4096x1024) ![0, 0] S2048x1024.size inb_S4096x1024_S2048x1024_0_0, up⟩]

/-- The two rectangles cover the buffer: rows 0–2047 by the upper one, rows 2048–4095 by the lower. -/
theorem rects_cover :
    LoadRect.covChk [Rect.unit (s := S4096x1024) ![2048, 0] S2048x1024.size inb_S4096x1024_S2048x1024_2048_0,
        Rect.unit (s := S4096x1024) ![0, 0] S2048x1024.size inb_S4096x1024_S2048x1024_0_0]
      (LoadRect.whole S4096x1024) (.split 0 2048 (.leaf 1) (.leaf 0)) = true := by
  decide

theorem halves_cover (up lo : FVec F S2048x1024 .bf16) :
    LoadRect.covChk ((halves up lo).map Sigma.fst) (LoadRect.whole S4096x1024) (.split 0 2048 (.leaf 1) (.leaf 0)) = true :=
  rects_cover

theorem restate1 (f : (cc0_scratch1 : Ref sig .tc).ty.Contents (Elt F)) (up lo : FVec F S2048x1024 .bf16) :
    (Memref.whole cc0_scratch1 : Memref sig .tc .vmem S4096x1024 .bf16).view.writes (Elt F) f (halves up lo) = blkOf up lo :=
  Memref.writes_eq_junk_of_covChk (Memref.isWhole_whole _) f _ _ (halves_cover up lo)

theorem restate2 (f : (cc0_scratch2 : Ref sig .tc).ty.Contents (Elt F)) (up lo : FVec F S2048x1024 .bf16) :
    (Memref.whole cc0_scratch2 : Memref sig .tc .vmem S4096x1024 .bf16).view.writes (Elt F) f (halves up lo) = blkOf up lo := by
  rw [Memref.writes_eq_junk_of_covChk (Memref.isWhole_whole _) f _ _ (halves_cover up lo)]
  have h := Memref.IsWhole.read_writes_junk (Val := Elt F) (Memref.isWhole_whole (cc0_scratch2 : Ref sig .tc)) (Memref.isWhole_whole (cc0_scratch1 : Ref sig .tc)) (halves up lo)
  simp only [Memref.view_whole, View.read_whole] at h
  exact h
theorem restate3 (f : (cc0_scratch3 : Ref sig .tc).ty.Contents (Elt F)) (up lo : FVec F S2048x1024 .bf16) :
    (Memref.whole cc0_scratch3 : Memref sig .tc .vmem S4096x1024 .bf16).view.writes (Elt F) f (halves up lo) = blkOf up lo := by
  rw [Memref.writes_eq_junk_of_covChk (Memref.isWhole_whole _) f _ _ (halves_cover up lo)]
  have h := Memref.IsWhole.read_writes_junk (Val := Elt F) (Memref.isWhole_whole (cc0_scratch3 : Ref sig .tc)) (Memref.isWhole_whole (cc0_scratch1 : Ref sig .tc)) (halves up lo)
  simp only [Memref.view_whole, View.read_whole] at h
  exact h
theorem restate4 (f : (cc0_scratch4 : Ref sig .tc).ty.Contents (Elt F)) (up lo : FVec F S2048x1024 .bf16) :
    (Memref.whole cc0_scratch4 : Memref sig .tc .vmem S4096x1024 .bf16).view.writes (Elt F) f (halves up lo) = blkOf up lo := by
  rw [Memref.writes_eq_junk_of_covChk (Memref.isWhole_whole _) f _ _ (halves_cover up lo)]
  have h := Memref.IsWhole.read_writes_junk (Val := Elt F) (Memref.isWhole_whole (cc0_scratch4 : Ref sig .tc)) (Memref.isWhole_whole (cc0_scratch1 : Ref sig .tc)) (halves up lo)
  simp only [Memref.view_whole, View.read_whole] at h
  exact h

end Cert.KernelIdeal.A2A

end
-- ==== Proof.BodyDefs.lean ====
/- What a device's thread holds when it starts the body and when it leaves it, every buffer held through the view
   the body reads it by: the result buffer in its four row blocks, the staging buffer in its two slots. -/
import proofs.«900656_g7700000000000657_dist_a2a_v7x_xyz2x4x4_z_m4096_n1024_bf16_1_alg».proof.Proof.Tables
import proofs.«900656_g7700000000000657_dist_a2a_v7x_xyz2x4x4_z_m4096_n1024_bf16_1_alg».proof.Proof.Levels
import proofs.«900656_g7700000000000657_dist_a2a_v7x_xyz2x4x4_z_m4096_n1024_bf16_1_alg».proof.Proof.Rows
import proofs.«900656_g7700000000000657_dist_a2a_v7x_xyz2x4x4_z_m4096_n1024_bf16_1_alg».proof.Proof.Restate

noncomputable section
namespace Cert.KernelIdeal.A2A
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

/-- What a device's thread starts the body from. -/
def bodyPre (K : Dev nD × Fin 7 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) : sProp 𝕄 :=
  iprop(invs m B K c ∗ positions c ∗ marks c ∗ payToks c ∗ localSems c ∗ launchCreds c ∗ levAts L lv
    ∗ ((Memref.whole main_arg0).view.loc (c : Thread nD τ) ↦{fullShare} m ((c : Thread nD τ).loc main_arg0))
    ∗ (rowsPts c c (m ((c : Thread nD τ).loc main_v1)) ∗ rowsPts c (peer c 1) (m ((c : Thread nD τ).loc main_v1)) ∗ rowsPts c (peer c 2) (m ((c : Thread nD τ).loc main_v1)) ∗ rowsPts c (peer c 3) (m ((c : Thread nD τ).loc main_v1)))
    ∗ ((slot0.view.loc (c : Thread nD τ) ↦[slot0.view.set]{fullShare} f0) ∗ (slot1.view.loc (c : Thread nD τ) ↦[slot1.view.set]{fullShare} f0))
    ∗ ((Memref.whole cc0_scratch1).view.loc (c : Thread nD τ) ↦{fullShare} f1)
    ∗ ((Memref.whole cc0_scratch2).view.loc (c : Thread nD τ) ↦{fullShare} f2) ∗ ((Memref.whole cc0_scratch3).view.loc (c : Thread nD τ) ↦{fullShare} f3)
    ∗ ((Memref.whole cc0_scratch4).view.loc (c : Thread nD τ) ↦{fullShare} f4)
    ∗ owes (c : Thread nD τ) (O₀ c) W)

/-- What it leaves: the input as it was, each row block of the result holding the block that landed there, the
    scratch buffers at some contents, the nine own counters at zero, nothing owed. -/
def bodyPost (c : Dev nD) : sProp 𝕄 :=
  iprop(((Memref.whole main_arg0).view.loc (c : Thread nD τ) ↦{fullShare} m ((c : Thread nD τ).loc main_arg0))
    ∗ (rowsPts c c (landed m c c (B c 3)) ∗ rowsPts c (peer c 3) (landed m c (peer c 3) (B (peer c 3) 0))
        ∗ rowsPts c (peer c 2) (landed m c (peer c 2) (B (peer c 2) 1)) ∗ rowsPts c (peer c 1) (landed m c (peer c 1) (B (peer c 1) 2)))
    ∗ ((∃ g0, slot0.view.loc (c : Thread nD τ) ↦[slot0.view.set]{fullShare} g0) ∗ (∃ g1, slot1.view.loc (c : Thread nD τ) ↦[slot1.view.set]{fullShare} g1))
    ∗ (∃ f, (Memref.whole cc0_scratch1).view.loc (c : Thread nD τ) ↦{fullShare} f)
    ∗ (∃ f, (Memref.whole cc0_scratch2).view.loc (c : Thread nD τ) ↦{fullShare} f) ∗ (∃ f, (Memref.whole cc0_scratch3).view.loc (c : Thread nD τ) ↦{fullShare} f)
    ∗ (∃ f, (Memref.whole cc0_scratch4).view.loc (c : Thread nD τ) ↦{fullShare} f)
    ∗ ownZero c
    ∗ ∃ W', owes (c : Thread nD τ) 0 W')

end Cert.KernelIdeal.A2A
end
-- ==== Proof.Sends.lean ====
/- The three addressed transfers of a device's blocks, each as the rounds rule for a transfer whose destination
   rows the sender holds: the block buffer goes to the send cell's unit, the destination rows rewritten with the
   block to the receive cell's unit on the peer, and the sender no longer owes that cell a block's credit. -/
import proofs.«900656_g7700000000000657_dist_a2a_v7x_xyz2x4x4_z_m4096_n1024_bf16_1_alg».proof.Proof.Tables
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

/-- A whole block buffer's points-to, over the elements under its whole view. -/
theorem whole_pts (c : Dev nD) (b : Ref sig .tc) (f : Buf (Elt F) ((Memref.whole b : Memref sig .tc _ _ _).view.loc (c : Thread nD τ))) :
    ((Memref.whole b : Memref sig .tc _ _ _).view.loc (c : Thread nD τ) ↦{fullShare} f : sProp 𝕄)
      = ((Memref.whole b : Memref sig .tc _ _ _).view.loc (c : Thread nD τ) ↦[(Memref.whole b : Memref sig .tc _ _ _).view.set]{fullShare} f) := by
  rw [show (Memref.whole b : Memref sig .tc _ _ _).view.set = Finset.univ from View.set_whole b]

theorem wp_send0 (c : Dev nD) (κ₁ κ₂ : ℕ)
    {hsc : (rowsM c : Memref sig (((peer c 1 : Dev nD).tc : Thread nD τ)).2.kind .hbm S4096x1024 .bf16).view.ref.isScScratch = false}
    {hsrc : (Memref.whole cc0_scratch1 : Memref sig .tc .vmem S4096x1024 .bf16).view.WordExact} {hdst : (rowsM c).view.WordExact}
    {hsem : DmaTarget.Typed .vmem (.dma recv0) (.remote ((peer c 1 : Dev nD).tc : Thread nD τ) (rowsM c) (.dma send0) hsc)}
    {α : Type} {Q : α → sProp 𝕄} {k : PUnit → Prog (TpuEff nD τ sig (Elt F) Λ₀ .tc) α}
    (O₀' O : CellTallies nD τ sig Unit) (hO : O₀' = O + tallyAt (recvCell (peer c 1) 0) () N) (W : Waits sig Unit) :
    iprop(cellInv ER (a2aRd m B) κ₁ (sendCell c 0) ∗ cellInv ER (a2aRd m B) κ₂ (recvCell (peer c 1) 0)
        ∗ ((Memref.whole cc0_scratch1).view.loc (c : Thread nD τ) ↦{fullShare} B c 0)
        ∗ ((rowsM c).view.loc ((peer c 1 : Dev nD) : Thread nD τ) ↦[(rowsM c).view.set]{fullShare} m (((peer c 1 : Dev nD) : Thread nD τ).loc main_v1))
        ∗ owes (c : Thread nD τ) O₀' W
        ∗ dutyTok ER (sendCell c 0) 0 0 ∗ reached ER (sendCell c 0) 0
        ∗ dutyTok ER (recvCell (peer c 1) 0) 0 0 ∗ reached ER (recvCell (peer c 1) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch1) (.remote ((peer c 1 : Dev nD).tc : Thread nD τ) (rowsM c) (.dma send0) hsc) (.dma recv0) hsrc hdst hsem) k) Q) := by
  rw [whole_pts c cc0_scratch1 (B c 0)]
  exact Rounds.wp_send_pointsTo 𝒱₀ ER (a2aRd m B) (c : Thread nD τ) none
    (c' := ((peer c 1 : Dev nD).tc : Thread nD τ)) (src := (Memref.whole cc0_scratch1 : Memref sig .tc .vmem S4096x1024 .bf16)) (dst := rowsM c)
    (sS := .dma send0) (sem := .dma recv0) (q := fullShare) (fs := B c 0) (fd := m (((peer c 1 : Dev nD) : Thread nD τ).loc main_v1))
    (κ₁ := κ₁) (κ₂ := κ₂) (r₁ := 0) (r₂ := 0) (d₁ := 0) (d₂ := 0)
    (by rw [du_send0]; exact Finset.mem_singleton_self _) (by rw [du_recv0]; exact Finset.mem_singleton_self _)
    () () N rfl (am_send0 m B c 0) (am_recv0 m B (peer c 1) 0) O hO (W := W)
    (by rw [pl_send0, whole_pts c cc0_scratch1 (B c 0)])
    (by rw [pl_recv_to1]; exact BI.Entails.refl _)

theorem wp_send1 (c : Dev nD) (κ₁ κ₂ : ℕ)
    {hsc : (rowsM c : Memref sig (((peer c 2 : Dev nD).tc : Thread nD τ)).2.kind .hbm S4096x1024 .bf16).view.ref.isScScratch = false}
    {hsrc : (Memref.whole cc0_scratch2 : Memref sig .tc .vmem S4096x1024 .bf16).view.WordExact} {hdst : (rowsM c).view.WordExact}
    {hsem : DmaTarget.Typed .vmem (.dma recv1) (.remote ((peer c 2 : Dev nD).tc : Thread nD τ) (rowsM c) (.dma send1) hsc)}
    {α : Type} {Q : α → sProp 𝕄} {k : PUnit → Prog (TpuEff nD τ sig (Elt F) Λ₀ .tc) α}
    (O₀' O : CellTallies nD τ sig Unit) (hO : O₀' = O + tallyAt (recvCell (peer c 2) 1) () N) (W : Waits sig Unit) :
    iprop(cellInv ER (a2aRd m B) κ₁ (sendCell c 1) ∗ cellInv ER (a2aRd m B) κ₂ (recvCell (peer c 2) 1)
        ∗ ((Memref.whole cc0_scratch2).view.loc (c : Thread nD τ) ↦{fullShare} B c 1)
        ∗ ((rowsM c).view.loc ((peer c 2 : Dev nD) : Thread nD τ) ↦[(rowsM c).view.set]{fullShare} m (((peer c 2 : Dev nD) : Thread nD τ).loc main_v1))
        ∗ owes (c : Thread nD τ) O₀' W
        ∗ dutyTok ER (sendCell c 1) 0 0 ∗ reached ER (sendCell c 1) 0
        ∗ dutyTok ER (recvCell (peer c 2) 1) 0 0 ∗ reached ER (recvCell (peer c 2) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch2) (.remote ((peer c 2 : Dev nD).tc : Thread nD τ) (rowsM c) (.dma send1) hsc) (.dma recv1) hsrc hdst hsem) k) Q) := by
  rw [whole_pts c cc0_scratch2 (B c 1)]
  exact Rounds.wp_send_pointsTo 𝒱₀ ER (a2aRd m B) (c : Thread nD τ) none
    (c' := ((peer c 2 : Dev nD).tc : Thread nD τ)) (src := (Memref.whole cc0_scratch2 : Memref sig .tc .vmem S4096x1024 .bf16)) (dst := rowsM c)
    (sS := .dma send1) (sem := .dma recv1) (q := fullShare) (fs := B c 1) (fd := m (((peer c 2 : Dev nD) : Thread nD τ).loc main_v1))
    (κ₁ := κ₁) (κ₂ := κ₂) (r₁ := 0) (r₂ := 0) (d₁ := 0) (d₂ := 0)
    (by rw [du_send1]; exact Finset.mem_singleton_self _) (by rw [du_recv1]; exact Finset.mem_singleton_self _)
    () () N rfl (am_send1 m B c 0) (am_recv1 m B (peer c 2) 0) O hO (W := W)
    (by rw [pl_send1, whole_pts c cc0_scratch2 (B c 1)])
    (by rw [pl_recv_to2]; exact BI.Entails.refl _)

theorem wp_send2 (c : Dev nD) (κ₁ κ₂ : ℕ)
    {hsc : (rowsM c : Memref sig (((peer c 3 : Dev nD).tc : Thread nD τ)).2.kind .hbm S4096x1024 .bf16).view.ref.isScScratch = false}
    {hsrc : (Memref.whole cc0_scratch3 : Memref sig .tc .vmem S4096x1024 .bf16).view.WordExact} {hdst : (rowsM c).view.WordExact}
    {hsem : DmaTarget.Typed .vmem (.dma recv2) (.remote ((peer c 3 : Dev nD).tc : Thread nD τ) (rowsM c) (.dma send2) hsc)}
    {α : Type} {Q : α → sProp 𝕄} {k : PUnit → Prog (TpuEff nD τ sig (Elt F) Λ₀ .tc) α}
    (O₀' O : CellTallies nD τ sig Unit) (hO : O₀' = O + tallyAt (recvCell (peer c 3) 2) () N) (W : Waits sig Unit) :
    iprop(cellInv ER (a2aRd m B) κ₁ (sendCell c 2) ∗ cellInv ER (a2aRd m B) κ₂ (recvCell (peer c 3) 2)
        ∗ ((Memref.whole cc0_scratch3).view.loc (c : Thread nD τ) ↦{fullShare} B c 2)
        ∗ ((rowsM c).view.loc ((peer c 3 : Dev nD) : Thread nD τ) ↦[(rowsM c).view.set]{fullShare} m (((peer c 3 : Dev nD) : Thread nD τ).loc main_v1))
        ∗ owes (c : Thread nD τ) O₀' W
        ∗ dutyTok ER (sendCell c 2) 0 0 ∗ reached ER (sendCell c 2) 0
        ∗ dutyTok ER (recvCell (peer c 3) 2) 0 0 ∗ reached ER (recvCell (peer c 3) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch3) (.remote ((peer c 3 : Dev nD).tc : Thread nD τ) (rowsM c) (.dma send2) hsc) (.dma recv2) hsrc hdst hsem) k) Q) := by
  rw [whole_pts c cc0_scratch3 (B c 2)]
  exact Rounds.wp_send_pointsTo 𝒱₀ ER (a2aRd m B) (c : Thread nD τ) none
    (c' := ((peer c 3 : Dev nD).tc : Thread nD τ)) (src := (Memref.whole cc0_scratch3 : Memref sig .tc .vmem S4096x1024 .bf16)) (dst := rowsM c)
    (sS := .dma send2) (sem := .dma recv2) (q := fullShare) (fs := B c 2) (fd := m (((peer c 3 : Dev nD) : Thread nD τ).loc main_v1))
    (κ₁ := κ₁) (κ₂ := κ₂) (r₁ := 0) (r₂ := 0) (d₁ := 0) (d₂ := 0)
    (by rw [du_send2]; exact Finset.mem_singleton_self _) (by rw [du_recv2]; exact Finset.mem_singleton_self _)
    () () N rfl (am_send2 m B c 0) (am_recv2 m B (peer c 3) 0) O hO (W := W)
    (by rw [pl_send2, whole_pts c cc0_scratch3 (B c 2)])
    (by rw [pl_recv_to3]; exact BI.Entails.refl _)

/-- info: 'Cert.KernelIdeal.A2A.wp_send2' depends on axioms: [propext, Classical.choice, Quot.sound] -/
#guard_msgs in #print axioms wp_send2

end Cert.KernelIdeal.A2A

end
-- ==== Proof.LocalRows.lean ====
/- A block copied locally into a device's own rows: the copy is recorded as one write through the whole-shape
   rectangle of the rows view; on the view's elements that is the plain write through the view, since the whole-shape
   rectangle places every index at itself. -/
import proofs.«900656_g7700000000000657_dist_a2a_v7x_xyz2x4x4_z_m4096_n1024_bf16_1_alg».proof.Proof.Rows
import Idealize.ShloMosaic.Lib.Writes
import Idealize.ShloMosaic.Rules.PointsTo

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- On a view's elements, a whole write through the view's whole-shape rectangle is the whole write through the view. -/
theorem write_slice_whole_on {Val : EltTy → Type} {S : Shape} {e : EltTy} {κ : Kind} {sp : Space} (v : View sig κ sp S e)
    (f : v.ty.Contents Val) (w : S.Idx → Val e) {i : v.ty.Idx} (h : i ∈ v.set) :
    (v.slice (Rect.whole S)).write Val f w Finset.univ i = v.write Val f w Finset.univ i := by
  obtain ⟨y, rfl⟩ := View.exists_emb_of_mem_set v h
  have e1 : (v.slice (Rect.whole S)).emb y = v.emb y := by
    rw [View.emb_slice, Function.Embedding.trans_apply, Rect.emb_whole_apply]
  calc (v.slice (Rect.whole S)).write Val f w Finset.univ (v.emb y)
      = (v.slice (Rect.whole S)).write Val f w Finset.univ ((v.slice (Rect.whole S)).emb y) := by rw [e1]
    _ = _root_.cast (congrArg Val v.elt_eq.symm) (w y) := View.write_emb_of_mem _ _ (Finset.mem_univ y)
    _ = v.write Val f w Finset.univ (v.emb y) := (View.write_emb_of_mem _ _ (Finset.mem_univ y)).symm

omit [FloatOps F] in
/-- The rows a device keeps, after the local copy of a block `v` into them: the one-piece write list is the plain write. -/
theorem rows_local (c : Dev nD) (base : Buf (Elt F) ((rowsM c).view.loc (c : Thread nD τ))) (v : S4096x1024.Idx → Elt F .bf16) :
    (((rowsM c).view.loc (c : Thread nD τ) ↦[(rowsM c).view.set]{fullShare} (rowsM c).view.writes (Elt F) base [⟨Rect.whole S4096x1024, v⟩]) : sProp 𝕄)
      = ((rowsM c).view.loc (c : Thread nD τ) ↦[(rowsM c).view.set]{fullShare} (rowsM c).view.write (Elt F) base v Finset.univ) :=
  pointsTo_congr fun i hi =>
    (congrFun (View.writes_singleton (rowsM c).view base (Rect.whole S4096x1024) v) i).trans
      (write_slice_whole_on (rowsM c).view base v hi)

/-- info: 'Cert.KernelIdeal.A2A.rows_local' depends on axioms: [propext, Classical.choice, Quot.sound] -/
#guard_msgs in #print axioms rows_local

end Cert.KernelIdeal.A2A

end
-- ==== Proof.Body.lean ====
/- One device's thread through the kernel body.

   The thread signals its three peers' barrier cells, lending each the rows of its own result buffer that peer will
   fill, and waits for its own three units, which bring it the rows it fills in each peer's buffer. It then brings its
   input in through the staging buffer's two slots in turn, eight pieces, narrowing each into a half of a block buffer;
   as each outgoing block completes it sends it to the peer that many steps on, into the rows lent; the kept block it
   copies into its own rows. It waits for that copy, its three departures and its three arrivals, after which every
   cell it owns is at rest and can be closed. -/
import proofs.«900656_g7700000000000657_dist_a2a_v7x_xyz2x4x4_z_m4096_n1024_bf16_1_alg».proof.Proof.BodyDefs
import proofs.«900656_g7700000000000657_dist_a2a_v7x_xyz2x4x4_z_m4096_n1024_bf16_1_alg».proof.Proof.Sends
import proofs.«900656_g7700000000000657_dist_a2a_v7x_xyz2x4x4_z_m4096_n1024_bf16_1_alg».proof.Proof.LocalRows
import proofs.«900656_g7700000000000657_dist_a2a_v7x_xyz2x4x4_z_m4096_n1024_bf16_1_alg».proof.Proof.Gen.KernelIdeal.Points
import Idealize.ShloMosaic.Lib.Tactic

noncomputable section
namespace Cert.KernelIdeal.A2A
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

attribute [local sl_rounds] payload_bar_to1 payload_bar_to2 payload_bar_to3 duties_bar amount_bar expect_bar
  pl_send0 pl_send1 pl_send2 pl_recv_to1 pl_recv_to2 pl_recv_to3 pl_recv0 pl_recv1 pl_recv2
  du_send0 du_send1 du_send2 du_recv0 du_recv1 du_recv2 am_send0 am_send1 am_send2 am_recv0 am_recv1 am_recv2
  ex_send0 ex_send1 ex_send2 ex_recv0 ex_recv1 ex_recv2
attribute [local sl_canon] dev1_eq dev2_eq dev3_eq dev4_eq dev5_eq dev6_eq

/-! ## What is owed sits on receive cells only, at every stage -/

theorem low3 (c : Dev nD) (g : GSem nD τ sig) (u : Unit)
    (h : 0 < (tallyAt (recvCell (peer c 3) 2) () N + tallyAt (recvCell (peer c 2) 1) () N + tallyAt (recvCell (peer c 1) 0) () N) g u) :
    g.1.2 = .tc ∧ (g.2 = .reg barS ∨ g.2 = .dma recv0 ∨ g.2 = .dma recv1 ∨ g.2 = .dma recv2) := by
  rcases Orecv_pos (c := c) h with rfl | rfl | rfl
  · exact ⟨rfl, .inr (.inr (.inr rfl))⟩
  · exact ⟨rfl, .inr (.inr (.inl rfl))⟩
  · exact ⟨rfl, .inr (.inl rfl)⟩
theorem low2 (c : Dev nD) (g : GSem nD τ sig) (u : Unit)
    (h : 0 < (tallyAt (recvCell (peer c 3) 2) () N + tallyAt (recvCell (peer c 2) 1) () N) g u) :
    g.1.2 = .tc ∧ (g.2 = .reg barS ∨ g.2 = .dma recv0 ∨ g.2 = .dma recv1 ∨ g.2 = .dma recv2) :=
  low3 c g u (show 0 < (tallyAt (recvCell (peer c 3) 2) () N + tallyAt (recvCell (peer c 2) 1) () N) g u + (tallyAt (recvCell (peer c 1) 0) () N) g u from Nat.lt_of_lt_of_le h (Nat.le_add_right _ _))
theorem low1 (c : Dev nD) (g : GSem nD τ sig) (u : Unit)
    (h : 0 < (tallyAt (recvCell (peer c 3) 2) () N) g u) :
    g.1.2 = .tc ∧ (g.2 = .reg barS ∨ g.2 = .dma recv0 ∨ g.2 = .dma recv1 ∨ g.2 = .dma recv2) :=
  low2 c g u (show 0 < (tallyAt (recvCell (peer c 3) 2) () N) g u + (tallyAt (recvCell (peer c 2) 1) () N) g u from Nat.lt_of_lt_of_le h (Nat.le_add_right _ _))

/-! ## The body -/

set_option maxHeartbeats 1600000 in
theorem sound_body (K : Dev nD × Fin 7 → ℕ) (c : Dev nD) (W : Waits sig Unit) (Kt : PUnit → sProp 𝕄)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4))
    (hB : ∀ k : Fin 4, Bdef m c k = B c k) :
    iprop(bodyPre m B K c W f0 f1 f2 f3 f4 ∗ (bodyPost m B c -∗ Kt ⟨⟩))
      ⊢ wp frame (wpE (defs₀ (F := F)) 𝒱₀ c none) Set.univ (bodyAt0 (F := F) t0_0) Kt := by
  unfold bodyPre invs positions marks payToks localSems launchCreds rowsPts O₀ Orecv
  iintro ⟨⟨⟨#HIbar, #HIs0, #HIs1, #HIs2, #HIr0, #HIr1, #HIr2, #HIb1, #HIb2, #HIb3, #HIp1, #HIp2, #HIp3⟩,
    ⟨HatB, HatS0, HatS1, HatS2, HatR0, HatR1, HatR2⟩,
    ⟨#HrB1, #HrB2, #HrB3, #HrP1, #HrP2, #HrP3, #HrS0, #HrS1, #HrS2, #HrR0, #HrR1, #HrR2⟩,
    ⟨HtB1, HtB2, HtB3, HtP1, HtP2, HtP3, HtS0, HtS1, HtS2⟩,
    ⟨HzL0, HzL1, HzSt⟩, ⟨HcB, HcR0, HcR1, HcR2⟩, #Hlev, Hx, ⟨Hrw0, Hrw1, Hrw2, Hrw3⟩, ⟨Hs0, Hs1⟩, Hb0, Hb1, Hb2, Hb3, HO⟩, Hk⟩
  -- the levels' word for each wait: the barrier wait owing the three arrivals, the local waits owing what is left of them
  have hmwB := mayWait_bar (F := F) c
  have hmw3 : ∀ q : DmaSem sig, (q ≠ recv0 ∧ q ≠ recv1 ∧ q ≠ recv2) → (levAts L lv : sProp 𝕄) ⊢ MayWait (c : Thread nD τ) (.dma q) ()
      (tallyAt (recvCell (peer c 3) 2) () N + tallyAt (recvCell (peer c 2) 1) () N + tallyAt (recvCell (peer c 1) 0) () N) :=
    fun q hq => mayWait_low c q hq _ (low3 c)
  have hmw2 : ∀ q : DmaSem sig, (q ≠ recv0 ∧ q ≠ recv1 ∧ q ≠ recv2) → (levAts L lv : sProp 𝕄) ⊢ MayWait (c : Thread nD τ) (.dma q) ()
      (tallyAt (recvCell (peer c 3) 2) () N + tallyAt (recvCell (peer c 2) 1) () N) :=
    fun q hq => mayWait_low c q hq _ (low2 c)
  have hmw1 : ∀ q : DmaSem sig, (q ≠ recv0 ∧ q ≠ recv1 ∧ q ≠ recv2) → (levAts L lv : sProp 𝕄) ⊢ MayWait (c : Thread nD τ) (.dma q) ()
      (tallyAt (recvCell (peer c 3) 2) () N) :=
    fun q hq => mayWait_low c q hq _ (low1 c)
  unfold bodyAt0
  sl_unfold [cc0_body]
  -- the handshake, the first two pieces and block 0's two halves
  sl_exec_parts (disch := simp only [dev1_eq, dev2_eq, dev3_eq, dev4_eq, dev5_eq, dev6_eq])
  -- the barrier round's three payloads: each peer's rows and its receive cell opened (a peer's rows are unpacked when its block goes)
  ihave Hbp := (Entails.of_eq (bar_rest m B c)) $$ HatB_pay1
  icases Hbp with ⟨Hp3, Hp2, ⟨Hd1, #HrQ1⟩⟩
  -- block 0 is complete: its two halves, over a buffer nothing else of which is read; it goes one step on
  ihave Hb0' : ((Memref.whole cc0_scratch1).view.loc (c : Thread nD τ) ↦{fullShare} (Memref.whole cc0_scratch1).view.writes (Elt F) f1 (halves (k0_pay1 (rd0 [xU m c 0])) (k0_pay2 (rd1 [xL m c 0])))) $$ [Hb0]
  · iexact Hb0
  ihave Hb0 := (Entails.of_eq (congrArg (fun g => ((Memref.whole cc0_scratch1).view.loc (c : Thread nD τ) ↦{fullShare} g : sProp 𝕄))
    ((restate1 (F := F) f1 _ _).trans ((rfl : _ = Bdef m c 0).trans (hB 0))))) $$ Hb0'
  iapply (wp_send0 m B c (K (c, 1)) (K (peer c 1, 4)) _ (tallyAt (recvCell (peer c 3) 2) () N + tallyAt (recvCell (peer c 2) 1) () N) rfl _) $$ [Hb0 Hd1 HO HtS0 HtP1]
  · isplitr; · iexact HIs0
    isplitr; · iexact HIp1
    isplitl [Hb0]; · iexact Hb0
    isplitl [Hd1]; · iexact Hd1
    isplitl [HO]; · iexact HO
    isplitl [HtS0]; · iexact HtS0
    isplitr; · iexact HrS0
    isplitl [HtP1]; · iexact HtP1
    iexact HrP1
  iintro ⟨HcS0, HO⟩
  sl_exec_parts (disch := simp only [dev1_eq, dev2_eq, dev3_eq, dev4_eq, dev5_eq, dev6_eq])
  -- block 1, two steps on
  ihave Hb1' : ((Memref.whole cc0_scratch2).view.loc (c : Thread nD τ) ↦{fullShare} (Memref.whole cc0_scratch2).view.writes (Elt F) f2 (halves (k0_pay3 (rd0 [xU m c 1, xU m c 0])) (k0_pay4 (rd1 [xL m c 1, xL m c 0])))) $$ [Hb1]
  · iexact Hb1
  ihave Hb1 := (Entails.of_eq (congrArg (fun g => ((Memref.whole cc0_scratch2).view.loc (c : Thread nD τ) ↦{fullShare} g : sProp 𝕄))
    ((restate2 (F := F) f2 _ _).trans ((rfl : _ = Bdef m c 1).trans (hB 1))))) $$ Hb1'
  icases Hp2 with ⟨Hd2, #HrQ2⟩
  iapply (wp_send1 m B c (K (c, 2)) (K (peer c 2, 5)) _ (tallyAt (recvCell (peer c 3) 2) () N) rfl _) $$ [Hb1 Hd2 HO HtS1 HtP2]
  · isplitr; · iexact HIs1
    isplitr; · iexact HIp2
    isplitl [Hb1]; · iexact Hb1
    isplitl [Hd2]; · iexact Hd2
    isplitl [HO]; · iexact HO
    isplitl [HtS1]; · iexact HtS1
    isplitr; · iexact HrS1
    isplitl [HtP2]; · iexact HtP2
    iexact HrP2
  iintro ⟨HcS1, HO⟩
  sl_exec_parts (disch := simp only [dev1_eq, dev2_eq, dev3_eq, dev4_eq, dev5_eq, dev6_eq])
  -- block 2, three steps on
  ihave Hb2' : ((Memref.whole cc0_scratch3).view.loc (c : Thread nD τ) ↦{fullShare} (Memref.whole cc0_scratch3).view.writes (Elt F) f3 (halves (k0_pay5 (rd0 [xU m c 2, xU m c 1, xU m c 0])) (k0_pay7 (k0_pay6 (rd1 [xL m c 2, xL m c 1, xL m c 0]))))) $$ [Hb2]
  · iexact Hb2
  ihave Hb2 := (Entails.of_eq (congrArg (fun g => ((Memref.whole cc0_scratch3).view.loc (c : Thread nD τ) ↦{fullShare} g : sProp 𝕄))
    ((restate3 (F := F) f3 _ _).trans ((rfl : _ = Bdef m c 2).trans (hB 2))))) $$ Hb2'
  icases Hp3 with ⟨Hd3, #HrQ3⟩
  iapply (wp_send2 m B c (K (c, 3)) (K (peer c 3, 6)) _ (0) (zero_add _).symm _) $$ [Hb2 Hd3 HO HtS2 HtP3]
  · isplitr; · iexact HIs2
    isplitr; · iexact HIp3
    isplitl [Hb2]; · iexact Hb2
    isplitl [Hd3]; · iexact Hd3
    isplitl [HO]; · iexact HO
    isplitl [HtS2]; · iexact HtS2
    isplitr; · iexact HrS2
    isplitl [HtP3]; · iexact HtP3
    iexact HrP3
  iintro ⟨HcS2, HO⟩
  -- the kept block, its copy into the thread's own rows, and the seven waits
  sl_exec_parts (disch := simp only [dev1_eq, dev2_eq, dev3_eq, dev4_eq, dev5_eq, dev6_eq])
  -- the six cells the thread owns have seen their one round: closed, their counters are the thread's again
  imod (Rounds.cell_close ER (a2aRd m B) (Set.mem_univ (K (c, 1))) (fun h => h) (R := 1) (duties_later m B (sendCell c 0))) $$ [HatS0] with HzS0
  · isplitr; · iexact HIs0
    iexact HatS0
  imod (Rounds.cell_close ER (a2aRd m B) (Set.mem_univ (K (c, 2))) (fun h => h) (R := 1) (duties_later m B (sendCell c 1))) $$ [HatS1] with HzS1
  · isplitr; · iexact HIs1
    iexact HatS1
  imod (Rounds.cell_close ER (a2aRd m B) (Set.mem_univ (K (c, 3))) (fun h => h) (R := 1) (duties_later m B (sendCell c 2))) $$ [HatS2] with HzS2
  · isplitr; · iexact HIs2
    iexact HatS2
  imod (Rounds.cell_close ER (a2aRd m B) (Set.mem_univ (K (c, 4))) (fun h => h) (R := 1) (duties_later m B (recvCell c 0))) $$ [HatR0] with HzR0
  · isplitr; · iexact HIr0
    iexact HatR0
  imod (Rounds.cell_close ER (a2aRd m B) (Set.mem_univ (K (c, 5))) (fun h => h) (R := 1) (duties_later m B (recvCell c 1))) $$ [HatR1] with HzR1
  · isplitr; · iexact HIr1
    iexact HatR1
  imod (Rounds.cell_close ER (a2aRd m B) (Set.mem_univ (K (c, 6))) (fun h => h) (R := 1) (duties_later m B (recvCell c 2))) $$ [HatR2] with HzR2
  · isplitr; · iexact HIr2
    iexact HatR2
  -- the thread's own rows hold its kept block
  ihave Hrw0' : ((rowsM c).view.loc (c : Thread nD τ) ↦[(rowsM c).view.set]{fullShare}
      (rowsM c).view.writes (Elt F) (m ((c : Thread nD τ).loc main_v1))
        [⟨Rect.whole S4096x1024, (Memref.whole cc0_scratch4 : Memref sig .tc .vmem S4096x1024 .bf16).view.writes (Elt F) f4
          (halves (k0_pay8 (rd0 [xU m c 3, xU m c 2, xU m c 1, xU m c 0])) (k0_pay9 (rd1 [xL m c 3, xL m c 2, xL m c 1, xL m c 0])))⟩]) $$ [Hrw0]
  · iexact Hrw0
  ihave Hrw0 := (Entails.of_eq ((rows_local (F := F) c _ _).trans (congrArg (fun v => ((rowsM c).view.loc (c : Thread nD τ) ↦[(rowsM c).view.set]{fullShare}
      (rowsM c).view.write (Elt F) (m ((c : Thread nD τ).loc main_v1)) v Finset.univ : sProp 𝕄))
      ((restate4 (F := F) f4 _ _).trans ((rfl : _ = Bdef m c 3).trans (hB 3)))))) $$ Hrw0'
  sl_step
  iapply Hk
  unfold bodyPost ownZero localSems rowsPts landed
  isplitl [Hx]; · iexact Hx
  isplitl [Hrw0 HatR0_pay1 HatR1_pay1 HatR2_pay1]
  · isplitl [Hrw0]; · iexact Hrw0
    isplitl [HatR0_pay1]; · iexact HatR0_pay1
    isplitl [HatR1_pay1]; · iexact HatR1_pay1
    iexact HatR2_pay1
  isplitl [Hs0 Hs1]
  · isplitl [Hs0]; · iexists _; iexact Hs0
    iexists _; iexact Hs1
  isplitl [HatS0_pay1]; · iexists _; iexact HatS0_pay1
  isplitl [HatS1_pay1]; · iexists _; iexact HatS1_pay1
  isplitl [HatS2_pay1]; · iexists _; iexact HatS2_pay1
  isplitl [Hb3]; · iexists _; iexact Hb3
  isplitl [HzS0 HzS1 HzS2 HzR0 HzR1 HzR2 HzL0 HzL1 HzSt]
  · isplitl [HzS0]; · iexact HzS0
    isplitl [HzS1]; · iexact HzS1
    isplitl [HzS2]; · iexact HzS2
    isplitl [HzR0]; · iexact HzR0
    isplitl [HzR1]; · iexact HzR1
    isplitl [HzR2]; · iexact HzR2
    isplitl [HzL0]; · iexact HzL0
    isplitl [HzL1]; · iexact HzL1
    iexact HzSt
  iexists _; iexact HO

/-- info: 'Cert.KernelIdeal.A2A.sound_body' depends on axioms: [propext, Classical.choice, Quot.sound] -/
#guard_msgs in #print axioms sound_body

end Cert.KernelIdeal.A2A
end
-- ==== Proof.BodyOblig.lean ====
/- The body obligation of the one grid point, from the proof of a thread's body.

   What the launch hands a thread is regrouped into what the body starts from: the result buffer cut into its four
   row blocks, the staging buffer into its two slots; what the body leaves is put back together: the row blocks at
   the blocks that landed there are the result at its final contents, the two slots the staging buffer. -/
import proofs.«900656_g7700000000000657_dist_a2a_v7x_xyz2x4x4_z_m4096_n1024_bf16_1_alg».proof.Proof.BodyDefs
import proofs.«900656_g7700000000000657_dist_a2a_v7x_xyz2x4x4_z_m4096_n1024_bf16_1_alg».proof.Proof.Blocks
import proofs.«900656_g7700000000000657_dist_a2a_v7x_xyz2x4x4_z_m4096_n1024_bf16_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

theorem body_obligation_of
    (hsound : ∀ (K : Dev nD × Fin 7 → ℕ) (c : Dev nD) (W : Waits sig Unit) (Kt : PUnit → sProp 𝕄) f0 f1 f2 f3 f4,
      iprop(bodyPre m (Bdef m) K c W f0 f1 f2 f3 f4 ∗ (bodyPost m (Bdef m) c -∗ Kt ⟨⟩))
        ⊢ wp frame (wpE (defs₀ (F := F)) 𝒱₀ c none) Set.univ (bodyAt0 (F := F) t0_0) Kt) (c : Dev nD) :
    BodyObligation (dats (F := F) m (Bdef m) 0 c) (defs₀ (F := F)) 𝒱₀ () Set.univ := fun t => by
  rw [fin_N0 t]
  have hW : (Finset.univ : Finset (Fin cfg0.W)) = ∅ := by decide
  rw [hW, bigSep_empty, bigSep_empty]
  show iprop(Φ₀ m (Bdef m) c ∗ (dats m (Bdef m) 0 c).owesAt () t0_0.castSucc ∗ emp)
    ⊢ wp frame (wpE (defs₀ (F := F)) 𝒱₀ c none) Set.univ (bodyAt0 (F := F) t0_0)
      (fun _ => iprop(Φ₁ m (Bdef m) c ∗ (dats m (Bdef m) 0 c).owesAt () t0_0.succ ∗ emp))
  unfold Dat.owesAt Pipeline.owesWithin Φ₀ start G' ghost scratch
  iintro ⟨⟨⟨⟨⟨%K, Hinv, Hpos, Hmk, Htok⟩, Hloc⟩, Hcred, Hlev, Hx, Ho⟩, ⟨%f0, H0⟩, ⟨%f1, H1⟩, ⟨%f2, H2⟩, ⟨%f3, H3⟩, ⟨%f4, H4⟩⟩, ⟨%W, %hWb, HO⟩, -⟩
  ihave Hrows := (rows_split c (m ((c : Thread nD τ).loc main_v1))) $$ Ho
  icases Hrows with ⟨Hr0, Hr1, Hr2, Hr3⟩
  ihave Hst := (stage_split c f0) $$ H0
  icases Hst with ⟨Hs0, Hs1⟩
  iapply (hsound K c W (fun _ => iprop(Φ₁ m (Bdef m) c ∗ (∃ W, ⌜↑W ⊆ (dats m (Bdef m) 0 c).bound () t0_0.succ⌝ ∗ owes (c : Thread nD τ) ((dats m (Bdef m) 0 c).owed t0_0.succ) W) ∗ emp)) f0 f1 f2 f3 f4)
  isplitr []
  · unfold bodyPre bufPts
    isplitl [Hinv]; · iexact Hinv
    isplitl [Hpos]; · iexact Hpos
    isplitl [Hmk]; · iexact Hmk
    isplitl [Htok]; · iexact Htok
    isplitl [Hloc]; · iexact Hloc
    isplitl [Hcred]; · iexact Hcred
    isplitl [Hlev]; · iexact Hlev
    isplitl [Hx]; · iexact Hx
    isplitl [Hr0 Hr1 Hr2 Hr3]
    · isplitl [Hr0]; · iexact Hr0
      isplitl [Hr1]; · iexact Hr1
      isplitl [Hr2]; · iexact Hr2
      iexact Hr3
    isplitl [Hs0 Hs1]
    · isplitl [Hs0]; · iexact Hs0
      iexact Hs1
    isplitl [H1]; · iexact H1
    isplitl [H2]; · iexact H2
    isplitl [H3]; · iexact H3
    isplitl [H4]; · iexact H4
    iexact HO
  · unfold bodyPost
    iintro ⟨Hx, Hrows, ⟨⟨%g0, Hs0⟩, ⟨%g1, Hs1⟩⟩, H1, H2, H3, H4, Hz, ⟨%W', HO⟩⟩
    ihave Hv := (rows_join m (Bdef m) c) $$ Hrows
    ihave H0 := (stage_join c g0 g1) $$ [Hs0 Hs1]
    · isplitl [Hs0]; · iexact Hs0
      iexact Hs1
    isplitl [Hx Hv H0 H1 H2 H3 H4 Hz]
    · unfold Φ₁ scratch bufPts
      isplitl [Hx]; · iexact Hx
      isplitl [Hv]; · iexact Hv
      isplitr [Hz]
      · isplitl [H0]; · iexact H0
        isplitl [H1]; · iexact H1
        isplitl [H2]; · iexact H2
        isplitl [H3]; · iexact H3
        iexact H4
      iexact Hz
    isplitl [HO]
    · iexists W'
      isplitr
      · ipureintro; exact fun _ _ => Or.inl trivial
      iexact HO
    iempintro

/-- info: 'Cert.KernelIdeal.A2A.body_obligation_of' depends on axioms: [propext, Classical.choice, Quot.sound] -/
#guard_msgs in #print axioms body_obligation_of

end Cert.KernelIdeal.A2A

end
-- ==== Proof.Thread.lean ====
/- The body obligation of the one grid point, on every device: the thread's run through the body, started from what
   the launch hands the device and ended in what the launch takes back. -/
import proofs.«900656_g7700000000000657_dist_a2a_v7x_xyz2x4x4_z_m4096_n1024_bf16_1_alg».proof.Proof.Body
import proofs.«900656_g7700000000000657_dist_a2a_v7x_xyz2x4x4_z_m4096_n1024_bf16_1_alg».proof.Proof.BodyOblig

noncomputable section
namespace Cert.KernelIdeal.A2A
open Cert.KernelIdeal Cert.KernelIdeal.Gen
open Idealize.ShloMosaic
open Idealize.ShloMosaic.TcCoe
open Idealize.SL.Sem
open Idealize.ShloMosaic.Pipeline (Dat Cfg Window BodyObligation cellOf)

variable {F : FTy → Type} [FloatOps F] [∀ e, Nonempty (Elt F e)]

theorem body_obligation (m : (ℓ : Loc nD τ sig) → Buf (Elt F) ℓ) (c : Dev nD) :
    BodyObligation (dats (F := F) m (Bdef m) 0 c) (defs₀ (F := F)) 𝒱₀ () Set.univ :=
  body_obligation_of m (fun K c W Kt f0 f1 f2 f3 f4 => sound_body m (Bdef m) K c W Kt f0 f1 f2 f3 f4 (fun _ => rfl)) c

/-- info: 'Cert.KernelIdeal.A2A.body_obligation' depends on axioms: [propext, Classical.choice, Quot.sound] -/
#guard_msgs in #print axioms body_obligation

end Cert.KernelIdeal.A2A
end
-- ==== Proof.BlockValue.lean ====
/- The four blocks of a device, element by element.

   Block s of device c holds, at row r and column j, the input of c at row r and column
   1024 * ((z + s + 1) mod 4) + j narrowed to bf16, z the device's coordinate on the last mesh axis: slot s goes
   s + 1 steps on, and the kept block (s = 3) is the device's own column block. Rows 0 to 2047 come from the piece
   read at row offset 0, rows 2048 to 4095 from the piece read at row offset 2048; each piece passes through a slot
   of the staging buffer, where the latest whole-slot write is what a read sees. -/
import proofs.«900656_g7700000000000657_dist_a2a_v7x_xyz2x4x4_z_m4096_n1024_bf16_1_alg».proof.Proof.Blocks
import Idealize.ShloMosaic.Lib.Pipeline.Value
import Idealize.ShloMosaic.Lib.ValueIdx
import Idealize.ShloMosaic.Lib.ValueLayout

noncomputable section

namespace Cert.KernelIdeal.A2A

open Cert.KernelIdeal Cert.KernelIdeal.Gen
open Idealize.ShloMosaic
open Idealize.ShloMosaic.TcCoe
open Idealize.SL.Sem
open Idealize.ShloMosaic.ValueIdx

variable {F : FTy → Type} [FloatOps F] [∀ e, Nonempty (Elt F e)]

variable (m : (ℓ : Loc nD τ sig) → Buf (Elt F) ℓ)

/-! ## Where an element of a block comes from -/

/-- The element of the input that lands at index `i` of block `s` of device `c`: the same row, the column in the
    column block of the device `s + 1` steps on. -/
def colIdx (c : Dev nD) (s : Fin 4) (i : S4096x1024.Idx) : S4096x4096.Idx :=
  ix2 (⟨(i 0).val, (i 0).isLt⟩ : Fin 4096)
    (⟨1024 * ((c.val % 4 + s.val + 1) % 4) + (i 1).val, by have h : (i 1).val < 1024 := (i 1).isLt; omega⟩ : Fin 4096)

theorem colIdx_val0 (c : Dev nD) (s : Fin 4) (i : S4096x1024.Idx) : (colIdx c s i 0).val = (i 0).val := rfl
theorem colIdx_val1 (c : Dev nD) (s : Fin 4) (i : S4096x1024.Idx) :
    (colIdx c s i 1).val = 1024 * ((c.val % 4 + s.val + 1) % 4) + (i 1).val := rfl

/-! ## The narrowing of a piece read back, at an index -/

/-- Dropping the unit axis, narrowing and the identity cast, read at row `p` and column `q`. -/
theorem narrow_apply (v : Vec F S1x2048x1024 .f32) (p : Fin 2048) (q : Fin 1024) :
    (shapeCast S2048x1024 (truncf .bf16 (shapeCast S2048x1024 v shapeCasts_S1x2048x1024_S2048x1024 : FVec F S2048x1024 .f32) bitsLt_bf16_f32)
      shapeCasts_S2048x1024_S2048x1024 : FVec F S2048x1024 .bf16) (ix2 p q)
      = FloatOps.truncf .bf16 bitsLt_bf16_f32 (v (ix3 (0 : Fin 1) p q)) := by
  rw [shapeCast_self]
  show FloatOps.truncf .bf16 bitsLt_bf16_f32 (shapeCast S2048x1024 v shapeCasts_S1x2048x1024_S2048x1024 (ix2 p q)) = _
  rw [shapeCast_1ab_ab_apply]

theorem pay1_apply (v : Vec F S1x2048x1024 .f32) (p : Fin 2048) (q : Fin 1024) :
    k0_pay1 v (ix2 p q) = FloatOps.truncf .bf16 bitsLt_bf16_f32 (v (ix3 (0 : Fin 1) p q)) := narrow_apply v p q
theorem pay2_apply (v : Vec F S1x2048x1024 .f32) (p : Fin 2048) (q : Fin 1024) :
    k0_pay2 v (ix2 p q) = FloatOps.truncf .bf16 bitsLt_bf16_f32 (v (ix3 (0 : Fin 1) p q)) := narrow_apply v p q
theorem pay3_apply (v : Vec F S1x2048x1024 .f32) (p : Fin 2048) (q : Fin 1024) :
    k0_pay3 v (ix2 p q) = FloatOps.truncf .bf16 bitsLt_bf16_f32 (v (ix3 (0 : Fin 1) p q)) := narrow_apply v p q
theorem pay4_apply (v : Vec F S1x2048x1024 .f32) (p : Fin 2048) (q : Fin 1024) :
    k0_pay4 v (ix2 p q) = FloatOps.truncf .bf16 bitsLt_bf16_f32 (v (ix3 (0 : Fin 1) p q)) := narrow_apply v p q
theorem pay5_apply (v : Vec F S1x2048x1024 .f32) (p : Fin 2048) (q : Fin 1024) :
    k0_pay5 v (ix2 p q) = FloatOps.truncf .bf16 bitsLt_bf16_f32 (v (ix3 (0 : Fin 1) p q)) := narrow_apply v p q
theorem pay76_apply (v : Vec F S1x2048x1024 .f32) (p : Fin 2048) (q : Fin 1024) :
    k0_pay7 (k0_pay6 v) (ix2 p q) = FloatOps.truncf .bf16 bitsLt_bf16_f32 (v (ix3 (0 : Fin 1) p q)) := narrow_apply v p q
theorem pay8_apply (v : Vec F S1x2048x1024 .f32) (p : Fin 2048) (q : Fin 1024) :
    k0_pay8 v (ix2 p q) = FloatOps.truncf .bf16 bitsLt_bf16_f32 (v (ix3 (0 : Fin 1) p q)) := narrow_apply v p q
theorem pay9_apply (v : Vec F S1x2048x1024 .f32) (p : Fin 2048) (q : Fin 1024) :
    k0_pay9 v (ix2 p q) = FloatOps.truncf .bf16 bitsLt_bf16_f32 (v (ix3 (0 : Fin 1) p q)) := narrow_apply v p q

/-! ## A piece of the input at an index -/

/-- The piece read at offsets `off` holds, at row `p` and column `q`, the input at row `off 0 + p` and column `off 1 + q`. -/
theorem xPiece_apply (c : Dev nD) (off : Fin 2 → ℕ) (inb : ∀ a, off a + S2048x1024.size a ≤ S4096x4096.size a)
    (p : Fin 2048) (q : Fin 1024) (J : S4096x4096.Idx) (h0 : (J 0).val = off 0 + p.val) (h1 : (J 1).val = off 1 + q.val) :
    xPiece m c off inb (ix2 p q) = m ((c : Thread nD τ).loc main_arg0) J := by
  have e : (Rect.unit (s := S4096x4096) off S2048x1024.size inb).emb (ix2 p q) = J := by
    funext a
    apply Fin.ext
    rw [Rect.emb_apply]
    match a with
    | 0 => show off 0 + 1 * p.val = (J 0).val; omega
    | 1 => show off 1 + 1 * q.val = (J 1).val; omega
  show m ((c : Thread nD τ).loc main_arg0) ((Rect.unit (s := S4096x4096) off S2048x1024.size inb).emb (ix2 p q)) = _
  rw [e]

/-! ## A slot read back after a whole-slot write -/

/-- The slot's index at row `p` and column `q` is the slice's index with the unit coordinate put back. -/
theorem squeeze_idx (h : S2048x1024.numel = S1x2048x1024.numel) (p : Fin 2048) (q : Fin 1024) :
    Shape.reshapeEquiv h (ix2 p q) = ix3 (0 : Fin 1) p q := by
  apply Shape.reshapeEquiv_eq_of_rowMajor
  rw [Shape.rowMajor_val_three, Shape.rowMajor_val_two]
  show (0 * 2048 + p.val) * 1024 + q.val = p.val * 1024 + q.val
  omega

/-- The load of slot 0 through the whole staging buffer reads what the slot's own view reads. -/
theorem readAt_slot0 (f : (cc0_scratch0 : Ref sig .tc).ty.Contents (Elt F)) (p : Fin 2048) (q : Fin 1024) :
    View.readAt (Elt F) (Memref.whole cc0_scratch0 : Memref sig .tc .vmem S2x2048x1024 .f32).view
      (Rect.unit (s := S2x2048x1024) ![0, 0, 0] S1x2048x1024.size inb_S2x2048x1024_S1x2048x1024_0_0_0).toLoadRect f (ix3 (0 : Fin 1) p q)
      = slot0.view.read (Elt F) f (ix2 p q) := by
  have e : (Rect.unit (s := S2x2048x1024) ![0, 0, 0] S1x2048x1024.size inb_S2x2048x1024_S1x2048x1024_0_0_0).emb (ix3 (0 : Fin 1) p q)
      = slot0.view.emb (ix2 p q) := by
    show _ = (Rect.unit (s := S2x2048x1024) ![0, 0, 0] S1x2048x1024.size inb_S2x2048x1024_S1x2048x1024_0_0_0).emb
      (Shape.reshapeEquiv squeezes_S1x2048x1024_S2048x1024.numel_eq (ix2 p q))
    rw [squeeze_idx]
  rw [View.readAt_apply, View.read_apply, View.read_apply]
  rw [show (Memref.whole cc0_scratch0 : Memref sig .tc .vmem S2x2048x1024 .f32).view.emb
      ((Rect.unit (s := S2x2048x1024) ![0, 0, 0] S1x2048x1024.size inb_S2x2048x1024_S1x2048x1024_0_0_0).toLoadRect.idx (ix3 (0 : Fin 1) p q))
      = slot0.view.emb (ix2 p q) from e]

/-- Slot 0 read back: the latest whole-slot write is what the load sees. -/
theorem rd0_cons (v : S2048x1024.Idx → Elt F .f32) (vs : List (S2048x1024.Idx → Elt F .f32)) (p : Fin 2048) (q : Fin 1024) :
    rd0 (v :: vs) (ix3 (0 : Fin 1) p q) = v (ix2 p q) := by
  unfold rd0
  rw [List.map_cons, readAt_slot0]
  have h := View.read_writes_cons_emb slot0.view (slot0.view.junk (Val := Elt F)) (Rect.whole S2048x1024) v
    (vs.map fun v => (⟨Rect.whole S2048x1024, v⟩ : View.Piece (Elt F) S2048x1024 .f32)) (ix2 p q)
  rw [Rect.emb_whole_apply] at h
  exact h

/-- The load of slot 1 through the whole staging buffer reads what the slot's own view reads. -/
theorem readAt_slot1 (f : (cc0_scratch0 : Ref sig .tc).ty.Contents (Elt F)) (p : Fin 2048) (q : Fin 1024) :
    View.readAt (Elt F) (Memref.whole cc0_scratch0 : Memref sig .tc .vmem S2x2048x1024 .f32).view
      (Rect.unit (s := S2x2048x1024) ![1, 0, 0] S1x2048x1024.size inb_S2x2048x1024_S1x2048x1024_1_0_0).toLoadRect f (ix3 (0 : Fin 1) p q)
      = slot1.view.read (Elt F) f (ix2 p q) := by
  have e : (Rect.unit (s := S2x2048x1024) ![1, 0, 0] S1x2048x1024.size inb_S2x2048x1024_S1x2048x1024_1_0_0).emb (ix3 (0 : Fin 1) p q)
      = slot1.view.emb (ix2 p q) := by
    show _ = (Rect.unit (s := S2x2048x1024) ![1, 0, 0] S1x2048x1024.size inb_S2x2048x1024_S1x2048x1024_1_0_0).emb
      (Shape.reshapeEquiv squeezes_S1x2048x1024_S2048x1024.numel_eq (ix2 p q))
    rw [squeeze_idx]
  rw [View.readAt_apply, View.read_apply, View.read_apply]
  rw [show (Memref.whole cc0_scratch0 : Memref sig .tc .vmem S2x2048x1024 .f32).view.emb
      ((Rect.unit (s := S2x2048x1024) ![1, 0, 0] S1x2048x1024.size inb_S2x2048x1024_S1x2048x1024_1_0_0).toLoadRect.idx (ix3 (0 : Fin 1) p q))
      = slot1.view.emb (ix2 p q) from e]

/-- Slot 1 read back: the latest whole-slot write is what the load sees. -/
theorem rd1_cons (v : S2048x1024.Idx → Elt F .f32) (vs : List (S2048x1024.Idx → Elt F .f32)) (p : Fin 2048) (q : Fin 1024) :
    rd1 (v :: vs) (ix3 (0 : Fin 1) p q) = v (ix2 p q) := by
  unfold rd1
  rw [List.map_cons, readAt_slot1]
  have h := View.read_writes_cons_emb slot1.view (slot1.view.junk (Val := Elt F)) (Rect.whole S2048x1024) v
    (vs.map fun v => (⟨Rect.whole S2048x1024, v⟩ : View.Piece (Elt F) S2048x1024 .f32)) (ix2 p q)
  rw [Rect.emb_whole_apply] at h
  exact h

/-! ## A block buffer from its two halves -/

/-- Rows 2048 and on are the lower half's, stored last. -/
theorem blkOf_lo (up lo : FVec F S2048x1024 .bf16) (r : Fin 4096) (j : Fin 1024) (h : 2048 ≤ r.val) :
    blkOf up lo (ix2 r j) = lo (ix2 (⟨r.val - 2048, by omega⟩ : Fin 2048) j) := by
  have e : ((Memref.whole cc0_scratch1 : Memref sig .tc .vmem S4096x1024 .bf16).view.slice
      (Rect.unit (s := S4096x1024) ![2048, 0] S2048x1024.size inb_S4096x1024_S2048x1024_2048_0)).emb (ix2 (⟨r.val - 2048, by omega⟩ : Fin 2048) j) = ix2 r j := by
    show (Rect.unit (s := S4096x1024) ![2048, 0] S2048x1024.size inb_S4096x1024_S2048x1024_2048_0).emb (ix2 (⟨r.val - 2048, by omega⟩ : Fin 2048) j) = ix2 r j
    funext a
    apply Fin.ext
    rw [Rect.emb_apply]
    match a with
    | 0 => show 2048 + 1 * (r.val - 2048) = r.val; omega
    | 1 => show 0 + 1 * j.val = j.val; omega
  rw [show blkOf up lo = ((Memref.whole cc0_scratch1 : Memref sig .tc .vmem S4096x1024 .bf16).view.slice
      (Rect.unit (s := S4096x1024) ![2048, 0] S2048x1024.size inb_S4096x1024_S2048x1024_2048_0)).write (Elt F)
      (((Memref.whole cc0_scratch1 : Memref sig .tc .vmem S4096x1024 .bf16).view.slice
        (Rect.unit (s := S4096x1024) ![0, 0] S2048x1024.size inb_S4096x1024_S2048x1024_0_0)).write (Elt F)
        (Memref.whole cc0_scratch1 : Memref sig .tc .vmem S4096x1024 .bf16).view.junk up Finset.univ) lo Finset.univ from rfl]
  rw [← e, View.write_emb_of_mem _ _ (Finset.mem_univ _)]
  rfl

/-- Rows below 2048 are the upper half's: the later store does not reach them. -/
theorem blkOf_up (up lo : FVec F S2048x1024 .bf16) (r : Fin 4096) (j : Fin 1024) (h : r.val < 2048) :
    blkOf up lo (ix2 r j) = up (ix2 (⟨r.val, h⟩ : Fin 2048) j) := by
  have e : ((Memref.whole cc0_scratch1 : Memref sig .tc .vmem S4096x1024 .bf16).view.slice
      (Rect.unit (s := S4096x1024) ![0, 0] S2048x1024.size inb_S4096x1024_S2048x1024_0_0)).emb (ix2 (⟨r.val, h⟩ : Fin 2048) j) = ix2 r j := by
    show (Rect.unit (s := S4096x1024) ![0, 0] S2048x1024.size inb_S4096x1024_S2048x1024_0_0).emb (ix2 (⟨r.val, h⟩ : Fin 2048) j) = ix2 r j
    funext a
    apply Fin.ext
    rw [Rect.emb_apply]
    match a with
    | 0 => show 0 + 1 * r.val = r.val; omega
    | 1 => show 0 + 1 * j.val = j.val; omega
  have hn : (ix2 r j : S4096x1024.Idx) ∉ ((Memref.whole cc0_scratch1 : Memref sig .tc .vmem S4096x1024 .bf16).view.slice
      (Rect.unit (s := S4096x1024) ![2048, 0] S2048x1024.size inb_S4096x1024_S2048x1024_2048_0)).setOn Finset.univ := by
    rw [View.setOn_univ, show ((Memref.whole cc0_scratch1 : Memref sig .tc .vmem S4096x1024 .bf16).view.slice
      (Rect.unit (s := S4096x1024) ![2048, 0] S2048x1024.size inb_S4096x1024_S2048x1024_2048_0)).set
        = (Rect.unit (s := S4096x1024) ![2048, 0] S2048x1024.size inb_S4096x1024_S2048x1024_2048_0).set from View.set_slice_whole _ _,
      Rect.mem_set_unit]
    intro h'
    have h0 : 2048 ≤ r.val := (h' 0).1
    omega
  rw [show blkOf up lo = ((Memref.whole cc0_scratch1 : Memref sig .tc .vmem S4096x1024 .bf16).view.slice
      (Rect.unit (s := S4096x1024) ![2048, 0] S2048x1024.size inb_S4096x1024_S2048x1024_2048_0)).write (Elt F)
      (((Memref.whole cc0_scratch1 : Memref sig .tc .vmem S4096x1024 .bf16).view.slice
        (Rect.unit (s := S4096x1024) ![0, 0] S2048x1024.size inb_S4096x1024_S2048x1024_0_0)).write (Elt F)
        (Memref.whole cc0_scratch1 : Memref sig .tc .vmem S4096x1024 .bf16).view.junk up Finset.univ) lo Finset.univ from rfl]
  rw [View.write_of_not_mem _ _ _ hn, ← e, View.write_emb_of_mem _ _ (Finset.mem_univ _)]
  rfl

/-! ## The pieces against the column block -/

/-- The upper piece of slot `s`, read at column offset `1024 z` with `z` the coordinate `s + 1` steps on. -/
theorem upper_val (c : Dev nD) (s : Fin 4) (off : Fin 2 → ℕ) (inb : ∀ a, off a + S2048x1024.size a ≤ S4096x4096.size a) (z : ℕ)
    (ho : off = ![0, 1024 * z]) (hz : z = (c.val % 4 + s.val + 1) % 4) (r : Fin 4096) (j : Fin 1024) (h : r.val < 2048) :
    xPiece m c off inb (ix2 (⟨r.val, h⟩ : Fin 2048) j) = m ((c : Thread nD τ).loc main_arg0) (colIdx c s (ix2 r j)) := by
  refine xPiece_apply m c off inb _ _ _ ?_ ?_
  · rw [ho]; show r.val = 0 + r.val; omega
  · rw [ho, hz]; show 1024 * ((c.val % 4 + s.val + 1) % 4) + j.val = 1024 * ((c.val % 4 + s.val + 1) % 4) + j.val; rfl

/-- The lower piece of slot `s`, read at row offset 2048. -/
theorem lower_val (c : Dev nD) (s : Fin 4) (off : Fin 2 → ℕ) (inb : ∀ a, off a + S2048x1024.size a ≤ S4096x4096.size a) (z : ℕ)
    (ho : off = ![2048, 1024 * z]) (hz : z = (c.val % 4 + s.val + 1) % 4) (r : Fin 4096) (j : Fin 1024) (h : 2048 ≤ r.val) :
    xPiece m c off inb (ix2 (⟨r.val - 2048, by omega⟩ : Fin 2048) j) = m ((c : Thread nD τ).loc main_arg0) (colIdx c s (ix2 r j)) := by
  refine xPiece_apply m c off inb _ _ _ ?_ ?_
  · rw [ho]; show r.val = 2048 + (r.val - 2048); omega
  · rw [ho, hz]; show 1024 * ((c.val % 4 + s.val + 1) % 4) + j.val = 1024 * ((c.val % 4 + s.val + 1) % 4) + j.val; rfl

/-! ## The blocks -/

theorem Bdef_apply (c : Dev nD) (s : Fin 4) (i : S4096x1024.Idx) :
    Bdef m c s i = FloatOps.truncf .bf16 bitsLt_bf16_f32 (m ((c : Thread nD τ).loc main_arg0) (colIdx c s i)) := by
  obtain ⟨r, j, rfl⟩ : ∃ (r : Fin 4096) (j : Fin 1024), i = ix2 r j := ⟨i 0, i 1, eq_ix2 i⟩
  by_cases h : r.val < 2048
  · match s with
    | 0 =>
      show blkOf (k0_pay1 (rd0 [xU m c 0])) (k0_pay2 (rd1 [xL m c 0])) (ix2 r j) = _
      rw [blkOf_up _ _ r j h, pay1_apply, rd0_cons]
      exact congrArg _ (upper_val m c 0 _ _ _ (off1_eq c 0) (by show (c.val % 4 + 1 + 0) % 4 = (c.val % 4 + 0 + 1) % 4; omega) r j h)
    | 1 =>
      show blkOf (k0_pay3 (rd0 [xU m c 1, xU m c 0])) (k0_pay4 (rd1 [xL m c 1, xL m c 0])) (ix2 r j) = _
      rw [blkOf_up _ _ r j h, pay3_apply, rd0_cons]
      exact congrArg _ (upper_val m c 1 _ _ _ (off1_eq c 1) (by show (c.val % 4 + 1 + 1) % 4 = (c.val % 4 + 1 + 1) % 4; rfl) r j h)
    | 2 =>
      show blkOf (k0_pay5 (rd0 [xU m c 2, xU m c 1, xU m c 0])) (k0_pay7 (k0_pay6 (rd1 [xL m c 2, xL m c 1, xL m c 0]))) (ix2 r j) = _
      rw [blkOf_up _ _ r j h, pay5_apply, rd0_cons]
      exact congrArg _ (upper_val m c 2 _ _ _ (off1_eq c 2) (by show (c.val % 4 + 1 + 2) % 4 = (c.val % 4 + 2 + 1) % 4; omega) r j h)
    | 3 =>
      show blkOf (k0_pay8 (rd0 [xU m c 3, xU m c 2, xU m c 1, xU m c 0])) (k0_pay9 (rd1 [xL m c 3, xL m c 2, xL m c 1, xL m c 0])) (ix2 r j) = _
      rw [blkOf_up _ _ r j h, pay8_apply, rd0_cons]
      exact congrArg _ (upper_val m c 3 _ _ _ (k0_off4_eq c) (by show c.val % 4 = (c.val % 4 + 3 + 1) % 4; omega) r j h)
  · have h' : 2048 ≤ r.val := Nat.le_of_not_lt h
    match s with
    | 0 =>
      show blkOf (k0_pay1 (rd0 [xU m c 0])) (k0_pay2 (rd1 [xL m c 0])) (ix2 r j) = _
      rw [blkOf_lo _ _ r j h', pay2_apply, rd1_cons]
      exact congrArg _ (lower_val m c 0 _ _ _ (off2_eq c 0) (by show (c.val % 4 + 1 + 0) % 4 = (c.val % 4 + 0 + 1) % 4; omega) r j h')
    | 1 =>
      show blkOf (k0_pay3 (rd0 [xU m c 1, xU m c 0])) (k0_pay4 (rd1 [xL m c 1, xL m c 0])) (ix2 r j) = _
      rw [blkOf_lo _ _ r j h', pay4_apply, rd1_cons]
      exact congrArg _ (lower_val m c 1 _ _ _ (off2_eq c 1) (by show (c.val % 4 + 1 + 1) % 4 = (c.val % 4 + 1 + 1) % 4; rfl) r j h')
    | 2 =>
      show blkOf (k0_pay5 (rd0 [xU m c 2, xU m c 1, xU m c 0])) (k0_pay7 (k0_pay6 (rd1 [xL m c 2, xL m c 1, xL m c 0]))) (ix2 r j) = _
      rw [blkOf_lo _ _ r j h', pay76_apply, rd1_cons]
      exact congrArg _ (lower_val m c 2 _ _ _ (off2_eq c 2) (by show (c.val % 4 + 1 + 2) % 4 = (c.val % 4 + 2 + 1) % 4; omega) r j h')
    | 3 =>
      show blkOf (k0_pay8 (rd0 [xU m c 3, xU m c 2, xU m c 1, xU m c 0])) (k0_pay9 (rd1 [xL m c 3, xL m c 2, xL m c 1, xL m c 0])) (ix2 r j) = _
      rw [blkOf_lo _ _ r j h', pay9_apply, rd1_cons]
      exact congrArg _ (lower_val m c 3 _ _ _ (k0_off5_eq c) (by show c.val % 4 = (c.val % 4 + 3 + 1) % 4; omega) r j h')

/-- info: 'Cert.KernelIdeal.A2A.Bdef_apply' depends on axioms: [propext, Classical.choice, Quot.sound] -/
#guard_msgs in #print axioms Bdef_apply

end Cert.KernelIdeal.A2A

end
-- ==== Proof.Bits.Tables.lean ====
/- The schedule's tables at each cell spelt with its semaphore, as a run through the body reads them: the payload
   of each send and receive unit from the side of the device that pays it and from the side of the device that
   waits for it, and the three payloads of a barrier round taken apart. -/
import proofs.«900656_g7700000000000657_dist_a2a_v7x_xyz2x4x4_z_m4096_n1024_bf16_1_alg».proof.Proof.Bits.Data

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

-- A receive unit's payload on device `q`, seen from the device `w` that pays it.
omit [FloatOps F] in
theorem recvPay_eq (q w : Dev nD) (s : Fin 3) (h : peer q (3 - s.val) = w) :
    recvPay m B q s = ((rowsM w).view.loc (q : Thread nD τ) ↦[(rowsM w).view.set]{fullShare}
      (rowsM w).view.write (Elt F) (m ((q : Thread nD τ).loc main_v1)) (B w s.castSucc) Finset.univ : sProp 𝕄) := by
  subst h; rfl

section Lit
variable (c : Dev nD) (d : Fin 3)
omit [FloatOps F] in
theorem pl_send0 : (a2aRd (F := F) m B).payload ((c : Thread nD τ), SemLoc.dma send0) 0 d = ((Memref.whole cc0_scratch1).view.loc (c : Thread nD τ) ↦{fullShare} B c 0 : sProp 𝕄) := payload_send0 m B c d
omit [FloatOps F] in
theorem pl_send1 : (a2aRd (F := F) m B).payload ((c : Thread nD τ), SemLoc.dma send1) 0 d = ((Memref.whole cc0_scratch2).view.loc (c : Thread nD τ) ↦{fullShare} B c 1 : sProp 𝕄) := payload_send1 m B c d
omit [FloatOps F] in
theorem pl_send2 : (a2aRd (F := F) m B).payload ((c : Thread nD τ), SemLoc.dma send2) 0 d = ((Memref.whole cc0_scratch3).view.loc (c : Thread nD τ) ↦{fullShare} B c 2 : sProp 𝕄) := payload_send2 m B c d
omit [FloatOps F] in
theorem pl_recv_to1 : (a2aRd (F := F) m B).payload (((peer c 1 : Dev nD) : Thread nD τ), SemLoc.dma recv0) 0 d
    = ((rowsM c).view.loc ((peer c 1 : Dev nD) : Thread nD τ) ↦[(rowsM c).view.set]{fullShare}
      (rowsM c).view.write (Elt F) (m (((peer c 1 : Dev nD) : Thread nD τ).loc main_v1)) (B c 0) Finset.univ : sProp 𝕄) := by
  rw [show ((((peer c 1 : Dev nD) : Thread nD τ), SemLoc.dma recv0) : GSem nD τ sig) = recvCell (peer c 1) 0 from rfl, payload_recv0, recvPay_eq m B (peer c 1) c 0 (by rw [peer_peer]; exact peer_four c)]; rfl
omit [FloatOps F] in
theorem pl_recv_to2 : (a2aRd (F := F) m B).payload (((peer c 2 : Dev nD) : Thread nD τ), SemLoc.dma recv1) 0 d
    = ((rowsM c).view.loc ((peer c 2 : Dev nD) : Thread nD τ) ↦[(rowsM c).view.set]{fullShare}
      (rowsM c).view.write (Elt F) (m (((peer c 2 : Dev nD) : Thread nD τ).loc main_v1)) (B c 1) Finset.univ : sProp 𝕄) := by
  rw [show ((((peer c 2 : Dev nD) : Thread nD τ), SemLoc.dma recv1) : GSem nD τ sig) = recvCell (peer c 2) 1 from rfl, payload_recv1, recvPay_eq m B (peer c 2) c 1 (by rw [peer_peer]; exact peer_four c)]; rfl
omit [FloatOps F] in
theorem pl_recv_to3 : (a2aRd (F := F) m B).payload (((peer c 3 : Dev nD) : Thread nD τ), SemLoc.dma recv2) 0 d
    = ((rowsM c).view.loc ((peer c 3 : Dev nD) : Thread nD τ) ↦[(rowsM c).view.set]{fullShare}
      (rowsM c).view.write (Elt F) (m (((peer c 3 : Dev nD) : Thread nD τ).loc main_v1)) (B c 2) Finset.univ : sProp 𝕄) := by
  rw [show ((((peer c 3 : Dev nD) : Thread nD τ), SemLoc.dma recv2) : GSem nD τ sig) = recvCell (peer c 3) 2 from rfl, payload_recv2, recvPay_eq m B (peer c 3) c 2 (by rw [peer_peer]; exact peer_four c)]; rfl
-- own receive cells, as the owner waits on them
omit [FloatOps F] in
theorem pl_recv0 : (a2aRd (F := F) m B).payload ((c : Thread nD τ), SemLoc.dma recv0) 0 d
    = ((rowsM (peer c 3)).view.loc (c : Thread nD τ) ↦[(rowsM (peer c 3)).view.set]{fullShare}
      (rowsM (peer c 3)).view.write (Elt F) (m ((c : Thread nD τ).loc main_v1)) (B (peer c 3) 0) Finset.univ : sProp 𝕄) := payload_recv0 m B c d
omit [FloatOps F] in
theorem pl_recv1 : (a2aRd (F := F) m B).payload ((c : Thread nD τ), SemLoc.dma recv1) 0 d
    = ((rowsM (peer c 2)).view.loc (c : Thread nD τ) ↦[(rowsM (peer c 2)).view.set]{fullShare}
      (rowsM (peer c 2)).view.write (Elt F) (m ((c : Thread nD τ).loc main_v1)) (B (peer c 2) 1) Finset.univ : sProp 𝕄) := payload_recv1 m B c d
omit [FloatOps F] in
theorem pl_recv2 : (a2aRd (F := F) m B).payload ((c : Thread nD τ), SemLoc.dma recv2) 0 d
    = ((rowsM (peer c 1)).view.loc (c : Thread nD τ) ↦[(rowsM (peer c 1)).view.set]{fullShare}
      (rowsM (peer c 1)).view.write (Elt F) (m ((c : Thread nD τ).loc main_v1)) (B (peer c 1) 2) Finset.univ : sProp 𝕄) := payload_recv2 m B c d
omit [FloatOps F] in
theorem du_send0 : (a2aRd (F := F) m B).duties ((c : Thread nD τ), SemLoc.dma send0) 0 = {0} := duties_send m B c 0
omit [FloatOps F] in
theorem du_send1 : (a2aRd (F := F) m B).duties ((c : Thread nD τ), SemLoc.dma send1) 0 = {0} := duties_send m B c 1
omit [FloatOps F] in
theorem du_send2 : (a2aRd (F := F) m B).duties ((c : Thread nD τ), SemLoc.dma send2) 0 = {0} := duties_send m B c 2
omit [FloatOps F] in
theorem du_recv0 : (a2aRd (F := F) m B).duties ((c : Thread nD τ), SemLoc.dma recv0) 0 = {0} := duties_recv m B c 0
omit [FloatOps F] in
theorem du_recv1 : (a2aRd (F := F) m B).duties ((c : Thread nD τ), SemLoc.dma recv1) 0 = {0} := duties_recv m B c 1
omit [FloatOps F] in
theorem du_recv2 : (a2aRd (F := F) m B).duties ((c : Thread nD τ), SemLoc.dma recv2) 0 = {0} := duties_recv m B c 2
omit [FloatOps F] in
theorem am_send0 : (a2aRd (F := F) m B).amount ((c : Thread nD τ), SemLoc.dma send0) 0 d = N := amount_send m B c 0 d
omit [FloatOps F] in
theorem am_send1 : (a2aRd (F := F) m B).amount ((c : Thread nD τ), SemLoc.dma send1) 0 d = N := amount_send m B c 1 d
omit [FloatOps F] in
theorem am_send2 : (a2aRd (F := F) m B).amount ((c : Thread nD τ), SemLoc.dma send2) 0 d = N := amount_send m B c 2 d
omit [FloatOps F] in
theorem am_recv0 : (a2aRd (F := F) m B).amount ((c : Thread nD τ), SemLoc.dma recv0) 0 d = N := amount_recv m B c 0 d
omit [FloatOps F] in
theorem am_recv1 : (a2aRd (F := F) m B).amount ((c : Thread nD τ), SemLoc.dma recv1) 0 d = N := amount_recv m B c 1 d
omit [FloatOps F] in
theorem am_recv2 : (a2aRd (F := F) m B).amount ((c : Thread nD τ), SemLoc.dma recv2) 0 d = N := amount_recv m B c 2 d
omit [FloatOps F] in
theorem ex_send0 : (a2aRd (F := F) m B).expect ((c : Thread nD τ), SemLoc.dma send0) 0 = N := expect_send m B c 0
omit [FloatOps F] in
theorem ex_send1 : (a2aRd (F := F) m B).expect ((c : Thread nD τ), SemLoc.dma send1) 0 = N := expect_send m B c 1
omit [FloatOps F] in
theorem ex_send2 : (a2aRd (F := F) m B).expect ((c : Thread nD τ), SemLoc.dma send2) 0 = N := expect_send m B c 2
omit [FloatOps F] in
theorem ex_recv0 : (a2aRd (F := F) m B).expect ((c : Thread nD τ), SemLoc.dma recv0) 0 = N := expect_recv m B c 0
omit [FloatOps F] in
theorem ex_recv1 : (a2aRd (F := F) m B).expect ((c : Thread nD τ), SemLoc.dma recv1) 0 = N := expect_recv m B c 1
omit [FloatOps F] in
theorem ex_recv2 : (a2aRd (F := F) m B).expect ((c : Thread nD τ), SemLoc.dma recv2) 0 = N := expect_recv m B c 2
end Lit

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

-- The three payloads of a device's barrier round: from the devices 3, 2 and 1 steps on, each the rows this device
-- fills in that device's result buffer and that device's matching receive cell opened.
omit [FloatOps F] in
theorem bar_rest (c : Dev nD) :
    (bigSep Finset.univ (fun d : Fin 3 => (a2aRd (F := F) m B).payload (barCell c) 0 d) : sProp 𝕄)
      = iprop((((rowsM c).view.loc ((peer c 3 : Dev nD) : Thread nD τ) ↦[(rowsM c).view.set]{fullShare} m (((peer c 3 : Dev nD) : Thread nD τ).loc main_v1))
            ∗ reached ER (recvCell (peer c 3) 2) 0)
          ∗ (((rowsM c).view.loc ((peer c 2 : Dev nD) : Thread nD τ) ↦[(rowsM c).view.set]{fullShare} m (((peer c 2 : Dev nD) : Thread nD τ).loc main_v1))
            ∗ reached ER (recvCell (peer c 2) 1) 0)
          ∗ (((rowsM c).view.loc ((peer c 1 : Dev nD) : Thread nD τ) ↦[(rowsM c).view.set]{fullShare} m (((peer c 1 : Dev nD) : Thread nD τ).loc main_v1))
            ∗ reached ER (recvCell (peer c 1) 0) 0)) := by
  rw [bigSep_fin3, payload_bar, payload_bar, payload_bar]; rfl

end Cert.Kernel.A2A

end
-- ==== Proof.Bits.Levels.lean ====
/- The levels argument of the all-to-all protocol: barrier cells sit at level 1, receive cells at level 2 and
   every other cell at level 0. A device waits on its barrier cell while it owes only receive credit, and on its
   send cells and local-copy semaphores whatever barrier or receive credit it still owes. -/
import proofs.«900656_g7700000000000657_dist_a2a_v7x_xyz2x4x4_z_m4096_n1024_bf16_1_alg».proof.Proof.Bits.Data

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The receive credit a device owes sits on three receive cells only. -/
theorem Orecv_pos {c : Dev nD} {g : GSem nD τ sig} {u : Unit} (h : 0 < Orecv c g u) :
    g = recvCell (peer c 3) 2 ∨ g = recvCell (peer c 2) 1 ∨ g = recvCell (peer c 1) 0 := by
  unfold Orecv at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_bar (t : Thread nD τ) : lv (t, .reg barS) () = 1 := by dsimp only [lv]; rw [if_pos rfl]
theorem lv_recv (t : Thread nD τ) (s : Fin 3) : lv (t, .dma (recvS s)) () = 2 := by
  dsimp only [lv]; rw [if_neg (xfer_ne_bar _)]
  fin_cases s
  · exact if_pos (.inl rfl)
  · exact if_pos (.inr (.inl rfl))
  · exact if_pos (.inr (.inr rfl))

omit [FloatOps F] in
/-- At its barrier wait a device owes receive credit only: receive cells lie above its barrier cell. -/
theorem mayWait_bar (c : Dev nD) : (levAts L lv : sProp 𝕄) ⊢ MayWait (c : Thread nD τ) (.reg barS) () (Orecv c) :=
  MayOwe.of_cut (L := L) (lev := lv) 1
    (fun p hp => by rw [Finset.mem_singleton.mp hp, L_tc]; exact Finset.mem_singleton_self _)
    (fun g u hg => by rcases Orecv_pos hg with rfl | rfl | rfl <;> (rw [L_tc]; exact Finset.mem_singleton_self _))
    (fun p hp => by rw [Finset.mem_singleton.mp hp]; exact le_of_eq (lv_bar _))
    (fun g u hg => by
      rcases Orecv_pos hg with rfl | rfl | rfl
      · exact lt_of_lt_of_eq (by decide) (lv_recv _ 2).symm
      · exact lt_of_lt_of_eq (by decide) (lv_recv _ 1).symm
      · exact lt_of_lt_of_eq (by decide) (lv_recv _ 0).symm)

omit [FloatOps F] in
/-- A wait on a semaphore that is no receive cell sits at level 0, below any barrier or receive credit owed. -/
theorem mayWait_low (c : Dev nD) (q : DmaSem sig) (hq : q ≠ recv0 ∧ q ≠ recv1 ∧ q ≠ recv2) (O : CellTallies nD τ sig Unit)
    (hO : ∀ g u, 0 < O g u → g.1.2 = .tc ∧ (g.2 = .reg barS ∨ g.2 = .dma recv0 ∨ g.2 = .dma recv1 ∨ g.2 = .dma recv2)) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by unfold L; rw [if_pos (hO g u hg).1]; exact Finset.mem_singleton_self _)
    (fun p hp => by
      rw [Finset.mem_singleton.mp hp]; dsimp only [lv]
      rw [if_neg (xfer_ne_bar _), if_neg (by
        rintro (h | h | h)
        · exact hq.1 (SemLoc.dma.inj h)
        · exact hq.2.1 (SemLoc.dma.inj h)
        · exact hq.2.2 (SemLoc.dma.inj h))])
    (fun g u hg => by
      obtain ⟨_, h | h⟩ := hO g u hg
      · dsimp only [lv]; rw [if_pos h]; decide
      · dsimp only [lv]
        rw [if_neg (fun hb => by rcases h with h | h | h <;> rw [h] at hb <;> cases hb), if_pos h]; decide)

/-- info: 'Cert.Kernel.A2A.mayWait_bar' depends on axioms: [propext, Classical.choice, Quot.sound] -/
#guard_msgs in #print axioms mayWait_bar

/-- info: 'Cert.Kernel.A2A.mayWait_low' depends on axioms: [propext, Classical.choice, Quot.sound] -/
#guard_msgs in #print axioms mayWait_low

end Cert.Kernel.A2A

end
-- ==== Proof.Bits.Rows.lean ====
/- A device's result buffer, cut into its four blocks of 4096 rows and put back together.

   The rows sender w fills are those of w's z-coordinate: an index of the buffer lies under them exactly when its
   row number is in [4096 z, 4096 z + 4096). The four devices of a ring have the four z-coordinates, so the four
   row sets are pairwise disjoint and cover the buffer. A write through one of these row views changes exactly
   the elements of its set, and there it does not depend on what was written over; so the buffer written block
   after block agrees, on each block, with that block written alone. -/
import proofs.«900656_g7700000000000657_dist_a2a_v7x_xyz2x4x4_z_m4096_n1024_bf16_1_alg».proof.Proof.Bits.Data
import Idealize.ShloMosaic.Lib.Pipeline.Value
import Idealize.ShloMosaic.Rules.PointsTo

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (B : Dev nD → Fin 4 → (cc0_scratch1 : Ref sig .tc).ty.Contents (Elt F))

/-! ## The row sets -/

/-- An index of the result buffer lies under the rows sender `w` fills exactly when its row is in `w`'s block. -/
theorem mem_rows (w : Dev nD) (i : (rowsM w).view.ty.Idx) :
    i ∈ (rowsM w).view.set ↔ 4096 * (w.val % 4) ≤ (i 0).val ∧ (i 0).val < 4096 * (w.val % 4) + 4096 := by
  rw [show (rowsM w).view.set = (Rect.unit (s := S16384x1024) (k0_off3 w) S4096x1024.size (k0_off3_inb w)).set from
    View.set_slice_whole _ _]
  rw [Rect.mem_set_unit, k0_off3_eq w]
  constructor
  · intro h; exact h 0
  · intro h a
    have h1 : (i 1).val < 1024 := (i 1).isLt
    match a with
    | 0 => exact h
    | 1 => exact ⟨Nat.zero_le _, by show (i 1).val < 0 + 1024; omega⟩

theorem peer_mod (c : Dev nD) (d : ℕ) : (peer c d).val % 4 = (c.val % 4 + d) % 4 := zc_peer c d

/-- Rows of devices with different z-coordinates do not meet. -/
theorem not_mem_rows (w w' : Dev nD) (h : w.val % 4 ≠ w'.val % 4) {i : (rowsM w).view.ty.Idx}
    (hi : i ∈ (rowsM w).view.set) : i ∉ (rowsM w').view.set := by
  intro hi'
  have h1 := (mem_rows w i).mp hi
  have h2 := (mem_rows w' i).mp hi'
  have := Nat.mod_lt w.val (show 0 < 4 by decide)
  have := Nat.mod_lt w'.val (show 0 < 4 by decide)
  omega

theorem rows_disjoint (w w' : Dev nD) (h : w.val % 4 ≠ w'.val % 4) :
    Disjoint (rowsM w).view.set (rowsM w').view.set :=
  Finset.disjoint_left.mpr fun i hi => not_mem_rows w w' h hi

/-- Every index lies under the rows of one of the four devices of a ring. -/
theorem rows_cover (c : Dev nD) (i : (rowsM c).view.ty.Idx) :
    i ∈ (rowsM c).view.set ∨ i ∈ (rowsM (peer c 1)).view.set ∨ i ∈ (rowsM (peer c 2)).view.set ∨ i ∈ (rowsM (peer c 3)).view.set := by
  rw [mem_rows, mem_rows, mem_rows, mem_rows, peer_mod, peer_mod, peer_mod]
  have h0 : (i 0).val < 16384 := (i 0).isLt
  have := Nat.mod_lt c.val (show 0 < 4 by decide)
  omega

/-- The z-coordinates of a ring's devices differ. -/
theorem peer_mod_ne (c : Dev nD) (a b : ℕ) (h : a % 4 ≠ b % 4) : (peer c a).val % 4 ≠ (peer c b).val % 4 := by
  rw [peer_mod, peer_mod]; omega
theorem self_mod_ne (c : Dev nD) (b : ℕ) (h : b % 4 ≠ 0) : c.val % 4 ≠ (peer c b).val % 4 := by
  rw [peer_mod]; omega

/-! ## A write through a view, on and off its elements -/

section Writes
variable {Val : EltTy → Type} {S : Shape} {e : EltTy} {κ : Kind} {sp : Space} (v : View sig κ sp S e)

/-- Off the view's elements a whole write leaves the contents. -/
theorem write_univ_off (f : v.ty.Contents Val) (w : S.Idx → Val e) {i : v.ty.Idx} (h : i ∉ v.set) :
    v.write Val f w Finset.univ i = f i :=
  View.write_of_not_mem f w Finset.univ h

/-- On the view's elements a whole write does not depend on what it was written over. -/
theorem write_univ_on (f f' : v.ty.Contents Val) (w : S.Idx → Val e) {i : v.ty.Idx} (h : i ∈ v.set) :
    v.write Val f w Finset.univ i = v.write Val f' w Finset.univ i := by
  obtain ⟨y, rfl⟩ := View.exists_emb_of_mem_set v h
  rw [View.write_emb_of_mem _ _ (Finset.mem_univ y), View.write_emb_of_mem _ _ (Finset.mem_univ y)]

end Writes

/-! ## The result buffer by rows -/

/-- A points-to over four pairwise disjoint element sets is the four points-tos. -/
theorem pointsTo_union4 {ℓ : Loc nD τ sig} (I₀ I₁ I₂ I₃ : Finset (Idx ℓ)) (q : PosShare TreeShare) (f : Buf (Elt F) ℓ)
    (d1 : Disjoint I₀ (I₁ ∪ (I₂ ∪ I₃))) (d2 : Disjoint I₁ (I₂ ∪ I₃)) (d3 : Disjoint I₂ I₃) :
    (ℓ ↦[I₀ ∪ (I₁ ∪ (I₂ ∪ I₃))]{q} f : sProp 𝕄)
      = iprop((ℓ ↦[I₀]{q} f) ∗ (ℓ ↦[I₁]{q} f) ∗ (ℓ ↦[I₂]{q} f) ∗ ℓ ↦[I₃]{q} f) := by
  have e1 : (ℓ ↦[I₀ ∪ (I₁ ∪ (I₂ ∪ I₃))]{q} f : sProp 𝕄) ⊣⊢ _ := pointsTo_union d1
  have e2 : (ℓ ↦[I₁ ∪ (I₂ ∪ I₃)]{q} f : sProp 𝕄) ⊣⊢ _ := pointsTo_union d2
  have e3 : (ℓ ↦[I₂ ∪ I₃]{q} f : sProp 𝕄) ⊣⊢ _ := pointsTo_union d3
  rw [BI.equiv_iff.mp ⟨e1.1, e1.2⟩, BI.equiv_iff.mp ⟨e2.1, e2.2⟩, BI.equiv_iff.mp ⟨e3.1, e3.2⟩]

/-- The whole buffer is its four row blocks. -/
theorem rows_eq (c : Dev nD) (f : Buf (Elt F) ((c : Thread nD τ).loc main_v1)) :
    bufPts c main_v1 f = (iprop(rowsPts c c f ∗ rowsPts c (peer c 1) f ∗ rowsPts c (peer c 2) f ∗ rowsPts c (peer c 3) f) : sProp 𝕄) := by
  have hU : (Finset.univ : Finset (Idx ((c : Thread nD τ).loc main_v1))) = (rowsM c).view.set ∪ ((rowsM (peer c 1)).view.set ∪ ((rowsM (peer c 2)).view.set ∪ (rowsM (peer c 3)).view.set)) := by
    ext i
    simp only [Finset.mem_univ, Finset.mem_union, true_iff]
    exact rows_cover c i
  have d3 : Disjoint (rowsM (peer c 2)).view.set (rowsM (peer c 3)).view.set := rows_disjoint _ _ (peer_mod_ne c 2 3 (by decide))
  have d2 : Disjoint (rowsM (peer c 1)).view.set ((rowsM (peer c 2)).view.set ∪ (rowsM (peer c 3)).view.set) :=
    Finset.disjoint_union_right.mpr ⟨rows_disjoint _ _ (peer_mod_ne c 1 2 (by decide)), rows_disjoint _ _ (peer_mod_ne c 1 3 (by decide))⟩
  have d1 : Disjoint (rowsM c).view.set ((rowsM (peer c 1)).view.set ∪ ((rowsM (peer c 2)).view.set ∪ (rowsM (peer c 3)).view.set)) :=
    Finset.disjoint_union_right.mpr ⟨rows_disjoint _ _ (self_mod_ne c 1 (by decide)),
      Finset.disjoint_union_right.mpr ⟨rows_disjoint _ _ (self_mod_ne c 2 (by decide)), rows_disjoint _ _ (self_mod_ne c 3 (by decide))⟩⟩
  unfold bufPts rowsPts
  rw [hU]
  exact pointsTo_union4 _ _ _ _ fullShare f d1 d2 d3

theorem rows_split (c : Dev nD) (f : Buf (Elt F) ((c : Thread nD τ).loc main_v1)) :
    bufPts c main_v1 f ⊢ (iprop(rowsPts c c f ∗ rowsPts c (peer c 1) f ∗ rowsPts c (peer c 2) f ∗ rowsPts c (peer c 3) f) : sProp 𝕄) :=
  Entails.of_eq (rows_eq c f)

/-! ## The blocks landed one by one against the buffer written block after block -/

/-- On the device's own rows the final contents are the kept block's. -/
theorem landed_self (c : Dev nD) (i : (rowsM c).view.ty.Idx) (hi : i ∈ (rowsM c).view.set) :
    landed m c c (B c 3) i = outVal m B c i := by
  have h1 : i ∉ (rowsM (peer c 1)).view.set := not_mem_rows c (peer c 1) (self_mod_ne c 1 (by decide)) hi
  have h2 : i ∉ (rowsM (peer c 2)).view.set := not_mem_rows c (peer c 2) (self_mod_ne c 2 (by decide)) hi
  have h3 : i ∉ (rowsM (peer c 3)).view.set := not_mem_rows c (peer c 3) (self_mod_ne c 3 (by decide)) hi
  unfold outVal landed
  rw [write_univ_off (rowsM (peer c 1)).view _ _ h1, write_univ_off (rowsM (peer c 2)).view _ _ h2,
    write_univ_off (rowsM (peer c 3)).view _ _ h3]

/-- On the rows of the device three steps on, that device's block. -/
theorem landed_three (c : Dev nD) (i : (rowsM (peer c 3)).view.ty.Idx) (hi : i ∈ (rowsM (peer c 3)).view.set) :
    landed m c (peer c 3) (B (peer c 3) 0) i = outVal m B c i := by
  have h1 : i ∉ (rowsM (peer c 1)).view.set := not_mem_rows (peer c 3) (peer c 1) (peer_mod_ne c 3 1 (by decide)) hi
  have h2 : i ∉ (rowsM (peer c 2)).view.set := not_mem_rows (peer c 3) (peer c 2) (peer_mod_ne c 3 2 (by decide)) hi
  unfold outVal landed
  rw [write_univ_off (rowsM (peer c 1)).view _ _ h1, write_univ_off (rowsM (peer c 2)).view _ _ h2]
  exact write_univ_on (rowsM (peer c 3)).view _ _ _ hi

/-- On the rows of the device two steps on, that device's block. -/
theorem landed_two (c : Dev nD) (i : (rowsM (peer c 2)).view.ty.Idx) (hi : i ∈ (rowsM (peer c 2)).view.set) :
    landed m c (peer c 2) (B (peer c 2) 1) i = outVal m B c i := by
  have h1 : i ∉ (rowsM (peer c 1)).view.set := not_mem_rows (peer c 2) (peer c 1) (peer_mod_ne c 2 1 (by decide)) hi
  unfold outVal landed
  rw [write_univ_off (rowsM (peer c 1)).view _ _ h1]
  exact write_univ_on (rowsM (peer c 2)).view _ _ _ hi

/-- On the rows of the device one step on, that device's block. -/
theorem landed_one (c : Dev nD) (i : (rowsM (peer c 1)).view.ty.Idx) (hi : i ∈ (rowsM (peer c 1)).view.set) :
    landed m c (peer c 1) (B (peer c 1) 2) i = outVal m B c i := by
  unfold outVal landed
  exact write_univ_on (rowsM (peer c 1)).view _ _ _ hi

theorem rows_join (c : Dev nD) :
    (iprop(rowsPts c c (landed m c c (B c 3)) ∗ rowsPts c (peer c 3) (landed m c (peer c 3) (B (peer c 3) 0))
        ∗ rowsPts c (peer c 2) (landed m c (peer c 2) (B (peer c 2) 1)) ∗ rowsPts c (peer c 1) (landed m c (peer c 1) (B (peer c 1) 2))) : sProp 𝕄)
      ⊢ bufPts c main_v1 (outVal m B c) := by
  have e0 : rowsPts (F := F) c c (landed m c c (B c 3)) = rowsPts c c (outVal m B c) := by
    unfold rowsPts; exact pointsTo_congr (landed_self m B c)
  have e3 : rowsPts (F := F) c (peer c 3) (landed m c (peer c 3) (B (peer c 3) 0)) = rowsPts c (peer c 3) (outVal m B c) := by
    unfold rowsPts; exact pointsTo_congr (landed_three m B c)
  have e2 : rowsPts (F := F) c (peer c 2) (landed m c (peer c 2) (B (peer c 2) 1)) = rowsPts c (peer c 2) (outVal m B c) := by
    unfold rowsPts; exact pointsTo_congr (landed_two m B c)
  have e1 : rowsPts (F := F) c (peer c 1) (landed m c (peer c 1) (B (peer c 1) 2)) = rowsPts c (peer c 1) (outVal m B c) := by
    unfold rowsPts; exact pointsTo_congr (landed_one m B c)
  rw [e0, e3, e2, e1, rows_eq c (outVal m B c)]
  iintro ⟨H0, H3, H2, H1⟩
  isplitl [H0]; · iexact H0
  isplitl [H1]; · iexact H1
  isplitl [H2]; · iexact H2
  iexact H3

/-- info: 'Cert.Kernel.A2A.rows_join' depends on axioms: [propext, Classical.choice, Quot.sound] -/
#guard_msgs in #print axioms rows_join

end Cert.Kernel.A2A

end
-- ==== Proof.Bits.Restate.lean ====
/- A block buffer after its two half stores holds `blkOf` of the two halves, whatever it held before: the two
   rectangles cover the buffer. The same for each of the four block buffers, read through its own whole view. -/
import proofs.«900656_g7700000000000657_dist_a2a_v7x_xyz2x4x4_z_m4096_n1024_bf16_1_alg».proof.Proof.Bits.Blocks

noncomputable section

namespace Cert.Kernel.A2A

open Cert.Kernel Cert.Kernel.Gen
open Idealize.ShloMosaic
open Idealize.ShloMosaic.TcCoe
open Idealize.SL.Sem

variable {F : FTy → Type} [FloatOps F] [∀ e, Nonempty (Elt F e)]

/-- The two halves as a piece list, later store first. -/
abbrev halves (up lo : FVec F S2048x1024 .bf16) : List (View.Piece (Elt F) S4096x1024 .bf16) :=
  [⟨Rect.unit (s := S4096x1024) ![2048, 0] S2048x1024.size inb_S4096x1024_S2048x1024_2048_0, lo⟩,
   ⟨Rect.unit (s := S4096x1024) ![0, 0] S2048x1024.size inb_S4096x1024_S2048x1024_0_0, up⟩]

/-- The two rectangles cover the buffer: rows 0–2047 by the upper one, rows 2048–4095 by the lower. -/
theorem rects_cover :
    LoadRect.covChk [Rect.unit (s := S4096x1024) ![2048, 0] S2048x1024.size inb_S4096x1024_S2048x1024_2048_0,
        Rect.unit (s := S4096x1024) ![0, 0] S2048x1024.size inb_S4096x1024_S2048x1024_0_0]
      (LoadRect.whole S4096x1024) (.split 0 2048 (.leaf 1) (.leaf 0)) = true := by
  decide

theorem halves_cover (up lo : FVec F S2048x1024 .bf16) :
    LoadRect.covChk ((halves up lo).map Sigma.fst) (LoadRect.whole S4096x1024) (.split 0 2048 (.leaf 1) (.leaf 0)) = true :=
  rects_cover

theorem restate1 (f : (cc0_scratch1 : Ref sig .tc).ty.Contents (Elt F)) (up lo : FVec F S2048x1024 .bf16) :
    (Memref.whole cc0_scratch1 : Memref sig .tc .vmem S4096x1024 .bf16).view.writes (Elt F) f (halves up lo) = blkOf up lo :=
  Memref.writes_eq_junk_of_covChk (Memref.isWhole_whole _) f _ _ (halves_cover up lo)

theorem restate2 (f : (cc0_scratch2 : Ref sig .tc).ty.Contents (Elt F)) (up lo : FVec F S2048x1024 .bf16) :
    (Memref.whole cc0_scratch2 : Memref sig .tc .vmem S4096x1024 .bf16).view.writes (Elt F) f (halves up lo) = blkOf up lo := by
  rw [Memref.writes_eq_junk_of_covChk (Memref.isWhole_whole _) f _ _ (halves_cover up lo)]
  have h := Memref.IsWhole.read_writes_junk (Val := Elt F) (Memref.isWhole_whole (cc0_scratch2 : Ref sig .tc)) (Memref.isWhole_whole (cc0_scratch1 : Ref sig .tc)) (halves up lo)
  simp only [Memref.view_whole, View.read_whole] at h
  exact h
theorem restate3 (f : (cc0_scratch3 : Ref sig .tc).ty.Contents (Elt F)) (up lo : FVec F S2048x1024 .bf16) :
    (Memref.whole cc0_scratch3 : Memref sig .tc .vmem S4096x1024 .bf16).view.writes (Elt F) f (halves up lo) = blkOf up lo := by
  rw [Memref.writes_eq_junk_of_covChk (Memref.isWhole_whole _) f _ _ (halves_cover up lo)]
  have h := Memref.IsWhole.read_writes_junk (Val := Elt F) (Memref.isWhole_whole (cc0_scratch3 : Ref sig .tc)) (Memref.isWhole_whole (cc0_scratch1 : Ref sig .tc)) (halves up lo)
  simp only [Memref.view_whole, View.read_whole] at h
  exact h
theorem restate4 (f : (cc0_scratch4 : Ref sig .tc).ty.Contents (Elt F)) (up lo : FVec F S2048x1024 .bf16) :
    (Memref.whole cc0_scratch4 : Memref sig .tc .vmem S4096x1024 .bf16).view.writes (Elt F) f (halves up lo) = blkOf up lo := by
  rw [Memref.writes_eq_junk_of_covChk (Memref.isWhole_whole _) f _ _ (halves_cover up lo)]
  have h := Memref.IsWhole.read_writes_junk (Val := Elt F) (Memref.isWhole_whole (cc0_scratch4 : Ref sig .tc)) (Memref.isWhole_whole (cc0_scratch1 : Ref sig .tc)) (halves up lo)
  simp only [Memref.view_whole, View.read_whole] at h
  exact h

end Cert.Kernel.A2A

end
-- ==== Proof.Bits.BodyDefs.lean ====
/- What a device's thread holds when it starts the body and when it leaves it, every buffer held through the view
   the body reads it by: the result buffer in its four row blocks, the staging buffer in its two slots. -/
import proofs.«900656_g7700000000000657_dist_a2a_v7x_xyz2x4x4_z_m4096_n1024_bf16_1_alg».proof.Proof.Bits.Tables
import proofs.«900656_g7700000000000657_dist_a2a_v7x_xyz2x4x4_z_m4096_n1024_bf16_1_alg».proof.Proof.Bits.Levels
import proofs.«900656_g7700000000000657_dist_a2a_v7x_xyz2x4x4_z_m4096_n1024_bf16_1_alg».proof.Proof.Bits.Rows
import proofs.«900656_g7700000000000657_dist_a2a_v7x_xyz2x4x4_z_m4096_n1024_bf16_1_alg».proof.Proof.Bits.Restate

noncomputable section
namespace Cert.Kernel.A2A
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

/-- What a device's thread starts the body from. -/
def bodyPre (K : Dev nD × Fin 7 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) : sProp 𝕄 :=
  iprop(invs m B K c ∗ positions c ∗ marks c ∗ payToks c ∗ localSems c ∗ launchCreds c ∗ levAts L lv
    ∗ ((Memref.whole main_arg0).view.loc (c : Thread nD τ) ↦{fullShare} m ((c : Thread nD τ).loc main_arg0))
    ∗ (rowsPts c c (m ((c : Thread nD τ).loc main_v1)) ∗ rowsPts c (peer c 1) (m ((c : Thread nD τ).loc main_v1)) ∗ rowsPts c (peer c 2) (m ((c : Thread nD τ).loc main_v1)) ∗ rowsPts c (peer c 3) (m ((c : Thread nD τ).loc main_v1)))
    ∗ ((slot0.view.loc (c : Thread nD τ) ↦[slot0.view.set]{fullShare} f0) ∗ (slot1.view.loc (c : Thread nD τ) ↦[slot1.view.set]{fullShare} f0))
    ∗ ((Memref.whole cc0_scratch1).view.loc (c : Thread nD τ) ↦{fullShare} f1)
    ∗ ((Memref.whole cc0_scratch2).view.loc (c : Thread nD τ) ↦{fullShare} f2) ∗ ((Memref.whole cc0_scratch3).view.loc (c : Thread nD τ) ↦{fullShare} f3)
    ∗ ((Memref.whole cc0_scratch4).view.loc (c : Thread nD τ) ↦{fullShare} f4)
    ∗ owes (c : Thread nD τ) (O₀ c) W)

/-- What it leaves: the input as it was, each row block of the result holding the block that landed there, the
    scratch buffers at some contents, the nine own counters at zero, nothing owed. -/
def bodyPost (c : Dev nD) : sProp 𝕄 :=
  iprop(((Memref.whole main_arg0).view.loc (c : Thread nD τ) ↦{fullShare} m ((c : Thread nD τ).loc main_arg0))
    ∗ (rowsPts c c (landed m c c (B c 3)) ∗ rowsPts c (peer c 3) (landed m c (peer c 3) (B (peer c 3) 0))
        ∗ rowsPts c (peer c 2) (landed m c (peer c 2) (B (peer c 2) 1)) ∗ rowsPts c (peer c 1) (landed m c (peer c 1) (B (peer c 1) 2)))
    ∗ ((∃ g0, slot0.view.loc (c : Thread nD τ) ↦[slot0.view.set]{fullShare} g0) ∗ (∃ g1, slot1.view.loc (c : Thread nD τ) ↦[slot1.view.set]{fullShare} g1))
    ∗ (∃ f, (Memref.whole cc0_scratch1).view.loc (c : Thread nD τ) ↦{fullShare} f)
    ∗ (∃ f, (Memref.whole cc0_scratch2).view.loc (c : Thread nD τ) ↦{fullShare} f) ∗ (∃ f, (Memref.whole cc0_scratch3).view.loc (c : Thread nD τ) ↦{fullShare} f)
    ∗ (∃ f, (Memref.whole cc0_scratch4).view.loc (c : Thread nD τ) ↦{fullShare} f)
    ∗ ownZero c
    ∗ ∃ W', owes (c : Thread nD τ) 0 W')

end Cert.Kernel.A2A
end
-- ==== Proof.Bits.Sends.lean ====
/- The three addressed transfers of a device's blocks, each as the rounds rule for a transfer whose destination
   rows the sender holds: the block buffer goes to the send cell's unit, the destination rows rewritten with the
   block to the receive cell's unit on the peer, and the sender no longer owes that cell a block's credit. -/
import proofs.«900656_g7700000000000657_dist_a2a_v7x_xyz2x4x4_z_m4096_n1024_bf16_1_alg».proof.Proof.Bits.Tables
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

/-- A whole block buffer's points-to, over the elements under its whole view. -/
theorem whole_pts (c : Dev nD) (b : Ref sig .tc) (f : Buf (Elt F) ((Memref.whole b : Memref sig .tc _ _ _).view.loc (c : Thread nD τ))) :
    ((Memref.whole b : Memref sig .tc _ _ _).view.loc (c : Thread nD τ) ↦{fullShare} f : sProp 𝕄)
      = ((Memref.whole b : Memref sig .tc _ _ _).view.loc (c : Thread nD τ) ↦[(Memref.whole b : Memref sig .tc _ _ _).view.set]{fullShare} f) := by
  rw [show (Memref.whole b : Memref sig .tc _ _ _).view.set = Finset.univ from View.set_whole b]

theorem wp_send0 (c : Dev nD) (κ₁ κ₂ : ℕ)
    {hsc : (rowsM c : Memref sig (((peer c 1 : Dev nD).tc : Thread nD τ)).2.kind .hbm S4096x1024 .bf16).view.ref.isScScratch = false}
    {hsrc : (Memref.whole cc0_scratch1 : Memref sig .tc .vmem S4096x1024 .bf16).view.WordExact} {hdst : (rowsM c).view.WordExact}
    {hsem : DmaTarget.Typed .vmem (.dma recv0) (.remote ((peer c 1 : Dev nD).tc : Thread nD τ) (rowsM c) (.dma send0) hsc)}
    {α : Type} {Q : α → sProp 𝕄} {k : PUnit → Prog (TpuEff nD τ sig (Elt F) Λ₀ .tc) α}
    (O₀' O : CellTallies nD τ sig Unit) (hO : O₀' = O + tallyAt (recvCell (peer c 1) 0) () N) (W : Waits sig Unit) :
    iprop(cellInv ER (a2aRd m B) κ₁ (sendCell c 0) ∗ cellInv ER (a2aRd m B) κ₂ (recvCell (peer c 1) 0)
        ∗ ((Memref.whole cc0_scratch1).view.loc (c : Thread nD τ) ↦{fullShare} B c 0)
        ∗ ((rowsM c).view.loc ((peer c 1 : Dev nD) : Thread nD τ) ↦[(rowsM c).view.set]{fullShare} m (((peer c 1 : Dev nD) : Thread nD τ).loc main_v1))
        ∗ owes (c : Thread nD τ) O₀' W
        ∗ dutyTok ER (sendCell c 0) 0 0 ∗ reached ER (sendCell c 0) 0
        ∗ dutyTok ER (recvCell (peer c 1) 0) 0 0 ∗ reached ER (recvCell (peer c 1) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch1) (.remote ((peer c 1 : Dev nD).tc : Thread nD τ) (rowsM c) (.dma send0) hsc) (.dma recv0) hsrc hdst hsem) k) Q) := by
  rw [whole_pts c cc0_scratch1 (B c 0)]
  exact Rounds.wp_send_pointsTo 𝒱₀ ER (a2aRd m B) (c : Thread nD τ) none
    (c' := ((peer c 1 : Dev nD).tc : Thread nD τ)) (src := (Memref.whole cc0_scratch1 : Memref sig .tc .vmem S4096x1024 .bf16)) (dst := rowsM c)
    (sS := .dma send0) (sem := .dma recv0) (q := fullShare) (fs := B c 0) (fd := m (((peer c 1 : Dev nD) : Thread nD τ).loc main_v1))
    (κ₁ := κ₁) (κ₂ := κ₂) (r₁ := 0) (r₂ := 0) (d₁ := 0) (d₂ := 0)
    (by rw [du_send0]; exact Finset.mem_singleton_self _) (by rw [du_recv0]; exact Finset.mem_singleton_self _)
    () () N rfl (am_send0 m B c 0) (am_recv0 m B (peer c 1) 0) O hO (W := W)
    (by rw [pl_send0, whole_pts c cc0_scratch1 (B c 0)])
    (by rw [pl_recv_to1]; exact BI.Entails.refl _)

theorem wp_send1 (c : Dev nD) (κ₁ κ₂ : ℕ)
    {hsc : (rowsM c : Memref sig (((peer c 2 : Dev nD).tc : Thread nD τ)).2.kind .hbm S4096x1024 .bf16).view.ref.isScScratch = false}
    {hsrc : (Memref.whole cc0_scratch2 : Memref sig .tc .vmem S4096x1024 .bf16).view.WordExact} {hdst : (rowsM c).view.WordExact}
    {hsem : DmaTarget.Typed .vmem (.dma recv1) (.remote ((peer c 2 : Dev nD).tc : Thread nD τ) (rowsM c) (.dma send1) hsc)}
    {α : Type} {Q : α → sProp 𝕄} {k : PUnit → Prog (TpuEff nD τ sig (Elt F) Λ₀ .tc) α}
    (O₀' O : CellTallies nD τ sig Unit) (hO : O₀' = O + tallyAt (recvCell (peer c 2) 1) () N) (W : Waits sig Unit) :
    iprop(cellInv ER (a2aRd m B) κ₁ (sendCell c 1) ∗ cellInv ER (a2aRd m B) κ₂ (recvCell (peer c 2) 1)
        ∗ ((Memref.whole cc0_scratch2).view.loc (c : Thread nD τ) ↦{fullShare} B c 1)
        ∗ ((rowsM c).view.loc ((peer c 2 : Dev nD) : Thread nD τ) ↦[(rowsM c).view.set]{fullShare} m (((peer c 2 : Dev nD) : Thread nD τ).loc main_v1))
        ∗ owes (c : Thread nD τ) O₀' W
        ∗ dutyTok ER (sendCell c 1) 0 0 ∗ reached ER (sendCell c 1) 0
        ∗ dutyTok ER (recvCell (peer c 2) 1) 0 0 ∗ reached ER (recvCell (peer c 2) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch2) (.remote ((peer c 2 : Dev nD).tc : Thread nD τ) (rowsM c) (.dma send1) hsc) (.dma recv1) hsrc hdst hsem) k) Q) := by
  rw [whole_pts c cc0_scratch2 (B c 1)]
  exact Rounds.wp_send_pointsTo 𝒱₀ ER (a2aRd m B) (c : Thread nD τ) none
    (c' := ((peer c 2 : Dev nD).tc : Thread nD τ)) (src := (Memref.whole cc0_scratch2 : Memref sig .tc .vmem S4096x1024 .bf16)) (dst := rowsM c)
    (sS := .dma send1) (sem := .dma recv1) (q := fullShare) (fs := B c 1) (fd := m (((peer c 2 : Dev nD) : Thread nD τ).loc main_v1))
    (κ₁ := κ₁) (κ₂ := κ₂) (r₁ := 0) (r₂ := 0) (d₁ := 0) (d₂ := 0)
    (by rw [du_send1]; exact Finset.mem_singleton_self _) (by rw [du_recv1]; exact Finset.mem_singleton_self _)
    () () N rfl (am_send1 m B c 0) (am_recv1 m B (peer c 2) 0) O hO (W := W)
    (by rw [pl_send1, whole_pts c cc0_scratch2 (B c 1)])
    (by rw [pl_recv_to2]; exact BI.Entails.refl _)

theorem wp_send2 (c : Dev nD) (κ₁ κ₂ : ℕ)
    {hsc : (rowsM c : Memref sig (((peer c 3 : Dev nD).tc : Thread nD τ)).2.kind .hbm S4096x1024 .bf16).view.ref.isScScratch = false}
    {hsrc : (Memref.whole cc0_scratch3 : Memref sig .tc .vmem S4096x1024 .bf16).view.WordExact} {hdst : (rowsM c).view.WordExact}
    {hsem : DmaTarget.Typed .vmem (.dma recv2) (.remote ((peer c 3 : Dev nD).tc : Thread nD τ) (rowsM c) (.dma send2) hsc)}
    {α : Type} {Q : α → sProp 𝕄} {k : PUnit → Prog (TpuEff nD τ sig (Elt F) Λ₀ .tc) α}
    (O₀' O : CellTallies nD τ sig Unit) (hO : O₀' = O + tallyAt (recvCell (peer c 3) 2) () N) (W : Waits sig Unit) :
    iprop(cellInv ER (a2aRd m B) κ₁ (sendCell c 2) ∗ cellInv ER (a2aRd m B) κ₂ (recvCell (peer c 3) 2)
        ∗ ((Memref.whole cc0_scratch3).view.loc (c : Thread nD τ) ↦{fullShare} B c 2)
        ∗ ((rowsM c).view.loc ((peer c 3 : Dev nD) : Thread nD τ) ↦[(rowsM c).view.set]{fullShare} m (((peer c 3 : Dev nD) : Thread nD τ).loc main_v1))
        ∗ owes (c : Thread nD τ) O₀' W
        ∗ dutyTok ER (sendCell c 2) 0 0 ∗ reached ER (sendCell c 2) 0
        ∗ dutyTok ER (recvCell (peer c 3) 2) 0 0 ∗ reached ER (recvCell (peer c 3) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch3) (.remote ((peer c 3 : Dev nD).tc : Thread nD τ) (rowsM c) (.dma send2) hsc) (.dma recv2) hsrc hdst hsem) k) Q) := by
  rw [whole_pts c cc0_scratch3 (B c 2)]
  exact Rounds.wp_send_pointsTo 𝒱₀ ER (a2aRd m B) (c : Thread nD τ) none
    (c' := ((peer c 3 : Dev nD).tc : Thread nD τ)) (src := (Memref.whole cc0_scratch3 : Memref sig .tc .vmem S4096x1024 .bf16)) (dst := rowsM c)
    (sS := .dma send2) (sem := .dma recv2) (q := fullShare) (fs := B c 2) (fd := m (((peer c 3 : Dev nD) : Thread nD τ).loc main_v1))
    (κ₁ := κ₁) (κ₂ := κ₂) (r₁ := 0) (r₂ := 0) (d₁ := 0) (d₂ := 0)
    (by rw [du_send2]; exact Finset.mem_singleton_self _) (by rw [du_recv2]; exact Finset.mem_singleton_self _)
    () () N rfl (am_send2 m B c 0) (am_recv2 m B (peer c 3) 0) O hO (W := W)
    (by rw [pl_send2, whole_pts c cc0_scratch3 (B c 2)])
    (by rw [pl_recv_to3]; exact BI.Entails.refl _)

/-- info: 'Cert.Kernel.A2A.wp_send2' depends on axioms: [propext, Classical.choice, Quot.sound] -/
#guard_msgs in #print axioms wp_send2

end Cert.Kernel.A2A

end
-- ==== Proof.Bits.LocalRows.lean ====
/- A block copied locally into a device's own rows: the copy is recorded as one write through the whole-shape
   rectangle of the rows view; on the view's elements that is the plain write through the view, since the whole-shape
   rectangle places every index at itself. -/
import proofs.«900656_g7700000000000657_dist_a2a_v7x_xyz2x4x4_z_m4096_n1024_bf16_1_alg».proof.Proof.Bits.Rows
import Idealize.ShloMosaic.Lib.Writes
import Idealize.ShloMosaic.Rules.PointsTo

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- On a view's elements, a whole write through the view's whole-shape rectangle is the whole write through the view. -/
theorem write_slice_whole_on {Val : EltTy → Type} {S : Shape} {e : EltTy} {κ : Kind} {sp : Space} (v : View sig κ sp S e)
    (f : v.ty.Contents Val) (w : S.Idx → Val e) {i : v.ty.Idx} (h : i ∈ v.set) :
    (v.slice (Rect.whole S)).write Val f w Finset.univ i = v.write Val f w Finset.univ i := by
  obtain ⟨y, rfl⟩ := View.exists_emb_of_mem_set v h
  have e1 : (v.slice (Rect.whole S)).emb y = v.emb y := by
    rw [View.emb_slice, Function.Embedding.trans_apply, Rect.emb_whole_apply]
  calc (v.slice (Rect.whole S)).write Val f w Finset.univ (v.emb y)
      = (v.slice (Rect.whole S)).write Val f w Finset.univ ((v.slice (Rect.whole S)).emb y) := by rw [e1]
    _ = _root_.cast (congrArg Val v.elt_eq.symm) (w y) := View.write_emb_of_mem _ _ (Finset.mem_univ y)
    _ = v.write Val f w Finset.univ (v.emb y) := (View.write_emb_of_mem _ _ (Finset.mem_univ y)).symm

omit [FloatOps F] in
/-- The rows a device keeps, after the local copy of a block `v` into them: the one-piece write list is the plain write. -/
theorem rows_local (c : Dev nD) (base : Buf (Elt F) ((rowsM c).view.loc (c : Thread nD τ))) (v : S4096x1024.Idx → Elt F .bf16) :
    (((rowsM c).view.loc (c : Thread nD τ) ↦[(rowsM c).view.set]{fullShare} (rowsM c).view.writes (Elt F) base [⟨Rect.whole S4096x1024, v⟩]) : sProp 𝕄)
      = ((rowsM c).view.loc (c : Thread nD τ) ↦[(rowsM c).view.set]{fullShare} (rowsM c).view.write (Elt F) base v Finset.univ) :=
  pointsTo_congr fun i hi =>
    (congrFun (View.writes_singleton (rowsM c).view base (Rect.whole S4096x1024) v) i).trans
      (write_slice_whole_on (rowsM c).view base v hi)

/-- info: 'Cert.Kernel.A2A.rows_local' depends on axioms: [propext, Classical.choice, Quot.sound] -/
#guard_msgs in #print axioms rows_local

end Cert.Kernel.A2A

end
-- ==== Proof.Bits.Body.lean ====
/- One device's thread through the kernel body.

   The thread signals its three peers' barrier cells, lending each the rows of its own result buffer that peer will
   fill, and waits for its own three units, which bring it the rows it fills in each peer's buffer. It then brings its
   input in through the staging buffer's two slots in turn, eight pieces, narrowing each into a half of a block buffer;
   as each outgoing block completes it sends it to the peer that many steps on, into the rows lent; the kept block it
   copies into its own rows. It waits for that copy, its three departures and its three arrivals, after which every
   cell it owns is at rest and can be closed. -/
import proofs.«900656_g7700000000000657_dist_a2a_v7x_xyz2x4x4_z_m4096_n1024_bf16_1_alg».proof.Proof.Bits.BodyDefs
import proofs.«900656_g7700000000000657_dist_a2a_v7x_xyz2x4x4_z_m4096_n1024_bf16_1_alg».proof.Proof.Bits.Sends
import proofs.«900656_g7700000000000657_dist_a2a_v7x_xyz2x4x4_z_m4096_n1024_bf16_1_alg».proof.Proof.Bits.LocalRows
import proofs.«900656_g7700000000000657_dist_a2a_v7x_xyz2x4x4_z_m4096_n1024_bf16_1_alg».proof.Proof.Gen.Kernel.Points
import Idealize.ShloMosaic.Lib.Tactic

noncomputable section
namespace Cert.Kernel.A2A
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

attribute [local sl_rounds] payload_bar_to1 payload_bar_to2 payload_bar_to3 duties_bar amount_bar expect_bar
  pl_send0 pl_send1 pl_send2 pl_recv_to1 pl_recv_to2 pl_recv_to3 pl_recv0 pl_recv1 pl_recv2
  du_send0 du_send1 du_send2 du_recv0 du_recv1 du_recv2 am_send0 am_send1 am_send2 am_recv0 am_recv1 am_recv2
  ex_send0 ex_send1 ex_send2 ex_recv0 ex_recv1 ex_recv2
attribute [local sl_canon] dev1_eq dev2_eq dev3_eq dev4_eq dev5_eq dev6_eq

/-! ## What is owed sits on receive cells only, at every stage -/

theorem low3 (c : Dev nD) (g : GSem nD τ sig) (u : Unit)
    (h : 0 < (tallyAt (recvCell (peer c 3) 2) () N + tallyAt (recvCell (peer c 2) 1) () N + tallyAt (recvCell (peer c 1) 0) () N) g u) :
    g.1.2 = .tc ∧ (g.2 = .reg barS ∨ g.2 = .dma recv0 ∨ g.2 = .dma recv1 ∨ g.2 = .dma recv2) := by
  rcases Orecv_pos (c := c) h with rfl | rfl | rfl
  · exact ⟨rfl, .inr (.inr (.inr rfl))⟩
  · exact ⟨rfl, .inr (.inr (.inl rfl))⟩
  · exact ⟨rfl, .inr (.inl rfl)⟩
theorem low2 (c : Dev nD) (g : GSem nD τ sig) (u : Unit)
    (h : 0 < (tallyAt (recvCell (peer c 3) 2) () N + tallyAt (recvCell (peer c 2) 1) () N) g u) :
    g.1.2 = .tc ∧ (g.2 = .reg barS ∨ g.2 = .dma recv0 ∨ g.2 = .dma recv1 ∨ g.2 = .dma recv2) :=
  low3 c g u (show 0 < (tallyAt (recvCell (peer c 3) 2) () N + tallyAt (recvCell (peer c 2) 1) () N) g u + (tallyAt (recvCell (peer c 1) 0) () N) g u from Nat.lt_of_lt_of_le h (Nat.le_add_right _ _))
theorem low1 (c : Dev nD) (g : GSem nD τ sig) (u : Unit)
    (h : 0 < (tallyAt (recvCell (peer c 3) 2) () N) g u) :
    g.1.2 = .tc ∧ (g.2 = .reg barS ∨ g.2 = .dma recv0 ∨ g.2 = .dma recv1 ∨ g.2 = .dma recv2) :=
  low2 c g u (show 0 < (tallyAt (recvCell (peer c 3) 2) () N) g u + (tallyAt (recvCell (peer c 2) 1) () N) g u from Nat.lt_of_lt_of_le h (Nat.le_add_right _ _))

/-! ## The body -/

set_option maxHeartbeats 1600000 in
theorem sound_body (K : Dev nD × Fin 7 → ℕ) (c : Dev nD) (W : Waits sig Unit) (Kt : PUnit → sProp 𝕄)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4))
    (hB : ∀ k : Fin 4, Bdef m c k = B c k) :
    iprop(bodyPre m B K c W f0 f1 f2 f3 f4 ∗ (bodyPost m B c -∗ Kt ⟨⟩))
      ⊢ wp frame (wpE (defs₀ (F := F)) 𝒱₀ c none) Set.univ (bodyAt0 (F := F) t0_0) Kt := by
  unfold bodyPre invs positions marks payToks localSems launchCreds rowsPts O₀ Orecv
  iintro ⟨⟨⟨#HIbar, #HIs0, #HIs1, #HIs2, #HIr0, #HIr1, #HIr2, #HIb1, #HIb2, #HIb3, #HIp1, #HIp2, #HIp3⟩,
    ⟨HatB, HatS0, HatS1, HatS2, HatR0, HatR1, HatR2⟩,
    ⟨#HrB1, #HrB2, #HrB3, #HrP1, #HrP2, #HrP3, #HrS0, #HrS1, #HrS2, #HrR0, #HrR1, #HrR2⟩,
    ⟨HtB1, HtB2, HtB3, HtP1, HtP2, HtP3, HtS0, HtS1, HtS2⟩,
    ⟨HzL0, HzL1, HzSt⟩, ⟨HcB, HcR0, HcR1, HcR2⟩, #Hlev, Hx, ⟨Hrw0, Hrw1, Hrw2, Hrw3⟩, ⟨Hs0, Hs1⟩, Hb0, Hb1, Hb2, Hb3, HO⟩, Hk⟩
  -- the levels' word for each wait: the barrier wait owing the three arrivals, the local waits owing what is left of them
  have hmwB := mayWait_bar (F := F) c
  have hmw3 : ∀ q : DmaSem sig, (q ≠ recv0 ∧ q ≠ recv1 ∧ q ≠ recv2) → (levAts L lv : sProp 𝕄) ⊢ MayWait (c : Thread nD τ) (.dma q) ()
      (tallyAt (recvCell (peer c 3) 2) () N + tallyAt (recvCell (peer c 2) 1) () N + tallyAt (recvCell (peer c 1) 0) () N) :=
    fun q hq => mayWait_low c q hq _ (low3 c)
  have hmw2 : ∀ q : DmaSem sig, (q ≠ recv0 ∧ q ≠ recv1 ∧ q ≠ recv2) → (levAts L lv : sProp 𝕄) ⊢ MayWait (c : Thread nD τ) (.dma q) ()
      (tallyAt (recvCell (peer c 3) 2) () N + tallyAt (recvCell (peer c 2) 1) () N) :=
    fun q hq => mayWait_low c q hq _ (low2 c)
  have hmw1 : ∀ q : DmaSem sig, (q ≠ recv0 ∧ q ≠ recv1 ∧ q ≠ recv2) → (levAts L lv : sProp 𝕄) ⊢ MayWait (c : Thread nD τ) (.dma q) ()
      (tallyAt (recvCell (peer c 3) 2) () N) :=
    fun q hq => mayWait_low c q hq _ (low1 c)
  unfold bodyAt0
  sl_unfold [cc0_body]
  -- the handshake, the first two pieces and block 0's two halves
  sl_exec_parts (disch := simp only [dev1_eq, dev2_eq, dev3_eq, dev4_eq, dev5_eq, dev6_eq])
  -- the barrier round's three payloads: each peer's rows and its receive cell opened (a peer's rows are unpacked when its block goes)
  ihave Hbp := (Entails.of_eq (bar_rest m B c)) $$ HatB_pay1
  icases Hbp with ⟨Hp3, Hp2, ⟨Hd1, #HrQ1⟩⟩
  -- block 0 is complete: its two halves, over a buffer nothing else of which is read; it goes one step on
  ihave Hb0' : ((Memref.whole cc0_scratch1).view.loc (c : Thread nD τ) ↦{fullShare} (Memref.whole cc0_scratch1).view.writes (Elt F) f1 (halves (k0_pay1 (rd0 [xU m c 0])) (k0_pay2 (rd1 [xL m c 0])))) $$ [Hb0]
  · iexact Hb0
  ihave Hb0 := (Entails.of_eq (congrArg (fun g => ((Memref.whole cc0_scratch1).view.loc (c : Thread nD τ) ↦{fullShare} g : sProp 𝕄))
    ((restate1 (F := F) f1 _ _).trans ((rfl : _ = Bdef m c 0).trans (hB 0))))) $$ Hb0'
  iapply (wp_send0 m B c (K (c, 1)) (K (peer c 1, 4)) _ (tallyAt (recvCell (peer c 3) 2) () N + tallyAt (recvCell (peer c 2) 1) () N) rfl _) $$ [Hb0 Hd1 HO HtS0 HtP1]
  · isplitr; · iexact HIs0
    isplitr; · iexact HIp1
    isplitl [Hb0]; · iexact Hb0
    isplitl [Hd1]; · iexact Hd1
    isplitl [HO]; · iexact HO
    isplitl [HtS0]; · iexact HtS0
    isplitr; · iexact HrS0
    isplitl [HtP1]; · iexact HtP1
    iexact HrP1
  iintro ⟨HcS0, HO⟩
  sl_exec_parts (disch := simp only [dev1_eq, dev2_eq, dev3_eq, dev4_eq, dev5_eq, dev6_eq])
  -- block 1, two steps on
  ihave Hb1' : ((Memref.whole cc0_scratch2).view.loc (c : Thread nD τ) ↦{fullShare} (Memref.whole cc0_scratch2).view.writes (Elt F) f2 (halves (k0_pay3 (rd0 [xU m c 1, xU m c 0])) (k0_pay4 (rd1 [xL m c 1, xL m c 0])))) $$ [Hb1]
  · iexact Hb1
  ihave Hb1 := (Entails.of_eq (congrArg (fun g => ((Memref.whole cc0_scratch2).view.loc (c : Thread nD τ) ↦{fullShare} g : sProp 𝕄))
    ((restate2 (F := F) f2 _ _).trans ((rfl : _ = Bdef m c 1).trans (hB 1))))) $$ Hb1'
  icases Hp2 with ⟨Hd2, #HrQ2⟩
  iapply (wp_send1 m B c (K (c, 2)) (K (peer c 2, 5)) _ (tallyAt (recvCell (peer c 3) 2) () N) rfl _) $$ [Hb1 Hd2 HO HtS1 HtP2]
  · isplitr; · iexact HIs1
    isplitr; · iexact HIp2
    isplitl [Hb1]; · iexact Hb1
    isplitl [Hd2]; · iexact Hd2
    isplitl [HO]; · iexact HO
    isplitl [HtS1]; · iexact HtS1
    isplitr; · iexact HrS1
    isplitl [HtP2]; · iexact HtP2
    iexact HrP2
  iintro ⟨HcS1, HO⟩
  sl_exec_parts (disch := simp only [dev1_eq, dev2_eq, dev3_eq, dev4_eq, dev5_eq, dev6_eq])
  -- block 2, three steps on
  ihave Hb2' : ((Memref.whole cc0_scratch3).view.loc (c : Thread nD τ) ↦{fullShare} (Memref.whole cc0_scratch3).view.writes (Elt F) f3 (halves (k0_pay5 (rd0 [xU m c 2, xU m c 1, xU m c 0])) (k0_pay7 (k0_pay6 (rd1 [xL m c 2, xL m c 1, xL m c 0]))))) $$ [Hb2]
  · iexact Hb2
  ihave Hb2 := (Entails.of_eq (congrArg (fun g => ((Memref.whole cc0_scratch3).view.loc (c : Thread nD τ) ↦{fullShare} g : sProp 𝕄))
    ((restate3 (F := F) f3 _ _).trans ((rfl : _ = Bdef m c 2).trans (hB 2))))) $$ Hb2'
  icases Hp3 with ⟨Hd3, #HrQ3⟩
  iapply (wp_send2 m B c (K (c, 3)) (K (peer c 3, 6)) _ (0) (zero_add _).symm _) $$ [Hb2 Hd3 HO HtS2 HtP3]
  · isplitr; · iexact HIs2
    isplitr; · iexact HIp3
    isplitl [Hb2]; · iexact Hb2
    isplitl [Hd3]; · iexact Hd3
    isplitl [HO]; · iexact HO
    isplitl [HtS2]; · iexact HtS2
    isplitr; · iexact HrS2
    isplitl [HtP3]; · iexact HtP3
    iexact HrP3
  iintro ⟨HcS2, HO⟩
  -- the kept block, its copy into the thread's own rows, and the seven waits
  sl_exec_parts (disch := simp only [dev1_eq, dev2_eq, dev3_eq, dev4_eq, dev5_eq, dev6_eq])
  -- the six cells the thread owns have seen their one round: closed, their counters are the thread's again
  imod (Rounds.cell_close ER (a2aRd m B) (Set.mem_univ (K (c, 1))) (fun h => h) (R := 1) (duties_later m B (sendCell c 0))) $$ [HatS0] with HzS0
  · isplitr; · iexact HIs0
    iexact HatS0
  imod (Rounds.cell_close ER (a2aRd m B) (Set.mem_univ (K (c, 2))) (fun h => h) (R := 1) (duties_later m B (sendCell c 1))) $$ [HatS1] with HzS1
  · isplitr; · iexact HIs1
    iexact HatS1
  imod (Rounds.cell_close ER (a2aRd m B) (Set.mem_univ (K (c, 3))) (fun h => h) (R := 1) (duties_later m B (sendCell c 2))) $$ [HatS2] with HzS2
  · isplitr; · iexact HIs2
    iexact HatS2
  imod (Rounds.cell_close ER (a2aRd m B) (Set.mem_univ (K (c, 4))) (fun h => h) (R := 1) (duties_later m B (recvCell c 0))) $$ [HatR0] with HzR0
  · isplitr; · iexact HIr0
    iexact HatR0
  imod (Rounds.cell_close ER (a2aRd m B) (Set.mem_univ (K (c, 5))) (fun h => h) (R := 1) (duties_later m B (recvCell c 1))) $$ [HatR1] with HzR1
  · isplitr; · iexact HIr1
    iexact HatR1
  imod (Rounds.cell_close ER (a2aRd m B) (Set.mem_univ (K (c, 6))) (fun h => h) (R := 1) (duties_later m B (recvCell c 2))) $$ [HatR2] with HzR2
  · isplitr; · iexact HIr2
    iexact HatR2
  -- the thread's own rows hold its kept block
  ihave Hrw0' : ((rowsM c).view.loc (c : Thread nD τ) ↦[(rowsM c).view.set]{fullShare}
      (rowsM c).view.writes (Elt F) (m ((c : Thread nD τ).loc main_v1))
        [⟨Rect.whole S4096x1024, (Memref.whole cc0_scratch4 : Memref sig .tc .vmem S4096x1024 .bf16).view.writes (Elt F) f4
          (halves (k0_pay8 (rd0 [xU m c 3, xU m c 2, xU m c 1, xU m c 0])) (k0_pay9 (rd1 [xL m c 3, xL m c 2, xL m c 1, xL m c 0])))⟩]) $$ [Hrw0]
  · iexact Hrw0
  ihave Hrw0 := (Entails.of_eq ((rows_local (F := F) c _ _).trans (congrArg (fun v => ((rowsM c).view.loc (c : Thread nD τ) ↦[(rowsM c).view.set]{fullShare}
      (rowsM c).view.write (Elt F) (m ((c : Thread nD τ).loc main_v1)) v Finset.univ : sProp 𝕄))
      ((restate4 (F := F) f4 _ _).trans ((rfl : _ = Bdef m c 3).trans (hB 3)))))) $$ Hrw0'
  sl_step
  iapply Hk
  unfold bodyPost ownZero localSems rowsPts landed
  isplitl [Hx]; · iexact Hx
  isplitl [Hrw0 HatR0_pay1 HatR1_pay1 HatR2_pay1]
  · isplitl [Hrw0]; · iexact Hrw0
    isplitl [HatR0_pay1]; · iexact HatR0_pay1
    isplitl [HatR1_pay1]; · iexact HatR1_pay1
    iexact HatR2_pay1
  isplitl [Hs0 Hs1]
  · isplitl [Hs0]; · iexists _; iexact Hs0
    iexists _; iexact Hs1
  isplitl [HatS0_pay1]; · iexists _; iexact HatS0_pay1
  isplitl [HatS1_pay1]; · iexists _; iexact HatS1_pay1
  isplitl [HatS2_pay1]; · iexists _; iexact HatS2_pay1
  isplitl [Hb3]; · iexists _; iexact Hb3
  isplitl [HzS0 HzS1 HzS2 HzR0 HzR1 HzR2 HzL0 HzL1 HzSt]
  · isplitl [HzS0]; · iexact HzS0
    isplitl [HzS1]; · iexact HzS1
    isplitl [HzS2]; · iexact HzS2
    isplitl [HzR0]; · iexact HzR0
    isplitl [HzR1]; · iexact HzR1
    isplitl [HzR2]; · iexact HzR2
    isplitl [HzL0]; · iexact HzL0
    isplitl [HzL1]; · iexact HzL1
    iexact HzSt
  iexists _; iexact HO

/-- info: 'Cert.Kernel.A2A.sound_body' depends on axioms: [propext, Classical.choice, Quot.sound] -/
#guard_msgs in #print axioms sound_body

end Cert.Kernel.A2A
end
-- ==== Proof.Bits.BodyOblig.lean ====
/- The body obligation of the one grid point, from the proof of a thread's body.

   What the launch hands a thread is regrouped into what the body starts from: the result buffer cut into its four
   row blocks, the staging buffer into its two slots; what the body leaves is put back together: the row blocks at
   the blocks that landed there are the result at its final contents, the two slots the staging buffer. -/
import proofs.«900656_g7700000000000657_dist_a2a_v7x_xyz2x4x4_z_m4096_n1024_bf16_1_alg».proof.Proof.Bits.BodyDefs
import proofs.«900656_g7700000000000657_dist_a2a_v7x_xyz2x4x4_z_m4096_n1024_bf16_1_alg».proof.Proof.Bits.Blocks
import proofs.«900656_g7700000000000657_dist_a2a_v7x_xyz2x4x4_z_m4096_n1024_bf16_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)
variable (B : Dev nD → Fin 4 → (cc0_scratch1 : Ref sig .tc).ty.Contents (Elt F))

theorem body_obligation_of
    (hsound : ∀ (K : Dev nD × Fin 7 → ℕ) (c : Dev nD) (W : Waits sig Unit) (Kt : PUnit → sProp 𝕄) f0 f1 f2 f3 f4,
      iprop(bodyPre m (Bdef m) K c W f0 f1 f2 f3 f4 ∗ (bodyPost m (Bdef m) c -∗ Kt ⟨⟩))
        ⊢ wp frame (wpE (defs₀ (F := F)) 𝒱₀ c none) Set.univ (bodyAt0 (F := F) t0_0) Kt) (c : Dev nD) :
    BodyObligation (dats (F := F) m (Bdef m) 0 c) (defs₀ (F := F)) 𝒱₀ () Set.univ := fun t => by
  rw [fin_N0 t]
  have hW : (Finset.univ : Finset (Fin cfg0.W)) = ∅ := by decide
  rw [hW, bigSep_empty, bigSep_empty]
  show iprop(Φ₀ m (Bdef m) c ∗ (dats m (Bdef m) 0 c).owesAt () t0_0.castSucc ∗ emp)
    ⊢ wp frame (wpE (defs₀ (F := F)) 𝒱₀ c none) Set.univ (bodyAt0 (F := F) t0_0)
      (fun _ => iprop(Φ₁ m (Bdef m) c ∗ (dats m (Bdef m) 0 c).owesAt () t0_0.succ ∗ emp))
  unfold Dat.owesAt Pipeline.owesWithin Φ₀ start G' ghost scratch
  iintro ⟨⟨⟨⟨⟨%K, Hinv, Hpos, Hmk, Htok⟩, Hloc⟩, Hcred, Hlev, Hx, Ho⟩, ⟨%f0, H0⟩, ⟨%f1, H1⟩, ⟨%f2, H2⟩, ⟨%f3, H3⟩, ⟨%f4, H4⟩⟩, ⟨%W, %hWb, HO⟩, -⟩
  ihave Hrows := (rows_split c (m ((c : Thread nD τ).loc main_v1))) $$ Ho
  icases Hrows with ⟨Hr0, Hr1, Hr2, Hr3⟩
  ihave Hst := (stage_split c f0) $$ H0
  icases Hst with ⟨Hs0, Hs1⟩
  iapply (hsound K c W (fun _ => iprop(Φ₁ m (Bdef m) c ∗ (∃ W, ⌜↑W ⊆ (dats m (Bdef m) 0 c).bound () t0_0.succ⌝ ∗ owes (c : Thread nD τ) ((dats m (Bdef m) 0 c).owed t0_0.succ) W) ∗ emp)) f0 f1 f2 f3 f4)
  isplitr []
  · unfold bodyPre bufPts
    isplitl [Hinv]; · iexact Hinv
    isplitl [Hpos]; · iexact Hpos
    isplitl [Hmk]; · iexact Hmk
    isplitl [Htok]; · iexact Htok
    isplitl [Hloc]; · iexact Hloc
    isplitl [Hcred]; · iexact Hcred
    isplitl [Hlev]; · iexact Hlev
    isplitl [Hx]; · iexact Hx
    isplitl [Hr0 Hr1 Hr2 Hr3]
    · isplitl [Hr0]; · iexact Hr0
      isplitl [Hr1]; · iexact Hr1
      isplitl [Hr2]; · iexact Hr2
      iexact Hr3
    isplitl [Hs0 Hs1]
    · isplitl [Hs0]; · iexact Hs0
      iexact Hs1
    isplitl [H1]; · iexact H1
    isplitl [H2]; · iexact H2
    isplitl [H3]; · iexact H3
    isplitl [H4]; · iexact H4
    iexact HO
  · unfold bodyPost
    iintro ⟨Hx, Hrows, ⟨⟨%g0, Hs0⟩, ⟨%g1, Hs1⟩⟩, H1, H2, H3, H4, Hz, ⟨%W', HO⟩⟩
    ihave Hv := (rows_join m (Bdef m) c) $$ Hrows
    ihave H0 := (stage_join c g0 g1) $$ [Hs0 Hs1]
    · isplitl [Hs0]; · iexact Hs0
      iexact Hs1
    isplitl [Hx Hv H0 H1 H2 H3 H4 Hz]
    · unfold Φ₁ scratch bufPts
      isplitl [Hx]; · iexact Hx
      isplitl [Hv]; · iexact Hv
      isplitr [Hz]
      · isplitl [H0]; · iexact H0
        isplitl [H1]; · iexact H1
        isplitl [H2]; · iexact H2
        isplitl [H3]; · iexact H3
        iexact H4
      iexact Hz
    isplitl [HO]
    · iexists W'
      isplitr
      · ipureintro; exact fun _ _ => Or.inl trivial
      iexact HO
    iempintro

/-- info: 'Cert.Kernel.A2A.body_obligation_of' depends on axioms: [propext, Classical.choice, Quot.sound] -/
#guard_msgs in #print axioms body_obligation_of

end Cert.Kernel.A2A

end
-- ==== Proof.Bits.Thread.lean ====
/- The body obligation of the one grid point, on every device: the thread's run through the body, started from what
   the launch hands the device and ended in what the launch takes back. -/
import proofs.«900656_g7700000000000657_dist_a2a_v7x_xyz2x4x4_z_m4096_n1024_bf16_1_alg».proof.Proof.Bits.Body
import proofs.«900656_g7700000000000657_dist_a2a_v7x_xyz2x4x4_z_m4096_n1024_bf16_1_alg».proof.Proof.Bits.BodyOblig

noncomputable section
namespace Cert.Kernel.A2A
open Cert.Kernel Cert.Kernel.Gen
open Idealize.ShloMosaic
open Idealize.ShloMosaic.TcCoe
open Idealize.SL.Sem
open Idealize.ShloMosaic.Pipeline (Dat Cfg Window BodyObligation cellOf)

variable {F : FTy → Type} [FloatOps F] [∀ e, Nonempty (Elt F e)]

theorem body_obligation (m : (ℓ : Loc nD τ sig) → Buf (Elt F) ℓ) (c : Dev nD) :
    BodyObligation (dats (F := F) m (Bdef m) 0 c) (defs₀ (F := F)) 𝒱₀ () Set.univ :=
  body_obligation_of m (fun K c W Kt f0 f1 f2 f3 f4 => sound_body m (Bdef m) K c W Kt f0 f1 f2 f3 f4 (fun _ => rfl)) c

/-- info: 'Cert.Kernel.A2A.body_obligation' depends on axioms: [propext, Classical.choice, Quot.sound] -/
#guard_msgs in #print axioms body_obligation

end Cert.Kernel.A2A
end
-- ==== Proof.lean ====
/- The certificate's claim from its parts: the two printed kernel programs run from any memory with zero counters, each
   device's argument unchanged and, at the ideal instance, its result its column block of the narrowed whole input;
   the reference's one device leaves exactly that narrowed whole input. -/
import proofs.«900656_g7700000000000657_dist_a2a_v7x_xyz2x4x4_z_m4096_n1024_bf16_1_alg».proof.Defs
import proofs.«900656_g7700000000000657_dist_a2a_v7x_xyz2x4x4_z_m4096_n1024_bf16_1_alg».proof.Proof.Gen.Kernel
import proofs.«900656_g7700000000000657_dist_a2a_v7x_xyz2x4x4_z_m4096_n1024_bf16_1_alg».proof.Proof.Gen.KernelIdeal
import proofs.«900656_g7700000000000657_dist_a2a_v7x_xyz2x4x4_z_m4096_n1024_bf16_1_alg».proof.Proof.Gen.ReferenceIdeal
import proofs.«900656_g7700000000000657_dist_a2a_v7x_xyz2x4x4_z_m4096_n1024_bf16_1_alg».proof.Proof.Gen.ReferenceIdeal.Run
import proofs.«900656_g7700000000000657_dist_a2a_v7x_xyz2x4x4_z_m4096_n1024_bf16_1_alg».proof.Proof.Gen.Pre_finite_inputs_Kernel
import proofs.«900656_g7700000000000657_dist_a2a_v7x_xyz2x4x4_z_m4096_n1024_bf16_1_alg».proof.Proof.Gen.Pre_finite_inputs_ReferenceIdeal
import proofs.«900656_g7700000000000657_dist_a2a_v7x_xyz2x4x4_z_m4096_n1024_bf16_1_alg».proof.Proof.Launch
import proofs.«900656_g7700000000000657_dist_a2a_v7x_xyz2x4x4_z_m4096_n1024_bf16_1_alg».proof.Proof.Blocks
import proofs.«900656_g7700000000000657_dist_a2a_v7x_xyz2x4x4_z_m4096_n1024_bf16_1_alg».proof.Proof.OutValue
import proofs.«900656_g7700000000000657_dist_a2a_v7x_xyz2x4x4_z_m4096_n1024_bf16_1_alg».proof.Proof.Bits.Launch
import proofs.«900656_g7700000000000657_dist_a2a_v7x_xyz2x4x4_z_m4096_n1024_bf16_1_alg».proof.Proof.Bits.Blocks
import proofs.«900656_g7700000000000657_dist_a2a_v7x_xyz2x4x4_z_m4096_n1024_bf16_1_alg».proof.Proof.Thread
import proofs.«900656_g7700000000000657_dist_a2a_v7x_xyz2x4x4_z_m4096_n1024_bf16_1_alg».proof.Proof.BlockValue
import proofs.«900656_g7700000000000657_dist_a2a_v7x_xyz2x4x4_z_m4096_n1024_bf16_1_alg».proof.Proof.Bits.Thread

noncomputable section

namespace Cert.Proof

open Idealize.ShloMosaic Idealize.SL.Sem

/-- The word-level program runs, each device's argument unchanged: its run with the result dropped. -/
theorem frameKernel : Cert.frame_Kernel (hKernel := Cert.Kernel.Gen.facts) (hPre_finite_inputs_Kernel := Cert.Pre_finite_inputs_Kernel.Gen.facts) :=
  fun m g _ => (θ_run _ _ _).mono (fun _ h c => (h c).2)
    (Cert.Kernel.A2A.run_main_of (F := Bits) m g (Cert.Kernel.A2A.Bdef m) (Cert.Kernel.A2A.body_obligation m))

/-- The idealized program runs, each device's argument unchanged: its run with the result dropped. -/
theorem frameKernelIdeal : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2)
    (Cert.KernelIdeal.A2A.run_main_of (F := Ideal) m g (Cert.KernelIdeal.A2A.Bdef m) (Cert.KernelIdeal.A2A.body_obligation m))

/-- The reference runs, its argument unchanged: its run with the result dropped. -/
theorem frameReferenceIdeal : Cert.frame_ReferenceIdeal (hReferenceIdeal := Cert.ReferenceIdeal.Gen.facts) (hPre_finite_inputs_ReferenceIdeal := Cert.Pre_finite_inputs_ReferenceIdeal.Gen.facts) :=
  fun m g _ => (θ_run _ _ _).mono (fun _ h c => (h c).2) (Cert.ReferenceIdeal.Value.run (F := Ideal) m g)

/-- At the ideal instance: the reference leaves the narrowed whole input, and each device's result is its column block
    of it, when each device's argument is its row block of the whole input. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) :=
  fun m g m' g' _ hagree => by
    refine ⟨(truncf (F := Ideal) .bf16 (m' (((0 : Dev Cert.ReferenceIdeal.nD).tc : Thread Cert.ReferenceIdeal.nD Cert.ReferenceIdeal.τ).loc Cert.ReferenceIdeal.main_arg0))
        Cert.ReferenceIdeal.Gen.bitsLt_bf16_f32 : (⟨Cert.ReferenceIdeal.S16384x4096, .bf16⟩ : BufTy).Contents (Elt Ideal)), ?_, ?_⟩
    · exact (θ_run _ _ _).mono (fun _ h c => ⟨(h c).1.trans
          (Cert.KernelIdeal.A2A.outVal_eq m (Cert.KernelIdeal.A2A.Bdef m) _ Cert.KernelIdeal.Gen.bitsLt_bf16_f32 Cert.KernelIdeal.A2A.colIdx
            (fun _ _ _ => rfl) (fun _ _ _ => rfl) (Cert.KernelIdeal.A2A.Bdef_apply m) hagree c), (h c).2⟩)
        (Cert.KernelIdeal.A2A.run_main_of (F := Ideal) m g (Cert.KernelIdeal.A2A.Bdef m) (Cert.KernelIdeal.A2A.body_obligation m))
    · exact (θ_run _ _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frameKernel, frameKernelIdeal, frameReferenceIdeal, trivial, algebraic⟩

end Cert.Proof

end
